-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S12288x2 : Shape := ⟨2, ![12288, 2]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S12288x2 : S_.BroadcastsInDim S12288x2 (![] : Fin 0 → Fin S12288x2.rank)
  reducesTo_S12288x2_S_d0_1 : S12288x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x4096x3 .f32) (main_arg1 : FVec F S8x4096x3 .f32) (main_arg2 : IVec S12288x2 32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_c_2 : IVec S_ 32 := constantI S_ 32 0#32
  let main_v9 : IVec S12288x2 32 := broadcastInDim S12288x2 ![] bcast_S_S12288x2 main_c_2
  let main_v10 : IVec S12288x2 1 := cmpi .sge main_arg2 main_v9
  let main_c_3 : IVec S_ 1 := constantI S_ 1 1#1
  let main_v11 : IVec S_ 1 := (fun x v => Host.reduce IntOp.andi x v reducesTo_S12288x2_S_d0_1 h_S_) main_v10 main_c_3
  let main_v12 : IVec S_ 1 := andi main_v8 main_v11
  let main_c_4 : IVec S_ 32 := constantI S_ 32 4096#32
  let main_v13 : IVec S12288x2 32 := broadcastInDim S12288x2 ![] bcast_S_S12288x2 main_c_4
  let main_v14 : IVec S12288x2 1 := cmpi .slt main_arg2 main_v13
  let main_c_5 : IVec S_ 1 := constantI S_ 1 1#1
  let main_v15 : IVec S_ 1 := (fun x v => Host.reduce IntOp.andi x v reducesTo_S12288x2_S_d0_1 h_S_) main_v14 main_c_5
  fn_part1 (F := F) main_v12 main_v15
-- ==== Kernel.lean ====
abbrev S8x4096x3 : Shape := ⟨3, ![8, 4096, 3]⟩
abbrev S12288x2 : Shape := ⟨2, ![12288, 2]⟩
abbrev S8x3x4096 : Shape := ⟨3, ![8, 3, 4096]⟩
abbrev S8x1x4096 : Shape := ⟨3, ![8, 1, 4096]⟩
abbrev S1x512x3 : Shape := ⟨3, ![1, 512, 3]⟩
abbrev S1x3x4096 : Shape := ⟨3, ![1, 3, 4096]⟩
abbrev S1x1x512 : Shape := ⟨3, ![1, 1, 512]⟩
abbrev S1x1x4096 : Shape := ⟨3, ![1, 1, 4096]⟩
abbrev S512x3 : Shape := ⟨2, ![512, 3]⟩
abbrev S3x4096 : Shape := ⟨2, ![3, 4096]⟩
abbrev S512x1 : Shape := ⟨2, ![512, 1]⟩
abbrev S1x4096 : Shape := ⟨2, ![1, 4096]⟩
abbrev S512x4096 : Shape := ⟨2, ![512, 4096]⟩
abbrev S512 : Shape := ⟨1, ![512]⟩
abbrev S4096 : Shape := ⟨1, ![4096]⟩
abbrev S_ : Shape := ⟨0, ![]⟩
abbrev S12288x1 : Shape := ⟨2, ![12288, 1]⟩
abbrev S12288 : Shape := ⟨1, ![12288]⟩
abbrev S1 : Shape := ⟨1, ![1]⟩
abbrev S1x1 : Shape := ⟨2, ![1, 1]⟩
abbrev S8x12288x3 : Shape := ⟨3, ![8, 12288, 3]⟩
abbrev S8x12288 : Shape := ⟨2, ![8, 12288]⟩

abbrev nBuf : Space → Nat
  | .hbm => 96
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S12288x2, .i32⟩
  | .hbm, ⟨3, _⟩ => ⟨S8x3x4096, .f32⟩
  | .hbm, ⟨4, _⟩ => ⟨S8x1x4096, .f32⟩
  | .hbm, ⟨5, _⟩ => ⟨S8x1x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S12288x1, .i32⟩
  | .hbm, ⟨16, _⟩ => ⟨S12288, .i32⟩
  | .hbm, ⟨17, _⟩ => ⟨S12288x1, .i32⟩
  | .hbm, ⟨18, _⟩ => ⟨S12288, .i32⟩
  | .hbm, ⟨19, _⟩ => ⟨S_, .i32⟩
  | .hbm, ⟨20, _⟩ => ⟨S12288, .i32⟩
  | .hbm, ⟨21, _⟩ => ⟨S12288, .i1⟩
  | .hbm, ⟨22, _⟩ => ⟨S_, .i32⟩
  | .hbm, ⟨23, _⟩ => ⟨S12288, .i32⟩
  | .hbm, ⟨24, _⟩ => ⟨S12288, .i32⟩
  | .hbm, ⟨25, _⟩ => ⟨S12288, .i32⟩
  | .hbm, ⟨26, _⟩ => ⟨S12288x1, .i32⟩
  | .hbm, ⟨27, _⟩ => ⟨S1, .i32⟩
  | .hbm, ⟨28, _⟩ => ⟨S_, .i32⟩
  | .hbm, ⟨29, _⟩ => ⟨S12288x1, .i32⟩
  | .hbm, ⟨30, _⟩ => ⟨S12288x1, .i1⟩
  | .hbm, ⟨31, _⟩ => ⟨S1x1, .i32⟩
  | .hbm, ⟨32, _⟩ => ⟨S12288x1, .i32⟩
  | .hbm, ⟨33, _⟩ => ⟨S12288x1, .i1⟩
  | .hbm, ⟨34, _⟩ => ⟨S12288x1, .i1⟩
  | .hbm, ⟨35, _⟩ => ⟨S_, .i1⟩
  | .hbm, ⟨36, _⟩ => ⟨S12288, .i1⟩
  | .hbm, ⟨37, _⟩ => ⟨S8x12288x3, .f32⟩
  | .hbm, ⟨38, _⟩ => ⟨S8x12288x3, .i1⟩
  | .hbm, ⟨39, _⟩ => ⟨S_, .f32⟩
  | .hbm, ⟨40, _⟩ => ⟨S8x12288x3, .f32⟩
  | .hbm, ⟨41, _⟩ => ⟨S8x12288x3, .f32⟩
  | .hbm, ⟨42, _⟩ => ⟨S_, .i32⟩
  | .hbm, ⟨43, _⟩ => ⟨S12288, .i32⟩
  | .hbm, ⟨44, _⟩ => ⟨S12288, .i1⟩
  | .hbm, ⟨45, _⟩ => ⟨S_, .i32⟩
  | .hbm, ⟨46, _⟩ => ⟨S12288, .i32⟩
  | .hbm, ⟨47, _⟩ => ⟨S12288, .i32⟩
  | .hbm, ⟨48, _⟩ => ⟨S12288, .i32⟩
  | .hbm, ⟨49, _⟩ => ⟨S12288x1, .i32⟩
  | .hbm, ⟨50, _⟩ => ⟨S1, .i32⟩
  | .hbm, ⟨51, _⟩ => ⟨S_, .i32⟩
  | .hbm, ⟨52, _⟩ => ⟨S12288x1, .i32⟩
  | .hbm, ⟨53, _⟩ => ⟨S12288x1, .i1⟩
  | .hbm, ⟨54, _⟩ => ⟨S1x1, .i32⟩
  | .hbm, ⟨55, _⟩ => ⟨S12288x1, .i32⟩
  | .hbm, ⟨56, _⟩ => ⟨S12288x1, .i1⟩
  | .hbm, ⟨57, _⟩ => ⟨S12288x1, .i1⟩
  | .hbm, ⟨58, _⟩ => ⟨S_, .i1⟩
  | .hbm, ⟨59, _⟩ => ⟨S12288, .i1⟩
  | .hbm, ⟨60, _⟩ => ⟨S8x12288x3, .f32⟩
  | .hbm, ⟨61, _⟩ => ⟨S8x12288x3, .i1⟩
  | .hbm, ⟨62, _⟩ => ⟨S_, .f32⟩
  | .hbm, ⟨63, _⟩ => ⟨S8x12288x3, .f32⟩
  | .hbm, ⟨64, _⟩ => ⟨S8x12288x3, .f32⟩
  | .hbm, ⟨65, _⟩ => ⟨S8x12288x3, .f32⟩
  | .hbm, ⟨66, _⟩ => ⟨S8x12288x3, .f32⟩
  | .hbm, ⟨67, _⟩ => ⟨S_, .f32⟩
  | .hbm, ⟨68, _⟩ => ⟨S8x12288, .f32⟩
  | .hbm, ⟨69, _⟩ => ⟨S8x12288, .f32⟩
  | .hbm, ⟨70, _⟩ => ⟨S_, .i32⟩
  | .hbm, ⟨71, _⟩ => ⟨S_, .f32⟩
  | .hbm, ⟨72, _⟩ => ⟨S_, .f32⟩
  | .hbm, ⟨73, _⟩ => ⟨S1x1, .f32⟩
  | .hbm, ⟨74, _⟩ => ⟨S_, .f32⟩
  | .hbm, ⟨75, _⟩ => ⟨S1x1, .f32⟩
  | .hbm, ⟨76, _⟩ => ⟨S1x1, .f32⟩
  | .hbm, ⟨77, _⟩ => ⟨S8x12288, .f32⟩
  | .hbm, ⟨78, _⟩ => ⟨S8x12288, .f32⟩
  | .hbm, ⟨79, _⟩ => ⟨S8x12288, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v11 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v12 : Ref sig .tc := ⟨.hbm, 64, rfl⟩
abbrev main_v13 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_v14 : Ref sig .tc := ⟨.hbm, 69, rfl⟩
abbrev main_c : Ref sig .tc := ⟨.hbm, 70, rfl⟩
abbrev main_call3_cst : Ref sig .tc := ⟨.hbm, 71, rfl⟩
abbrev main_call3_v0 : Ref sig .tc := ⟨.hbm, 72, rfl⟩
abbrev main_call3_v1 : Ref sig .tc := ⟨.hbm, 73, rfl⟩
abbrev main_call3_cst_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_cst_1 : Ref sig .tc := ⟨.hbm, 81, rfl⟩
abbrev main_call3_v8 : Ref sig .tc := ⟨.hbm, 82, rfl⟩
abbrev main_call3_cst_2 : Ref sig .tc := ⟨.hbm, 83, rfl⟩
abbrev main_call3_v9 : Ref sig .tc := ⟨.hbm, 84, rfl⟩
abbrev main_call3_v10 : Ref sig .tc := ⟨.hbm, 85, rfl⟩
abbrev main_call3_cst_3 : Ref sig .tc := ⟨.hbm, 86, rfl⟩
abbrev main_call3_v11 : Ref sig .tc := ⟨.hbm, 87, rfl⟩
abbrev main_call3_cst_4 : Ref sig .tc := ⟨.hbm, 88, rfl⟩
abbrev main_call3_call0_v0 : Ref sig .tc := ⟨.hbm, 89, rfl⟩
abbrev main_v15 : Ref sig .tc := ⟨.hbm, 90, rfl⟩
abbrev main_cst_3 : Ref sig .tc := ⟨.hbm, 91, rfl⟩
abbrev main_v16 : Ref sig .tc := ⟨.hbm, 92, rfl⟩
abbrev main_cst_4 : Ref sig .tc := ⟨.hbm, 93, rfl⟩
abbrev main_v17 : Ref sig .tc := ⟨.hbm, 94, rfl⟩
abbrev main_v18 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S512x3_o0_0_S512x1 : S512x3.Slices ![0, 0] S512x1
  slices_S3x4096_o0_0_S1x4096 : S3x4096.Slices ![0, 0] S1x4096
  broadcasts_S512x1_S512x4096 : S512x1.Broadcasts S512x4096
  broadcasts_S1x4096_S512x4096 : S1x4096.Broadcasts S512x4096
  slices_S512x3_o0_1_S512x1 : S512x3.Slices ![0, 1] S512x1
  slices_S3x4096_o1_0_S1x4096 : S3x4096.Slices ![1, 0] S1x4096
  slices_S512x3_o0_2_S512x1 : S512x3.Slices ![0, 2] S512x1
  slices_S3x4096_o2_0_S1x4096 : S3x4096.Slices ![2, 0] S1x4096
  reduces_S512x4096_S512 : S512x4096.Reduces [1] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  reduces_S512x4096_S4096 : S512x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  reducesTo_S8x1x4096_S_d0_1_2 : S8x1x4096.ReducesTo [0, 1, 2] S_
  h_S_ : 0 < S_.numel
  slices_S12288x2_S12288x1_0_0 : S12288x2.Slices ![0, 0] S12288x1
  shapeCasts_S12288x1_S12288 : S12288x1.ShapeCasts S12288
  slices_S12288x2_S12288x1_0_1 : S12288x2.Slices ![0, 1] S12288x1
  bcast_S_S12288 : S_.BroadcastsInDim S12288 (![] : Fin 0 → Fin S12288.rank)
  bcast_S12288_S12288x1_0 : S12288.BroadcastsInDim S12288x1 (![0] : Fin 1 → Fin S12288x1.rank)
  bcast_S_S12288x1 : S_.BroadcastsInDim S12288x1 (![] : Fin 0 → Fin S12288x1.rank)
  bcast_S1_S1x1_1 : S1.BroadcastsInDim S1x1 (![1] : Fin 1 → Fin S1x1.rank)
  bcast_S1x1_S12288x1_0_1 : S1x1.BroadcastsInDim S12288x1 (![0, 1] : Fin 2 → Fin S12288x1.rank)
  reducesTo_S12288x1_S12288_d1 : S12288x1.ReducesTo [1] S12288
  bcast_S12288_S8x12288x3_1 : S12288.BroadcastsInDim S8x12288x3 (![1] : Fin 1 → Fin S8x12288x3.rank)
  bcast_S_S8x12288x3 : S_.BroadcastsInDim S8x12288x3 (![] : Fin 0 → Fin S8x12288x3.rank)
  reducesTo_S8x12288x3_S8x12288_d2 : S8x12288x3.ReducesTo [2] S8x12288
  reducesTo_S8x12288_S_d0_1 : S8x12288.ReducesTo [0, 1] S_
  bcast_S_S1x1 : S_.BroadcastsInDim S1x1 (![] : Fin 0 → Fin S1x1.rank)
  bcast_S1x1_S8x12288_0_1 : S1x1.BroadcastsInDim S8x12288 (![0, 1] : Fin 2 → Fin S8x12288.rank)
  gather_S8x4096x3_S12288x1_S8x12288x3_02_1_n_n_1_1_813_wf : GatherDims.WF S8x4096x3 S12288x1 S8x12288x3 [0, 2] [1] [] [1] [] 1 ![8, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def gather_S8x4096x3_S12288x1_S8x12288x3_02_1_n_n_1_1_813 : GatherDims S8x4096x3 S12288x1 S8x12288x3 where
  offsetDims := [0, 2]
  collapsedSliceDims := [1]
  operandBatchingDims := []
  startIndicesBatchingDims := []
  startIndexMap := [1]
  indexVectorDim := 1
  sliceSizes := ![8, 1, 3]
  wf := gather_S8x4096x3_S12288x1_S8x12288x3_02_1_n_n_1_1_813_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S12288x2 : Shape := ⟨2, ![12288, 2]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S12288x1 : Shape := ⟨2, ![12288, 1]⟩
abbrev S12288 : Shape := ⟨1, ![12288]⟩
abbrev S8x12288x3 : Shape := ⟨3, ![8, 12288, 3]⟩
abbrev S8x12288 : Shape := ⟨2, ![8, 12288]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S12288x2, .i32⟩
  | .hbm, ⟨3, _⟩ => ⟨S8x4096x3, .f32⟩
  | .hbm, ⟨4, _⟩ => ⟨S_, .f32⟩
  | .hbm, ⟨5, _⟩ => ⟨S8x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x4096, .f32⟩
  | .hbm, ⟨10, _⟩ => ⟨S8x4096x1, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S12288x1, .i32⟩
  | .hbm, ⟨37, _⟩ => ⟨S12288, .i32⟩
  | .hbm, ⟨38, _⟩ => ⟨S_, .i32⟩
  | .hbm, ⟨39, _⟩ => ⟨S12288, .i32⟩
  | .hbm, ⟨40, _⟩ => ⟨S12288, .i1⟩
  | .hbm, ⟨41, _⟩ => ⟨S_, .i32⟩
  | .hbm, ⟨42, _⟩ => ⟨S12288, .i32⟩
  | .hbm, ⟨43, _⟩ => ⟨S12288, .i32⟩
  | .hbm, ⟨44, _⟩ => ⟨S12288, .i32⟩
  | .hbm, ⟨45, _⟩ => ⟨S12288x1, .i32⟩
  | .hbm, ⟨46, _⟩ => ⟨S8x12288x3, .f32⟩
  | .hbm, ⟨47, _⟩ => ⟨S12288x1, .i32⟩
  | .hbm, ⟨48, _⟩ => ⟨S12288, .i32⟩
  | .hbm, ⟨49, _⟩ => ⟨S_, .i32⟩
  | .hbm, ⟨50, _⟩ => ⟨S12288, .i32⟩
  | .hbm, ⟨51, _⟩ => ⟨S12288, .i1⟩
  | .hbm, ⟨52, _⟩ => ⟨S_, .i32⟩
  | .hbm, ⟨53, _⟩ => ⟨S12288, .i32⟩
  | .hbm, ⟨54, _⟩ => ⟨S12288, .i32⟩
  | .hbm, ⟨55, _⟩ => ⟨S12288, .i32⟩
  | .hbm, ⟨56, _⟩ => ⟨S12288x1, .i32⟩
  | .hbm, ⟨57, _⟩ => ⟨S8x12288x3, .f32⟩
  | .hbm, ⟨58, _⟩ => ⟨S8x12288x3, .f32⟩
  | .hbm, ⟨59, _⟩ => ⟨S8x12288x3, .f32⟩
  | .hbm, ⟨60, _⟩ => ⟨S_, .f32⟩
  | .hbm, ⟨61, _⟩ => ⟨S8x12288, .f32⟩
  | .hbm, ⟨62, _⟩ => ⟨S8x12288, .f32⟩
  | .hbm, ⟨63, _⟩ => ⟨S_, .i32⟩
  | .hbm, ⟨64, _⟩ => ⟨S_, .f32⟩
  | .hbm, ⟨65, _⟩ => ⟨S_, .f32⟩
  | .hbm, ⟨66, _⟩ => ⟨S1x1, .f32⟩
  | .hbm, ⟨67, _⟩ => ⟨S_, .f32⟩
  | .hbm, ⟨68, _⟩ => ⟨S1x1, .f32⟩
  | .hbm, ⟨69, _⟩ => ⟨S1x1, .f32⟩
  | .hbm, ⟨70, _⟩ => ⟨S8x12288, .f32⟩
  | .hbm, ⟨71, _⟩ => ⟨S8x12288, .f32⟩
  | .hbm, ⟨72, _⟩ => ⟨S8x12288, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_c_11 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call0_v0 : Ref sig .tc := ⟨.hbm, 59, rfl⟩
abbrev main_call0_cst : Ref sig .tc := ⟨.hbm, 60, rfl⟩
abbrev main_call0_v1 : Ref sig .tc := ⟨.hbm, 61, rfl⟩
abbrev main_v42 : Ref sig .tc := ⟨.hbm, 62, rfl⟩
abbrev main_c_12 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_cst_1 : Ref sig .tc := ⟨.hbm, 74, rfl⟩
abbrev main_call1_v8 : Ref sig .tc := ⟨.hbm, 75, rfl⟩
abbrev main_call1_cst_2 : Ref sig .tc := ⟨.hbm, 76, rfl⟩
abbrev main_call1_v9 : Ref sig .tc := ⟨.hbm, 77, rfl⟩
abbrev main_call1_v10 : Ref sig .tc := ⟨.hbm, 78, rfl⟩
abbrev main_call1_cst_3 : Ref sig .tc := ⟨.hbm, 79, rfl⟩
abbrev main_call1_v11 : Ref sig .tc := ⟨.hbm, 80, rfl⟩
abbrev main_call1_cst_4 : Ref sig .tc := ⟨.hbm, 81, rfl⟩
abbrev main_call1_call0_v0 : Ref sig .tc := ⟨.hbm, 82, rfl⟩
abbrev main_v43 : Ref sig .tc := ⟨.hbm, 83, rfl⟩
abbrev main_cst_13 : Ref sig .tc := ⟨.hbm, 84, rfl⟩
abbrev main_v44 : Ref sig .tc := ⟨.hbm, 85, rfl⟩
abbrev main_cst_14 : Ref sig .tc := ⟨.hbm, 86, rfl⟩
abbrev main_v45 : Ref sig .tc := ⟨.hbm, 87, rfl⟩
abbrev main_v46 : Ref sig .tc := ⟨.hbm, 88, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  slices_S12288x2_S12288x1_0_0 : S12288x2.Slices ![0, 0] S12288x1
  shapeCasts_S12288x1_S12288 : S12288x1.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  slices_S12288x2_S12288x1_0_1 : S12288x2.Slices ![0, 1] S12288x1
  reducesTo_S8x12288x3_S8x12288_d2 : S8x12288x3.ReducesTo [2] S8x12288
  reducesTo_S8x12288_S_d0_1 : S8x12288.ReducesTo [0, 1] S_
  bcast_S_S1x1 : S_.BroadcastsInDim S1x1 (![] : Fin 0 → Fin S1x1.rank)
  bcast_S1x1_S8x12288_0_1 : S1x1.BroadcastsInDim S8x12288 (![0, 1] : Fin 2 → Fin S8x12288.rank)
  dot_S8x4096x3_S8x4096x3_S8x4096x4096_2_2_1_1_0_0_wf : DotDims.WF S8x4096x3 S8x4096x3 S8x4096x4096 [2] [2] [1] [1] [0] [0]
  gather_S8x4096x3_S12288x1_S8x12288x3_02_1_n_n_1_1_813_wf : GatherDims.WF S8x4096x3 S12288x1 S8x12288x3 [0, 2] [1] [] [1] [] 1 ![8, 1, 3]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf
def gather_S8x4096x3_S12288x1_S8x12288x3_02_1_n_n_1_1_813 : GatherDims S8x4096x3 S12288x1 S8x12288x3 where
  offsetDims := [0, 2]
  collapsedSliceDims := [1]
  operandBatchingDims := []
  startIndicesBatchingDims := []
  startIndexMap := [1]
  indexVectorDim := 1
  sliceSizes := ![8, 1, 3]
  wf := gather_S8x4096x3_S12288x1_S8x12288x3_02_1_n_n_1_1_813_wf

class Facts : Prop extends Facts₀ where

variable [Facts]
-- ==== Proof.KI.Shared.lean ====
/-
  The two branch conditions of the distance kernel's body, decided over its 8 x 8 grid, and the staging memrefs
  the body is called with at each grid point. The grid point t is (batch b, row tile n) with t = 8 b + n; the
  first condition (the running column minimum is reset to +inf) holds exactly at n = 0, the second (the running
  minimum is turned into a distance, sqrt (max · 0)) exactly at n = 7.
-/
import proofs.«412153_j16054587752992_3_alg».proof.Proof.Gen.KernelIdeal.Launch
import proofs.«412153_j16054587752992_3_alg».proof.Proof.Gen.KernelIdeal.Skeleton
import proofs.«412153_j16054587752992_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body resets the running column minimum: the row-tile coordinate is 0. -/
abbrev cond0_0 (i : grid0.Coords) : Prop := (Scalar.cmpi .ne (Scalar.extui (Scalar.cmpi .eq (BitVec.ofNat 32 (i 1).val) 0#32)) 0#32) = 1#1
/-- Exactly at the points 8 b. -/
theorem hcond0_0 : ∀ t : Fin cfg0.N, cond0_0 (grid0.coords t) ↔ t.val % 8 = 0 :=
  (by decide +kernel : ∀ t : Fin grid0.N, cond0_0 (grid0.coords t) ↔ t.val % 8 = 0)

/-- The body finishes the running column minimum: the row-tile coordinate is 7. -/
abbrev cond0_1 (i : grid0.Coords) : Prop := (Scalar.cmpi .ne (Scalar.extui (Scalar.cmpi .eq (BitVec.ofNat 32 (i 1).val) 7#32)) 0#32) = 1#1
/-- Exactly at the points 8 b + 7. -/
theorem hcond0_1 : ∀ t : Fin cfg0.N, cond0_1 (grid0.coords t) ↔ t.val % 8 = 7 :=
  (by decide +kernel : ∀ t : Fin grid0.N, cond0_1 (grid0.coords t) ↔ t.val % 8 = 7)

/-- One staging buffer of each output window, through which its contents are stated. -/
abbrev VO2 : View sig .tc .vmem S1x1x512 .f32 := (Memref.whole cc0_stg2_0 : Memref sig .tc .vmem S1x1x512 .f32).view
abbrev VO3 : View sig .tc .vmem S1x1x4096 .f32 := (Memref.whole cc0_stg3_0 : Memref sig .tc .vmem S1x1x4096 .f32).view

/-- Each window's current staging memref at point t, and its wholeness. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.KernelIdeal.Hand

end
-- ==== Proof.KI.RunA.lean ====
/-
  The distance kernel's body at a grid point with row tile 0: the running column minimum is reset to +inf
  and then lowered by this tile's column minima; the row minima of the tile are stored as distances.
-/
import proofs.«412153_j16054587752992_3_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the two output buffers in this case, with the run: on whole staging
    memrefs, the two input blocks at x0 and x1, the body runs to a continuation that holds the inputs as
    they were and each output buffer with those pieces written. -/
noncomputable def kernelRun0_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : cond0_0 i) (hc1 : ¬cond0_1 i)
    (x0 : Vec F S1x512x3 .f32) (x1 : Vec F S1x3x4096 .f32) :
    Σ' (L2 : List (View.Piece (Elt F) S1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.RunB.lean ====
/-
  The distance kernel's body at a grid point with row tile 1 … 6: the running column minimum the tile before
  left is lowered by this tile's column minima; the row minima of the tile are stored as distances.
-/
import proofs.«412153_j16054587752992_3_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the two output buffers in this case, with the run: on whole staging
    memrefs, the two input blocks at x0 and x1, the running column minimum at xo3, the body runs to a continuation that holds the inputs as
    they were and each output buffer with those pieces written. -/
noncomputable def kernelRun0_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : ¬cond0_1 i)
    (x0 : Vec F S1x512x3 .f32) (x1 : Vec F S1x3x4096 .f32) (xo3 : Vec F S1x1x4096 .f32) :
    Σ' (L2 : List (View.Piece (Elt F) S1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.RunC.lean ====
/-
  The distance kernel's body at a grid point with row tile 7: the running column minimum is lowered by this
  tile's column minima and then turned into distances, sqrt (max · 0); the tile's row minima are stored as distances.
-/
import proofs.«412153_j16054587752992_3_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the two output buffers in this case, with the run: on whole staging
    memrefs, the two input blocks at x0 and x1, the running column minimum at xo3, the body runs to a continuation that holds the inputs as
    they were and each output buffer with those pieces written. -/
noncomputable def kernelRun0_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : cond0_1 i)
    (x0 : Vec F S1x512x3 .f32) (x1 : Vec F S1x3x4096 .f32) (xo3 : Vec F S1x1x4096 .f32) :
    Σ' (L2 : List (View.Piece (Elt F) S1x1x512 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.Tail.lean ====
import proofs.«412153_j16054587752992_3_alg».proof.Proof.Gen.KernelIdeal.Launch
import Idealize.ShloMosaic.Lib.Pipeline.FrameBody
import Idealize.ShloMosaic.Lib.Pipeline.FrameSuffix
import Idealize.ShloMosaic.Lib.Tactic

/-!
# The host side of the frame of the kernel program

@main is one host operation (a transpose of the second argument), the region, and ninety host operations in
eight stretches. Here: the contents at the region's entry, @main reduced to the region continued by the later
stretches, the three facts the frame run asks of those stretches (they touch only unscoped buffers, allocate
nothing, write no array of the pipeline), and the frame claim's post read off the frame run's post.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- The stretches of host operations after the region, in order. -/
abbrev tailOps : List (List (HloOp τ sig (Elt F))) :=
  [hostOps1, hostOps1_1, hostOps1_2, hostOps1_3, hostOps1_4, hostOps1_5, hostOps1_6, hostOps1_7]

/-- Core `c`'s TensorCore buffer contents when the region is entered, as a valuation: after the one host operation
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The operation before the region allocates nothing. -/
theorem hostOps0_fresh : (hostOps0 : List (HloOp τ sig (Elt F))).Forall fun op => op.fresh = ∅ := by
  simp only [List.Forall]; repeat' constructor

/-- The buffers the later stretches must leave alone: the three arguments and the pipeline's four arrays. -/
abbrev kept : List (Ref sig .tc) := [main_arg0, main_arg1, main_arg2, main_v0, main_v1_0, main_v1_1]

/-- Every array of the pipeline is a kept buffer. -/
theorem arr_kept : ∀ w, Pipeline.arrRef spec0 w ∈ kept := by decide

/-- No operation of this stretch writes a kept buffer: each writes only its own result buffer. -/
theorem hostOps1_keeps : ∀ op ∈ (hostOps1 : List (HloOp τ sig (Elt F))), ∀ b ∈ kept, Proc.devRef (τ := τ) .tc b ∉ op.writes := by
  intro op hop b hb
  simp only [kept, List.mem_cons, List.mem_nil_iff, or_false] at hb
  simp only [hostOps1, List.mem_cons, List.mem_nil_iff, or_false] at hop
  rcases hop with rfl | rfl | rfl | rfl | rfl | rfl | rfl | rfl | rfl | rfl | rfl | rfl | rfl
  all_goals
    rcases hb with rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- This stretch allocates nothing. -/
theorem hostOps1_fresh : (hostOps1 : List (HloOp τ sig (Elt F))).Forall fun op => op.fresh = ∅ := by
  simp only [List.Forall]; repeat' constructor

/-- No operation of this stretch writes a kept buffer: each writes only its own result buffer. -/
theorem hostOps1_1_keeps : ∀ op ∈ (hostOps1_1 : List (HloOp τ sig (Elt F))), ∀ b ∈ kept, Proc.devRef (τ := τ) .tc b ∉ op.writes := by
  intro op hop b hb
  simp only [kept, List.mem_cons, List.mem_nil_iff, or_false] at hb
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    rcases hb with rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- This stretch allocates nothing. -/
theorem hostOps1_1_fresh : (hostOps1_1 : List (HloOp τ sig (Elt F))).Forall fun op => op.fresh = ∅ := by
  simp only [List.Forall]; repeat' constructor

/-- No operation of this stretch writes a kept buffer: each writes only its own result buffer. -/
theorem hostOps1_2_keeps : ∀ op ∈ (hostOps1_2 : List (HloOp τ sig (Elt F))), ∀ b ∈ kept, Proc.devRef (τ := τ) .tc b ∉ op.writes := by
  intro op hop b hb
  simp only [kept, List.mem_cons, List.mem_nil_iff, or_false] at hb
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    rcases hb with rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- This stretch allocates nothing. -/
theorem hostOps1_2_fresh : (hostOps1_2 : List (HloOp τ sig (Elt F))).Forall fun op => op.fresh = ∅ := by
  simp only [List.Forall]; repeat' constructor

/-- No operation of this stretch writes a kept buffer: each writes only its own result buffer. -/
theorem hostOps1_3_keeps : ∀ op ∈ (hostOps1_3 : List (HloOp τ sig (Elt F))), ∀ b ∈ kept, Proc.devRef (τ := τ) .tc b ∉ op.writes := by
  intro op hop b hb
  simp only [kept, List.mem_cons, List.mem_nil_iff, or_false] at hb
  simp only [hostOps1_3, List.mem_cons, List.mem_nil_iff, or_false] at hop
  rcases hop with rfl
  all_goals
    rcases hb with rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- This stretch allocates nothing. -/
theorem hostOps1_3_fresh : (hostOps1_3 : List (HloOp τ sig (Elt F))).Forall fun op => op.fresh = ∅ := by
  simp only [List.Forall]; repeat' constructor

/-- No operation of this stretch writes a kept buffer: each writes only its own result buffer. -/
theorem hostOps1_4_keeps : ∀ op ∈ (hostOps1_4 : List (HloOp τ sig (Elt F))), ∀ b ∈ kept, Proc.devRef (τ := τ) .tc b ∉ op.writes := by
  intro op hop b hb
  simp only [kept, List.mem_cons, List.mem_nil_iff, or_false] at hb
  simp only [hostOps1_4, List.mem_cons, List.mem_nil_iff, or_false] at hop
  rcases hop with rfl | rfl | rfl | rfl
  all_goals
    rcases hb with rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- This stretch allocates nothing. -/
theorem hostOps1_4_fresh : (hostOps1_4 : List (HloOp τ sig (Elt F))).Forall fun op => op.fresh = ∅ := by
  simp only [List.Forall]; repeat' constructor

/-- No operation of this stretch writes a kept buffer: each writes only its own result buffer. -/
theorem hostOps1_5_keeps : ∀ op ∈ (hostOps1_5 : List (HloOp τ sig (Elt F))), ∀ b ∈ kept, Proc.devRef (τ := τ) .tc b ∉ op.writes := by
  intro op hop b hb
  simp only [kept, List.mem_cons, List.mem_nil_iff, or_false] at hb
  simp only [hostOps1_5, List.mem_cons, List.mem_nil_iff, or_false] at hop
  rcases hop with rfl
  all_goals
    rcases hb with rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- This stretch allocates nothing. -/
theorem hostOps1_5_fresh : (hostOps1_5 : List (HloOp τ sig (Elt F))).Forall fun op => op.fresh = ∅ := by
  simp only [List.Forall]; repeat' constructor

/-- No operation of this stretch writes a kept buffer: each writes only its own result buffer. -/
theorem hostOps1_6_keeps : ∀ op ∈ (hostOps1_6 : List (HloOp τ sig (Elt F))), ∀ b ∈ kept, Proc.devRef (τ := τ) .tc b ∉ op.writes := by
  intro op hop b hb
  simp only [kept, List.mem_cons, List.mem_nil_iff, or_false] at hb
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl
  all_goals
    rcases hb with rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- This stretch allocates nothing. -/
theorem hostOps1_6_fresh : (hostOps1_6 : List (HloOp τ sig (Elt F))).Forall fun op => op.fresh = ∅ := by
  simp only [List.Forall]; repeat' constructor

/-- No operation of this stretch writes a kept buffer: each writes only its own result buffer. -/
theorem hostOps1_7_keeps : ∀ op ∈ (hostOps1_7 : List (HloOp τ sig (Elt F))), ∀ b ∈ kept, Proc.devRef (τ := τ) .tc b ∉ op.writes := by
  intro op hop b hb
  simp only [kept, List.mem_cons, List.mem_nil_iff, or_false] at hb
  simp only [hostOps1_7, List.mem_cons, List.mem_nil_iff, or_false] at hop
  rcases hop with rfl | rfl | rfl | rfl | rfl
  all_goals
    rcases hb with rfl | rfl | rfl | rfl | rfl | rfl <;>
    simp only [StableHlo.nullary_writes, StableHlo.unary_writes, StableHlo.binary_writes, StableHlo.ternary_writes, StableHlo.reshape_writes, Finset.mem_singleton] <;>
    exact StableHlo.devRef_ne_of_ne (by decide)

/-- This stretch allocates nothing. -/
theorem hostOps1_7_fresh : (hostOps1_7 : List (HloOp τ sig (Elt F))).Forall fun op => op.fresh = ∅ := by
  simp only [List.Forall]; repeat' constructor

/-! ## The three facts of the later stretches -/

/-- @main around the region, at the certificate's variants `𝒱₀`: the host operation before it, the region, the eight
    stretches after it: it reduces to the region CONTINUED BY the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch the pipeline's arrays and the bypassing buffers only: each operation's buffers are
    unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

/-- No operation of the later stretches writes a kept buffer. -/
theorem sfx_kept : ∀ ops ∈ (tailOps : List (List (HloOp τ sig (Elt F)))), ∀ op ∈ ops, ∀ b ∈ kept,
    Proc.devRef (τ := τ) .tc b ∉ op.writes := by
  intro ops hops op hop
  simp only [tailOps, List.mem_cons, List.mem_nil_iff, or_false] at hops
  rcases hops with rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop

/-- And write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => sfx_kept ops hops op hop _ (arr_kept w)

/-! ## The region-entry contents at the arguments and at the transposed argument -/

theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results
theorem V_main_arg2 (c : Dev nD) : V m c main_arg2 = m ((c : Thread nD τ).loc main_arg2) := by
  show StableHlo.after hostOps0 (fun b => m (c, b)) (Proc.devRef .tc main_arg2) = _
  after_results
/-- The second window's array is the second argument transposed. -/
theorem V_main_v0 (c : Dev nD) : V m c main_v0
    = transpose S8x3x4096 [0, 2, 1] (m ((c : Thread nD τ).loc main_arg1)) transposes_S8x4096x3_S8x3x4096_0_2_1 := by
  show StableHlo.after hostOps0 (fun b => m (c, b)) (Proc.devRef .tc main_v0) = _
  after_results

/-! ## The frame claim's post from the frame run's -/

/-- A kept buffer that is no array of the pipeline holds, after the later stretches, what it held at the region's entry. -/
theorem afterTail_kept (dats : (p : Fin 1) → (c : Dev nD) → Dat τ (Elt F) Unit ℕ (UR sig nD τ) ℕ (cfgs p) c) (c : Dev nD)
    (b : Ref sig .tc) (hb : b ∈ kept) (hne : ∀ w, Pipeline.arrRef spec0 w ≠ b) :
    Pipeline.afterTail₀ cfgs dats 0 (V0 m) tailOps c b = V m c b := by
  unfold Pipeline.afterTail₀
  rw [StableHlo.after_of_forall_not_mem _ _ fun op hop => ?_, Pipeline.withArrays_of_ne _ c (V0 m c) _ b hne]
  obtain ⟨ops, hops, hop'⟩ := List.mem_flatten.mp hop
  exact sfx_kept ops hops op hop' b hb

/-- THE FRAME from a frame run: for any proof data whose arrays are the region-entry contents (`hA`), a run to the
    frame run's post read at the argument arrays — the first a staged input, the other two arrays no window stages,
    which no later operation writes — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 rfl (by decide))).trans
       ((afterTail_kept m dats c main_arg1 (by decide) (by decide)).trans (V_main_arg1 m c)),
     ((h c).2 main_arg2 (Pipeline.mem_restRefs_of main_arg2 rfl (by decide))).trans
       ((afterTail_kept m dats c main_arg2 (by decide) (by decide)).trans (V_main_arg2 m c))⟩) h

end Cert.KernelIdeal.Hand

end
-- ==== Proof.KI.Outs.lean ====
/-
  What the two output buffers of the distance kernel hold after each grid point, and the pipeline's proof data.
  Grid point t = 8 b + n handles batch b and row tile n. The row-minimum output's block (b, n) is stored whole at
  every point. The column-minimum output's block is the same for the eight points of a batch: reset at n = 0,
  lowered at every point by the tile's column minima over what the point before left, finished at n = 7, and
  written back only then.
-/
import proofs.«412153_j16054587752992_3_alg».proof.Proof.KI.RunC
import proofs.«412153_j16054587752992_3_alg».proof.Proof.KI.Tail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In this case the stores into the row-minimum buffer tile it. -/
theorem cover2_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : cond0_0 i) (hc1 : ¬cond0_1 i)
    (x0 : Vec F S1x512x3 .f32) (x1 : Vec F S1x3x4096 .f32) (y : S1x1x512.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x1x512.size (by sl_kernel_rfl) y
/-- What the case leaves in the row-minimum buffer: its pieces read back. -/
def out2_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : cond0_0 i) (hc1 : ¬cond0_1 i)
    (x0 : Vec F S1x512x3 .f32) (x1 : Vec F S1x3x4096 .f32) : Vec F S1x1x512 .f32 :=
  VO2.read (Elt F) (VO2.writes (Elt F) VO2.junk (kernelRun0_A c i arg2 harg2 arg3 harg3 arg4 harg4 arg5 harg5 hc0 hc1 x0 x1).1)
/-- In this case the stores into the column-minimum buffer tile it. -/
theorem cover3_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : cond0_0 i) (hc1 : ¬cond0_1 i)
    (x0 : Vec F S1x512x3 .f32) (x1 : Vec F S1x3x4096 .f32) (y : S1x1x4096.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x1x4096.size (by sl_kernel_rfl) y
/-- What the case leaves in the column-minimum buffer: its pieces read back. -/
def out3_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : cond0_0 i) (hc1 : ¬cond0_1 i)
    (x0 : Vec F S1x512x3 .f32) (x1 : Vec F S1x3x4096 .f32) : Vec F S1x1x4096 .f32 :=
  VO3.read (Elt F) (VO3.writes (Elt F) VO3.junk (kernelRun0_A c i arg2 harg2 arg3 harg3 arg4 harg4 arg5 harg5 hc0 hc1 x0 x1).2.1)

/-- In this case the stores into the row-minimum buffer tile it. -/
theorem cover2_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : ¬cond0_1 i)
    (x0 : Vec F S1x512x3 .f32) (x1 : Vec F S1x3x4096 .f32) (xo3 : Vec F S1x1x4096 .f32) (y : S1x1x512.Idx) :
    ∃ pc ∈ (kernelRun0_B c i arg2 harg2 arg3 harg3 arg4 harg4 arg5 harg5 hc0 hc1 x0 x1 xo3).1, y ∈ pc.1.set :=
  View.cover_of_tiledL (kernelRun0_B c i arg2 harg2 arg3 harg3 arg4 harg4 arg5 harg5 hc0 hc1 x0 x1 xo3).1 S1x1x512.size (by sl_kernel_rfl) y
/-- What the case leaves in the row-minimum buffer: its pieces read back. -/
def out2_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : ¬cond0_1 i)
    (x0 : Vec F S1x512x3 .f32) (x1 : Vec F S1x3x4096 .f32) (xo3 : Vec F S1x1x4096 .f32) : Vec F S1x1x512 .f32 :=
  VO2.read (Elt F) (VO2.writes (Elt F) VO2.junk (kernelRun0_B c i arg2 harg2 arg3 harg3 arg4 harg4 arg5 harg5 hc0 hc1 x0 x1 xo3).1)
/-- In this case the stores into the column-minimum buffer tile it. -/
theorem cover3_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : ¬cond0_1 i)
    (x0 : Vec F S1x512x3 .f32) (x1 : Vec F S1x3x4096 .f32) (xo3 : Vec F S1x1x4096 .f32) (y : S1x1x4096.Idx) :
    ∃ pc ∈ (kernelRun0_B c i arg2 harg2 arg3 harg3 arg4 harg4 arg5 harg5 hc0 hc1 x0 x1 xo3).2.1, y ∈ pc.1.set :=
  View.cover_of_tiledL (kernelRun0_B c i arg2 harg2 arg3 harg3 arg4 harg4 arg5 harg5 hc0 hc1 x0 x1 xo3).2.1 S1x1x4096.size (by sl_kernel_rfl) y
/-- What the case leaves in the column-minimum buffer: its pieces read back. -/
def out3_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : ¬cond0_1 i)
    (x0 : Vec F S1x512x3 .f32) (x1 : Vec F S1x3x4096 .f32) (xo3 : Vec F S1x1x4096 .f32) : Vec F S1x1x4096 .f32 :=
  VO3.read (Elt F) (VO3.writes (Elt F) VO3.junk (kernelRun0_B c i arg2 harg2 arg3 harg3 arg4 harg4 arg5 harg5 hc0 hc1 x0 x1 xo3).2.1)

/-- In this case the stores into the row-minimum buffer tile it. -/
theorem cover2_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : cond0_1 i)
    (x0 : Vec F S1x512x3 .f32) (x1 : Vec F S1x3x4096 .f32) (xo3 : Vec F S1x1x4096 .f32) (y : S1x1x512.Idx) :
    ∃ pc ∈ (kernelRun0_C c i arg2 harg2 arg3 harg3 arg4 harg4 arg5 harg5 hc0 hc1 x0 x1 xo3).1, y ∈ pc.1.set :=
  View.cover_of_tiledL (kernelRun0_C c i arg2 harg2 arg3 harg3 arg4 harg4 arg5 harg5 hc0 hc1 x0 x1 xo3).1 S1x1x512.size (by sl_kernel_rfl) y
/-- What the case leaves in the row-minimum buffer: its pieces read back. -/
def out2_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : cond0_1 i)
    (x0 : Vec F S1x512x3 .f32) (x1 : Vec F S1x3x4096 .f32) (xo3 : Vec F S1x1x4096 .f32) : Vec F S1x1x512 .f32 :=
  VO2.read (Elt F) (VO2.writes (Elt F) VO2.junk (kernelRun0_C c i arg2 harg2 arg3 harg3 arg4 harg4 arg5 harg5 hc0 hc1 x0 x1 xo3).1)
/-- In this case the stores into the column-minimum buffer tile it. -/
theorem cover3_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : cond0_1 i)
    (x0 : Vec F S1x512x3 .f32) (x1 : Vec F S1x3x4096 .f32) (xo3 : Vec F S1x1x4096 .f32) (y : S1x1x4096.Idx) :
    ∃ pc ∈ (kernelRun0_C c i arg2 harg2 arg3 harg3 arg4 harg4 arg5 harg5 hc0 hc1 x0 x1 xo3).2.1, y ∈ pc.1.set :=
  View.cover_of_tiledL (kernelRun0_C c i arg2 harg2 arg3 harg3 arg4 harg4 arg5 harg5 hc0 hc1 x0 x1 xo3).2.1 S1x1x4096.size (by sl_kernel_rfl) y
/-- What the case leaves in the column-minimum buffer: its pieces read back. -/
def out3_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : cond0_1 i)
    (x0 : Vec F S1x512x3 .f32) (x1 : Vec F S1x3x4096 .f32) (xo3 : Vec F S1x1x4096 .f32) : Vec F S1x1x4096 .f32 :=
  VO3.read (Elt F) (VO3.writes (Elt F) VO3.junk (kernelRun0_C c i arg2 harg2 arg3 harg3 arg4 harg4 arg5 harg5 hc0 hc1 x0 x1 xo3).2.1)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the outputs hold after each point -/

/-- What the two output buffers hold after the body at position n (row minima, column minima): the case the row
    tile selects, run on the point's input blocks, the column minima over what position n - 1 left. -/
def outsAt (c : Dev nD) : (n : ℕ) → n < cfg0.N → Vec F S1x1x512 .f32 × Vec F S1x1x4096 .f32
  | 0, hn => (out2_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
              out3_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out2_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩),
         out3_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out2_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (outsAt c n (Nat.lt_of_succ_lt hn)).2,
         out3_C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (outsAt c n (Nat.lt_of_succ_lt hn)).2)
      else
        (out2_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt c n (Nat.lt_of_succ_lt hn)).2,
         out3_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt c n (Nat.lt_of_succ_lt hn)).2)

/-- At a point with row tile 0. -/
theorem outsAt_A (c : Dev nD) (t : Fin cfg0.N) (h0 : t.val % 8 = 0) (h1 : ¬t.val % 8 = 7) :
    outsAt m c t.val t.isLt = (out2_A c (grid0.coords t) (ms0 t) (hs0 t) (ms1 t) (hs1 t) (ms2 t) (hs2 t) (ms3 t) (hs3 t) ((hcond0_0 t).mpr h0) (fun h => h1 ((hcond0_1 t).mp h)) (iblk m c 0 t) (iblk m c 1 t),
      out3_A c (grid0.coords t) (ms0 t) (hs0 t) (ms1 t) (hs1 t) (ms2 t) (hs2 t) (ms3 t) (hs3 t) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a point with row tile 1 … 6: over what the point before left. -/
theorem outsAt_B (c : Dev nD) (t : Fin cfg0.N) (h0 : ¬t.val % 8 = 0) (h1 : ¬t.val % 8 = 7) :
    outsAt m c t.val t.isLt = (out2_B c (grid0.coords t) (ms0 t) (hs0 t) (ms1 t) (hs1 t) (ms2 t) (hs2 t) (ms3 t) (hs3 t) (fun h => h0 ((hcond0_0 t).mp h)) (fun h => h1 ((hcond0_1 t).mp h)) (iblk m c 0 t) (iblk m c 1 t) (outsAt m c (t.val - 1) (Nat.lt_of_le_of_lt (Nat.sub_le _ _) t.isLt)).2,
      out3_B c (grid0.coords t) (ms0 t) (hs0 t) (ms1 t) (hs1 t) (ms2 t) (hs2 t) (ms3 t) (hs3 t) (fun h => h0 ((hcond0_0 t).mp h)) (fun h => h1 ((hcond0_1 t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with row tile 7: over what the point before left. -/
theorem outsAt_C (c : Dev nD) (t : Fin cfg0.N) (h0 : ¬t.val % 8 = 0) (h1 : t.val % 8 = 7) :
    outsAt m c t.val t.isLt = (out2_C c (grid0.coords t) (ms0 t) (hs0 t) (ms1 t) (hs1 t) (ms2 t) (hs2 t) (ms3 t) (hs3 t) (fun h => h0 ((hcond0_0 t).mp h)) ((hcond0_1 t).mpr h1) (iblk m c 0 t) (iblk m c 1 t) (outsAt m c (t.val - 1) (Nat.lt_of_le_of_lt (Nat.sub_le _ _) t.isLt)).2,
      out3_C c (grid0.coords t) (ms0 t) (hs0 t) (ms1 t) (hs1 t) (ms2 t) (hs2 t) (ms3 t) (hs3 t) (fun h => h0 ((hcond0_0 t).mp h)) ((hcond0_1 t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the pipeline on core c: the arrays as the region finds them; after the body at point t each
    input's buffer at its block and the outputs' at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-- At a point whose row tile is not 0 the column-minimum buffer holds what the body left at the point before: that
    point did not write it back. -/
theorem before3_pos (c : Dev nD) (t : Fin cfg0.N) (h0 : ¬t.val % 8 = 0) (d) :
    (dats m 0 c).before 3 t d = (outsAt m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

end Cert.KernelIdeal.Hand

end
-- ==== Proof.KI.Frame.lean ====
/-
  The frame of the kernel program, by hand: the body obligation of the distance kernel at every grid
  point (the case its row tile selects, run on the point's input blocks), the run of @main around the region, and
  the frame claim.
-/
import proofs.«412153_j16054587752992_3_alg».proof.Proof.KI.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; the row tile says which case the point is in; at a
    row tile other than 0 the column-minimum buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 64 := lt_of_lt_of_eq t.isLt (show cfg0.N = 64 from N_0)
  by_cases h0 : t.val % 8 = 0
  · have h1 : ¬t.val % 8 = 7 := by omega
    rw [outsAt_A m c t h0 h1]
    unfold out2_A out3_A; dsimp only
    iintro ⟨HΦ, Ho, ⟨%d0, H0⟩, ⟨%d1, H1⟩, ⟨%d2, H2⟩, ⟨%d3, H3⟩⟩
    iapply ((kernelRun0_A (F := F) c (grid0.coords t) (ms0 t) (hs0 t) (ms1 t) (hs1 t) (ms2 t) (hs2 t) (ms3 t) (hs3 t) ((hcond0_0 t).mpr h0) (fun h => h1 ((hcond0_1 t).mp h)) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover2_A (F := F) c (grid0.coords t) (ms0 t) (hs0 t) (ms1 t) (hs1 t) (ms2 t) (hs2 t) (ms3 t) (hs3 t) ((hcond0_0 t).mpr h0) (fun h => h1 ((hcond0_1 t).mp h)) (iblk m c 0 t) (iblk m c 1 t))
    unfold owns; iexists _; isplitr
    swap; · iexact H3
    ipureintro; exact View.read_writes_of_cover _ _ _ _ _ (cover3_A (F := F) c (grid0.coords t) (ms0 t) (hs0 t) (ms1 t) (hs1 t) (ms2 t) (hs2 t) (ms3 t) (hs3 t) ((hcond0_0 t).mpr h0) (fun h => h1 ((hcond0_1 t).mp h)) (iblk m c 0 t) (iblk m c 1 t))
  · by_cases h1 : t.val % 8 = 7
    · rw [outsAt_C m c t h0 h1]
      simp only [before3_pos m c t h0]
      unfold out2_C out3_C; dsimp only
      iintro ⟨HΦ, Ho, ⟨%d0, H0⟩, ⟨%d1, H1⟩, ⟨%d2, H2⟩, ⟨%d3, H3⟩⟩
      iapply ((kernelRun0_C (F := F) c (grid0.coords t) (ms0 t) (hs0 t) (ms1 t) (hs1 t) (ms2 t) (hs2 t) (ms3 t) (hs3 t) (fun h => h0 ((hcond0_0 t).mp h)) ((hcond0_1 t).mpr h1) (iblk m c 0 t) (iblk m c 1 t) (outsAt m c (t.val - 1) (Nat.lt_of_le_of_lt (Nat.sub_le _ _) t.isLt)).2).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C (F := F) c (grid0.coords t) (ms0 t) (hs0 t) (ms1 t) (hs1 t) (ms2 t) (hs2 t) (ms3 t) (hs3 t) (fun h => h0 ((hcond0_0 t).mp h)) ((hcond0_1 t).mpr h1) (iblk m c 0 t) (iblk m c 1 t) (outsAt m c (t.val - 1) (Nat.lt_of_le_of_lt (Nat.sub_le _ _) t.isLt)).2)
      unfold owns; iexists _; isplitr
      swap; · iexact H3
      ipureintro; exact View.read_writes_of_cover _ _ _ _ _ (cover3_C (F := F) c (grid0.coords t) (ms0 t) (hs0 t) (ms1 t) (hs1 t) (ms2 t) (hs2 t) (ms3 t) (hs3 t) (fun h => h0 ((hcond0_0 t).mp h)) ((hcond0_1 t).mpr h1) (iblk m c 0 t) (iblk m c 1 t) (outsAt m c (t.val - 1) (Nat.lt_of_le_of_lt (Nat.sub_le _ _) t.isLt)).2)
    · rw [outsAt_B m c t h0 h1]
      simp only [before3_pos m c t h0]
      unfold out2_B out3_B; dsimp only
      iintro ⟨HΦ, Ho, ⟨%d0, H0⟩, ⟨%d1, H1⟩, ⟨%d2, H2⟩, ⟨%d3, H3⟩⟩
      iapply ((kernelRun0_B (F := F) c (grid0.coords t) (ms0 t) (hs0 t) (ms1 t) (hs1 t) (ms2 t) (hs2 t) (ms3 t) (hs3 t) (fun h => h0 ((hcond0_0 t).mp h)) (fun h => h1 ((hcond0_1 t).mp h)) (iblk m c 0 t) (iblk m c 1 t) (outsAt m c (t.val - 1) (Nat.lt_of_le_of_lt (Nat.sub_le _ _) t.isLt)).2).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B (F := F) c (grid0.coords t) (ms0 t) (hs0 t) (ms1 t) (hs1 t) (ms2 t) (hs2 t) (ms3 t) (hs3 t) (fun h => h0 ((hcond0_0 t).mp h)) (fun h => h1 ((hcond0_1 t).mp h)) (iblk m c 0 t) (iblk m c 1 t) (outsAt m c (t.val - 1) (Nat.lt_of_le_of_lt (Nat.sub_le _ _) t.isLt)).2)
      unfold owns; iexists _; isplitr
      swap; · iexact H3
      ipureintro; exact View.read_writes_of_cover _ _ _ _ _ (cover3_B (F := F) c (grid0.coords t) (ms0 t) (hs0 t) (ms1 t) (hs1 t) (ms2 t) (hs2 t) (ms3 t) (hs3 t) (fun h => h0 ((hcond0_0 t).mp h)) (fun h => h1 ((hcond0_1 t).mp h)) (iblk m c 0 t) (iblk m c 1 t) (outsAt m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the pipeline at what the
    write-backs leave and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KI.Pieces.lean ====
import proofs.«412153_j16054587752992_3_alg».proof.Proof.KI.Outs
import Idealize.ShloMosaic.Lib.Pipeline.Value

/-!
What each case of the distance kernel's body leaves in its two output buffers, as the body's arithmetic
over the blocks it loads.

In every case the row-minimum buffer ends at the tile's row minima turned into distances. The column-minimum
buffer ends at the running minimum lowered by the tile's column minima: over +inf where the row tile is 0,
over what the tile before left otherwise, and turned into distances, sqrt (max · 0), where the row tile is 7.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a rank-three block, as a function. -/
theorem hz3 : (![0, 0, 0] : Fin 3 → Nat) = fun _ => 0 := funext fun a => by fin_cases a <;> rfl

/-- Row tile 0: the row-minimum buffer holds the tile's row minima as distances. -/
theorem out2_A_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : cond0_0 i) (hc1 : ¬cond0_1 i)
    (x0 : Vec F S1x512x3 .f32) (x1 : Vec F S1x3x4096 .f32) :
    out2_A c i arg2 harg2 arg3 harg3 arg4 harg4 arg5 harg5 hc0 hc1 x0 x1 = k0_pay4 x0 x1 := by
  unfold out2_A
  rw [View.read_writes_eq_canon _ _ _ (cover2_A c i arg2 harg2 arg3 harg3 arg4 harg4 arg5 harg5 hc0 hc1 x0 x1)]
  unfold kernelRun0_A
  dsimp only
  sl_unfold_words
  rw [View.canon_unit_zero (S := S1x1x512) hz3]
  simp only [View.readAt_eq_ld, harg2.read_unread, harg3.read_unread, harg5.read_unread, View.ld_unit_zero (S := S1x512x3) hz3, View.ld_unit_zero (S := S1x3x4096) hz3, View.ld_unit_zero (S := S1x1x4096) hz3, View.readCov_unit_zero (S := S1x1x4096) _ hz3]

/-- Row tile 0: the column-minimum buffer is reset to +inf, then lowered by the tile's column minima. -/
theorem out3_A_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : cond0_0 i) (hc1 : ¬cond0_1 i)
    (x0 : Vec F S1x512x3 .f32) (x1 : Vec F S1x3x4096 .f32) :
    out3_A c i arg2 harg2 arg3 harg3 arg4 harg4 arg5 harg5 hc0 hc1 x0 x1 = k0_pay1 (k0_pay6 x0 x1 (k0_pay5 (F := F))) := by
  unfold out3_A
  rw [View.read_writes_eq_canon _ _ _ (cover3_A c i arg2 harg2 arg3 harg3 arg4 harg4 arg5 harg5 hc0 hc1 x0 x1)]
  unfold kernelRun0_A
  dsimp only
  sl_unfold_words
  rw [View.canon_cons_unit_zero (S := S1x1x4096) hz3]
  simp only [View.readAt_eq_ld, harg2.read_unread, harg3.read_unread, harg5.read_unread, View.ld_unit_zero (S := S1x512x3) hz3, View.ld_unit_zero (S := S1x3x4096) hz3, View.ld_unit_zero (S := S1x1x4096) hz3, View.readCov_unit_zero (S := S1x1x4096) _ hz3]

/-- Row tile 1 … 6: the row-minimum buffer holds the tile's row minima as distances. -/
theorem out2_B_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : ¬cond0_1 i)
    (x0 : Vec F S1x512x3 .f32) (x1 : Vec F S1x3x4096 .f32) (xo3 : Vec F S1x1x4096 .f32) :
    out2_B c i arg2 harg2 arg3 harg3 arg4 harg4 arg5 harg5 hc0 hc1 x0 x1 xo3 = k0_pay4 x0 x1 := by
  unfold out2_B
  rw [View.read_writes_eq_canon _ _ _ (cover2_B c i arg2 harg2 arg3 harg3 arg4 harg4 arg5 harg5 hc0 hc1 x0 x1 xo3)]
  unfold kernelRun0_B
  dsimp only
  sl_unfold_words
  rw [View.canon_unit_zero (S := S1x1x512) hz3]
  simp only [View.readAt_eq_ld, harg2.read_unread, harg3.read_unread, harg5.read_unread, View.ld_unit_zero (S := S1x512x3) hz3, View.ld_unit_zero (S := S1x3x4096) hz3, View.ld_unit_zero (S := S1x1x4096) hz3, View.readCov_unit_zero (S := S1x1x4096) _ hz3]

/-- Row tile 1 … 6: the column-minimum buffer is what the tile before left, lowered by the tile's column minima. -/
theorem out3_B_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : ¬cond0_1 i)
    (x0 : Vec F S1x512x3 .f32) (x1 : Vec F S1x3x4096 .f32) (xo3 : Vec F S1x1x4096 .f32) :
    out3_B c i arg2 harg2 arg3 harg3 arg4 harg4 arg5 harg5 hc0 hc1 x0 x1 xo3 = k0_pay1 (k0_pay6 x0 x1 xo3) := by
  unfold out3_B
  rw [View.read_writes_eq_canon _ _ _ (cover3_B c i arg2 harg2 arg3 harg3 arg4 harg4 arg5 harg5 hc0 hc1 x0 x1 xo3)]
  unfold kernelRun0_B
  dsimp only
  sl_unfold_words
  rw [View.canon_unit_zero (S := S1x1x4096) hz3]
  simp only [View.readAt_eq_ld, harg2.read_unread, harg3.read_unread, harg5.read_unread, View.ld_unit_zero (S := S1x512x3) hz3, View.ld_unit_zero (S := S1x3x4096) hz3, View.ld_unit_zero (S := S1x1x4096) hz3, View.readCov_unit_zero (S := S1x1x4096) _ hz3]

/-- Row tile 7: the row-minimum buffer holds the tile's row minima as distances. -/
theorem out2_C_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : cond0_1 i)
    (x0 : Vec F S1x512x3 .f32) (x1 : Vec F S1x3x4096 .f32) (xo3 : Vec F S1x1x4096 .f32) :
    out2_C c i arg2 harg2 arg3 harg3 arg4 harg4 arg5 harg5 hc0 hc1 x0 x1 xo3 = k0_pay4 x0 x1 := by
  unfold out2_C
  rw [View.read_writes_eq_canon _ _ _ (cover2_C c i arg2 harg2 arg3 harg3 arg4 harg4 arg5 harg5 hc0 hc1 x0 x1 xo3)]
  unfold kernelRun0_C
  dsimp only
  sl_unfold_words
  rw [View.canon_unit_zero (S := S1x1x512) hz3]
  simp only [View.readAt_eq_ld, harg2.read_unread, harg3.read_unread, harg5.read_unread, View.ld_unit_zero (S := S1x512x3) hz3, View.ld_unit_zero (S := S1x3x4096) hz3, View.ld_unit_zero (S := S1x1x4096) hz3, View.readCov_unit_zero (S := S1x1x4096) _ hz3]

/-- Row tile 7: the column-minimum buffer is what the tile before left, lowered by the tile's column minima,
    then turned into distances. -/
theorem out3_C_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x1x512 .f32) (harg4 : arg4.IsWhole) (arg5 : Memref sig .tc .vmem S1x1x4096 .f32) (harg5 : arg5.IsWhole) (hc0 : ¬cond0_0 i) (hc1 : cond0_1 i)
    (x0 : Vec F S1x512x3 .f32) (x1 : Vec F S1x3x4096 .f32) (xo3 : Vec F S1x1x4096 .f32) :
    out3_C c i arg2 harg2 arg3 harg3 arg4 harg4 arg5 harg5 hc0 hc1 x0 x1 xo3 = k0_pay2 (k0_pay1 (k0_pay6 x0 x1 xo3)) := by
  unfold out3_C
  rw [View.read_writes_eq_canon _ _ _ (cover3_C c i arg2 harg2 arg3 harg3 arg4 harg4 arg5 harg5 hc0 hc1 x0 x1 xo3)]
  unfold kernelRun0_C
  dsimp only
  sl_unfold_words
  rw [View.canon_cons_unit_zero (S := S1x1x4096) hz3]
  simp only [View.readAt_eq_ld, harg2.read_unread, harg3.read_unread, harg5.read_unread, View.ld_unit_zero (S := S1x512x3) hz3, View.ld_unit_zero (S := S1x3x4096) hz3, View.ld_unit_zero (S := S1x1x4096) hz3, View.readCov_unit_zero (S := S1x1x4096) _ hz3]

end Cert.KernelIdeal.Hand

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.Spec.lean ====
/-
  The mathematics of the claim, on the extended reals; no program enters here.

  Two ways to the distance from a point to the nearest of finitely many points. One forms the squared distance coordinate
  by coordinate, takes the minimum (neutral element +inf) tile after tile, and applies x ↦ sqrt (max x 0) at the end; the
  other expands the square as (|p|² + |g|²) − 2 (p·g), applies sqrt (max · 0) to each entry and then takes the minimum
  over all of them. They agree because, for finite coordinates, the two forms of the squared distance are the same real
  number, and because x ↦ sqrt (max x 0) is monotone and fixes +inf, so it passes through minima and finite infima; an
  infimum over 4096 rows is the infimum over 8 tiles of the infima over the 512 rows of a tile, and a running minimum
  started at +inf is the infimum of what it has seen.
-/
import Mathlib.Data.EReal.Basic
import Mathlib.Data.EReal.Operations
import Mathlib.Analysis.Real.Sqrt
import Mathlib.Algebra.BigOperators.Fin
import Mathlib.Order.Monotone.Basic
import Mathlib.Data.Finset.Lattice.Fold
import Idealize.ShloMosaic.PureOps.Ideal
import proofs.«412153_j16054587752992_3_alg».proof.Proof.LibSums

open scoped BigOperators

namespace Cert.Spec

open Idealize.ShloMosaic

/-! ## The squared distance -/

/-- squared distance, the kernel's association; finite coordinates -/
theorem sqdist_expand (p g : Fin 3 → ℝ) :
    (((p 0 : EReal) - (g 0 : EReal)) * ((p 0 : EReal) - (g 0 : EReal)) + ((p 1 : EReal) - (g 1 : EReal)) * ((p 1 : EReal) - (g 1 : EReal))) + ((p 2 : EReal) - (g 2 : EReal)) * ((p 2 : EReal) - (g 2 : EReal))
      = (((0 : EReal) + ∑ k : Fin 3, (p k : EReal) * (p k : EReal)) + ((0 : EReal) + ∑ k : Fin 3, (g k : EReal) * (g k : EReal))) - (2 : EReal) * ((0 : EReal) + ∑ k : Fin 3, (p k : EReal) * (g k : EReal)) := by
  have h2 : (2 : EReal) = ((2 : ℝ) : EReal) := by norm_cast
  rw [Fin.sum_univ_three, Fin.sum_univ_three, Fin.sum_univ_three, h2]
  norm_cast
  ring

/-! ## The map x ↦ sqrt (max x 0) -/

/-- the distance from the squared distance: negative inputs are clamped to zero first -/
noncomputable def fdist (x : EReal) : EReal := Ideal.sqrt (max x 0)

/-- on the non-negative extended reals the square root is monotone -/
private theorem sqrt_le_sqrt_of_nonneg {x y : EReal} (hx : 0 ≤ x) (h : x ≤ y) : Ideal.sqrt x ≤ Ideal.sqrt y := by
  induction y using EReal.rec with
  | bot => exact absurd (hx.trans h) (by simp)
  | top => simp
  | coe y =>
    induction x using EReal.rec with
    | bot => simp at hx
    | top => simp at h
    | coe x =>
      have hx' : 0 ≤ x := by exact_mod_cast hx
      have h' : x ≤ y := by exact_mod_cast h
      rw [Ideal.sqrt_coe, Ideal.sqrt_coe, if_neg (not_lt.2 hx'), if_neg (not_lt.2 (hx'.trans h'))]
      exact EReal.coe_le_coe_iff.2 (Real.sqrt_le_sqrt h')

theorem fdist_mono : Monotone fdist := fun _ _ hab =>
  sqrt_le_sqrt_of_nonneg (le_max_right _ _) (max_le_max hab le_rfl)

theorem fdist_top : fdist ⊤ = ⊤ := by
  rw [fdist, max_eq_left le_top, Ideal.sqrt_top]

theorem fdist_min (a b : EReal) : fdist (min a b) = min (fdist a) (fdist b) := fdist_mono.map_min

theorem fdist_inf {ι : Type} (s : Finset ι) (f : ι → EReal) : fdist (s.inf f) = s.inf (fun i => fdist (f i)) :=
  Finset.comp_inf_eq_inf_comp fdist fdist_min fdist_top

/-! ## Minima, tiles and running minima -/

/-- a fold of min from ⊤ is the infimum -/
theorem fold_min_top_eq_inf {ι : Type} (s : Finset ι) (f : ι → EReal) : s.fold min ⊤ f = s.inf f := rfl

/-- 4096 rows as 8 tiles of 512 -/
theorem inf_tiles (f : ℕ → EReal) :
    (Finset.univ : Finset (Fin 4096)).inf (fun n => f n.val)
      = (Finset.univ : Finset (Fin 8)).inf (fun k => (Finset.univ : Finset (Fin 512)).inf (fun r => f (k.val * 512 + r.val))) := by
  apply le_antisymm
  · refine Finset.le_inf fun k _ => Finset.le_inf fun r _ => ?_
    have h : k.val * 512 + r.val < 4096 := by omega
    exact Finset.inf_le (f := fun n : Fin 4096 => f n.val) (Finset.mem_univ ⟨_, h⟩)
  · refine Finset.le_inf fun n _ => ?_
    have h1 : n.val / 512 < 8 := by omega
    have h2 : n.val % 512 < 512 := by omega
    refine (Finset.inf_le (Finset.mem_univ (⟨n.val / 512, h1⟩ : Fin 8))).trans ?_
    refine (Finset.inf_le (Finset.mem_univ (⟨n.val % 512, h2⟩ : Fin 512))).trans ?_
    show f (n.val / 512 * 512 + n.val % 512) ≤ f n.val
    rw [Nat.div_add_mod']

/-- the running minimum after tiles 0 … j is the infimum over those tiles -/
noncomputable def accMin (T : ℕ → EReal) : ℕ → EReal
  | 0 => min ⊤ (T 0)
  | (j + 1) => min (accMin T j) (T (j + 1))

theorem accMin_eq_inf (T : ℕ → EReal) (j : ℕ) : accMin T j = (Finset.range (j + 1)).inf T := by
  induction j with
  | zero => rw [accMin, Finset.range_one, Finset.inf_singleton, min_eq_right le_top]
  | succ j ih => rw [accMin, ih, Finset.range_add_one (n := j + 1), Finset.inf_insert, min_comm]

theorem accMin_seven (T : ℕ → EReal) : accMin T 7 = (Finset.univ : Finset (Fin 8)).inf (fun k => T k.val) := by
  rw [accMin_eq_inf]
  apply le_antisymm
  · exact Finset.le_inf fun k _ => Finset.inf_le (Finset.mem_range.2 k.isLt)
  · exact Finset.le_inf fun i hi =>
      Finset.inf_le (f := fun k : Fin 8 => T k.val) (Finset.mem_univ ⟨i, Finset.mem_range.1 hi⟩)

/-- a sum over a one-point index -/
theorem sum_fin_one {M : Type} [AddCommMonoid M] (f : Fin 1 → M) : ∑ z : Fin 1, f z = f 0 := Fin.sum_univ_one f

end Cert.Spec
-- ==== Proof.KI.PayIdeal.lean ====
/-
  The distance kernel's payloads read at an index, over the extended reals.

  The tile of squared distances holds, at row r and column mm, ((p0-g0)² + (p1-g1)²) + (p2-g2)² for the r-th point p of the
  row block and the mm-th point g of the column block; the row payload is x ↦ sqrt (max x 0) of the minimum of a row of
  the tile over its 4096 columns; the column payload is the minimum of the running value with the minimum of a column of
  the tile over its 512 rows; the initial running value is +inf everywhere; the final payload applies x ↦ sqrt (max x 0)
  elementwise. A minimum over one axis with neutral element +inf is the infimum over that axis's coordinates; the casts
  between [n] and [1, 1, n], the cuts of one column or one row and their spreading over the tile only move indices.
-/
import proofs.«412153_j16054587752992_3_alg».proof.Proof.Gen.KernelIdeal.Skeleton
import proofs.«412153_j16054587752992_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

namespace Cert.KernelIdeal.Hand

open Cert.KernelIdeal Cert.KernelIdeal.Gen Idealize.ShloMosaic Idealize.ShloMosaic.ValueIdx

/-! ## Constants -/

theorem ofBits_inf_f32 : Ideal.ofBits .f32 0x7F800000#32 = ⊤ := by simp [Ideal.ofBits, Ideal.ieee]

/-! ## Layout operations at the shapes met here -/

section Layout
variable {α : Type}

/-- An [a] array cast to [1, 1, a] reads, at (u, v, i), the operand at i. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A [1, 1, a] array cast to [a] reads, at i, the operand at (0, 0, i). -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem pay1_apply (v : FVec Ideal S4096 .f32) (mm : Fin 4096) : k0_pay1 (F := Ideal) v (ix3 0 0 mm) = v (ix1 mm) := by
  unfold k0_pay1
  exact shapeCast_a_11a_apply v _ 0 0 mm

theorem pay5_apply (mm : Fin 4096) : k0_pay5 (F := Ideal) (ix3 0 0 mm) = ⊤ := by
  unfold k0_pay5
  rw [shapeCast_a_11a_apply]
  exact ofBits_inf_f32

/-! ## The tile of squared distances -/

/-- coordinate o of the row block's points, spread along the tile's columns -/
theorem col_apply (x0 : Vec Ideal S1x512x3 .f32) (o : ℕ) (ho : o < 3) (hs : S512x3.Slices ![0, o] S512x1) (r : Fin 512) (mm : Fin 4096) :
    broadcastTo S512x4096 (extractStridedSlice S512x1 ![0, o] (shapeCast S512x3 x0 shapeCasts_S1x512x3_S512x3) hs) broadcasts_S512x1_S512x4096 (ix2 r mm)
      = x0 (ix3 0 r ⟨o, ho⟩) := by
  rw [broadcastTo_a1_ab_apply, slice2_axis1_apply o _ hs r 0 ⟨o, ho⟩ rfl, shapeCast_1ab_ab_apply]

/-- coordinate o of the column block's points, spread along the tile's rows -/
theorem row_apply (x1 : Vec Ideal S1x3x4096 .f32) (o : ℕ) (ho : o < 3) (hs : S3x4096.Slices ![o, 0] S1x4096) (r : Fin 512) (mm : Fin 4096) :
    broadcastTo S512x4096 (extractStridedSlice S1x4096 ![o, 0] (shapeCast S3x4096 x1 shapeCasts_S1x3x4096_S3x4096) hs) broadcasts_S1x4096_S512x4096 (ix2 r mm)
      = x1 (ix3 0 ⟨o, ho⟩ mm) := by
  rw [broadcastTo_1b_ab_apply, slice2_axis0_apply o _ hs 0 mm ⟨o, ho⟩ rfl, shapeCast_1ab_ab_apply]

theorem pay3_apply (x0 : Vec Ideal S1x512x3 .f32) (x1 : Vec Ideal S1x3x4096 .f32) (r : Fin 512) (mm : Fin 4096) :
    k0_pay3 (F := Ideal) x0 x1 (ix2 r mm)
      = ((x0 (ix3 0 r 0) - x1 (ix3 0 0 mm)) * (x0 (ix3 0 r 0) - x1 (ix3 0 0 mm)) + (x0 (ix3 0 r 1) - x1 (ix3 0 1 mm)) * (x0 (ix3 0 r 1) - x1 (ix3 0 1 mm))) + (x0 (ix3 0 r 2) - x1 (ix3 0 2 mm)) * (x0 (ix3 0 r 2) - x1 (ix3 0 2 mm)) := by
  unfold k0_pay3
  simp only [addf_apply, mulf_apply, subf_apply]
  rw [col_apply x0 0 (by decide) _ r mm, col_apply x0 1 (by decide) _ r mm, col_apply x0 2 (by decide) _ r mm,
    row_apply x1 0 (by decide) _ r mm, row_apply x1 1 (by decide) _ r mm, row_apply x1 2 (by decide) _ r mm]
  rfl

/-! ## Minima along one axis of the tile -/

/-- a minimum reduction over one axis is the fold of min from the accumulator's value over that axis's coordinates -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

set_option backward.isDefEq.respectTransparency.types false in
theorem lift_row (r : Fin 512) (mm : Fin 4096) : reduces_S512x4096_S512.lift (ix1 r) mm = ix2 r mm := by
  funext c
  apply Fin.ext
  match c with
  | ⟨0, _⟩ => rfl
  | ⟨1, _⟩ => rfl

set_option backward.isDefEq.respectTransparency.types false in
theorem lift_col (r : Fin 512) (mm : Fin 4096) : reduces_S512x4096_S4096.lift (ix1 mm) r = ix2 r mm := by
  funext c
  apply Fin.ext
  match c with
  | ⟨0, _⟩ => rfl
  | ⟨1, _⟩ => rfl

theorem rowMin_apply (X : FVec Ideal S512x4096 .f32) (r : Fin 512) :
    multiReduction .minimumf [1] S512 X 0x7F800000#32 reduces_S512x4096_S512 (.inl rfl) rfl (ix1 r)
      = (Finset.univ : Finset (Fin 4096)).inf fun mm => X (ix2 r mm) := by
  refine (multiReduction_minimumf_single X _ reduces_S512x4096_S512 _ _ (ix1 r)).trans ?_
  show (Finset.univ : Finset (Fin 4096)).fold min (Ideal.ofBits .f32 0x7F800000#32) (fun mm => X (reduces_S512x4096_S512.lift (ix1 r) mm)) = _
  rw [ofBits_inf_f32]
  have e : (fun mm : Fin 4096 => X (reduces_S512x4096_S512.lift (ix1 r) mm)) = fun mm => X (ix2 r mm) :=
    funext fun mm => congrArg X (lift_row r mm)
  exact (congrArg (fun g : Fin 4096 → EReal => Finset.fold min (⊤ : EReal) g (Finset.univ : Finset (Fin 4096))) e).trans rfl

theorem colMin_apply (X : FVec Ideal S512x4096 .f32) (mm : Fin 4096) :
    multiReduction .minimumf [0] S4096 X 0x7F800000#32 reduces_S512x4096_S4096 (.inl rfl) rfl (ix1 mm)
      = (Finset.univ : Finset (Fin 512)).inf fun r => X (ix2 r mm) := by
  refine (multiReduction_minimumf_single X _ reduces_S512x4096_S4096 _ _ (ix1 mm)).trans ?_
  show (Finset.univ : Finset (Fin 512)).fold min (Ideal.ofBits .f32 0x7F800000#32) (fun r => X (reduces_S512x4096_S4096.lift (ix1 mm) r)) = _
  rw [ofBits_inf_f32]
  have e : (fun r : Fin 512 => X (reduces_S512x4096_S4096.lift (ix1 mm) r)) = fun r => X (ix2 r mm) :=
    funext fun r => congrArg X (lift_col r mm)
  exact (congrArg (fun g : Fin 512 → EReal => Finset.fold min (⊤ : EReal) g (Finset.univ : Finset (Fin 512))) e).trans rfl

/-! ## The payloads -/

/-- the clamp at zero followed by the square root, elementwise -/
theorem sqrt_max_zero_apply {s : Shape} (v : FVec Ideal s .f32) (i : s.Idx) :
    sqrt (maximumf v (broadcast s (Scalar.ofBits (F := Ideal) .f32 0x00000000#32))) i = Cert.Spec.fdist (v i) := by
  show Ideal.sqrt (max (v i) (Ideal.ofBits .f32 0x00000000#32)) = _
  rw [Ideal.ofBits_zero_f32]
  rfl

theorem pay4_apply (x0 : Vec Ideal S1x512x3 .f32) (x1 : Vec Ideal S1x3x4096 .f32) (r : Fin 512) :
    k0_pay4 (F := Ideal) x0 x1 (ix3 0 0 r) = Cert.Spec.fdist ((Finset.univ : Finset (Fin 4096)).inf fun mm => k0_pay3 (F := Ideal) x0 x1 (ix2 r mm)) := by
  unfold k0_pay4
  rw [shapeCast_a_11a_apply]
  rw [sqrt_max_zero_apply, rowMin_apply]

theorem pay6_apply (x0 : Vec Ideal S1x512x3 .f32) (x1 : Vec Ideal S1x3x4096 .f32) (v35 : Vec Ideal S1x1x4096 .f32) (mm : Fin 4096) :
    k0_pay6 (F := Ideal) x0 x1 v35 (ix1 mm) = min (v35 (ix3 0 0 mm)) ((Finset.univ : Finset (Fin 512)).inf fun r => k0_pay3 (F := Ideal) x0 x1 (ix2 r mm)) := by
  unfold k0_pay6
  show min (shapeCast S4096 v35 shapeCasts_S1x1x4096_S4096 (ix1 mm)) (multiReduction .minimumf [0] S4096 (k0_pay3 (F := Ideal) x0 x1) 0x7F800000#32 reduces_S512x4096_S4096 (.inl rfl) rfl (ix1 mm)) = _
  rw [shapeCast_11a_a_apply, colMin_apply]

theorem pay2_apply (v44 : Vec Ideal S1x1x4096 .f32) (mm : Fin 4096) : k0_pay2 (F := Ideal) v44 (ix3 0 0 mm) = Cert.Spec.fdist (v44 (ix3 0 0 mm)) := by
  unfold k0_pay2
  rw [shapeCast_a_11a_apply, sqrt_max_zero_apply, shapeCast_11a_a_apply]

end Cert.KernelIdeal.Hand
-- ==== Proof.KI.Blocks.lean ====
/-
  The blocks of the distance kernel's four windows, as coordinates.

  The grid has 8 × 8 points; point t handles batch t / 8 and row tile t % 8. The first input's block at t is the 512 rows
  512 (t % 8) … 512 (t % 8) + 511 of batch t / 8, all three coordinates. The second input's array is the second argument
  with its last two axes exchanged, and its block at t is all of batch t / 8. The row-minimum output's block at t is the
  512 places 512 (t % 8) … of row 0 of batch t / 8; the column-minimum output's block is all 4096 places of row 0 of batch
  t / 8. The row-minimum blocks of the 64 points tile their array; the column-minimum blocks of the eight points with
  t % 8 = 7, the ones written back, tile theirs.
-/
import proofs.«412153_j16054587752992_3_alg».proof.Proof.KI.Outs
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx

variable {F : FTy → Type} [FloatOps F]

variable (m : (ℓ : Loc nD τ sig) → Buf (Elt F) ℓ)

/-! ## Grid points -/

/-- The grid has 64 points. -/
theorem point_lt (t : Fin cfg0.N) : t.val < 64 := lt_of_lt_of_eq t.isLt N_0

/-- The batch of point t. -/
def bOf (t : Fin cfg0.N) : Fin 8 := ⟨t.val / 8, by have := point_lt t; omega⟩
/-- The row tile of point t. -/
def nOf (t : Fin cfg0.N) : Fin 8 := ⟨t.val % 8, Nat.mod_lt _ (by decide)⟩

/-- The four index maps at point t: (t / 8, t % 8, 0), (t / 8, 0, 0), (t / 8, 0, t % 8), (t / 8, 0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0 :=
  (by decide +kernel : ∀ t : Fin grid0.N, _)

/-! ## The input blocks read at an index -/

/-- The first input's block at point t, at row r and coordinate d, is the first argument at batch t / 8, row
    512 (t % 8) + r, coordinate d. -/
theorem iblk0_apply (c : Dev nD) (t : Fin cfg0.N) (r : Fin 512) (d : Fin 3) :
    (iblk m c 0 t : Vec F S1x512x3 .f32) (ix3 (0 : Fin 1) r d)
      = (m ((c : Thread nD τ).loc main_arg0) : S8x4096x3.Idx → Elt F .f32)
          (ix3 (bOf t) (⟨(nOf t).val * 512 + r.val, by have := (nOf t).isLt; have := r.isLt; omega⟩ : Fin 4096) d) := by
  obtain ⟨e0, e1, e2, -⟩ := idx_facts t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 3 + 1 * d.val = d.val; omega

/-- The second input's block at point t, at coordinate d and place mm, is the second argument at batch t / 8, row mm,
    coordinate d: the window's array is the argument with its last two axes exchanged. -/
theorem iblk1_apply (c : Dev nD) (t : Fin cfg0.N) (d : Fin 3) (mm : Fin 4096) :
    (iblk m c 1 t : Vec F S1x3x4096 .f32) (ix3 (0 : Fin 1) d mm)
      = (m ((c : Thread nD τ).loc main_arg1) : S8x4096x3.Idx → Elt F .f32) (ix3 (bOf t) mm d) := by
  obtain ⟨-, -, -, e0, e1, e2, -⟩ := idx_facts t
  unfold iblk
  rw [View.read_apply]
  show V m c main_v0 _ = _
  rw [V_main_v0]
  refine transpose_apply _ _ _ _ (ix3 (bOf t) mm d) fun b => ?_
  match b with
  | ⟨0, _⟩ => show t.val / 8 = win0_1.index t (0 : Fin 3) * 1 + 1 * 0; omega
  | ⟨1, _⟩ => show d.val = win0_1.index t (1 : Fin 3) * 3 + 1 * d.val; omega
  | ⟨2, _⟩ => show mm.val = win0_1.index t (2 : Fin 3) * 4096 + 1 * mm.val; omega

/-! ## Where the output blocks sit -/

/-- Place r of the row-minimum block at point t is place 512 (t % 8) + r of row 0 of batch t / 8. -/
theorem emb2_apply (t : Fin cfg0.N) (r : Fin 512) :
    (((cfg0.win 2).blk t).view.emb (ix3 (0 : Fin 1) (0 : Fin 1) r) : S8x1x4096.Idx)
      = ix3 (bOf t) (0 : Fin 1) (⟨(nOf t).val * 512 + r.val, by have := (nOf t).isLt; have := r.isLt; omega⟩ : Fin 4096) := by
  obtain ⟨-, -, -, -, -, -, e0, e1, e2, -⟩ := idx_facts t
  funext a
  apply Fin.ext
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 512 + 1 * r.val = t.val % 8 * 512 + r.val; omega

/-- Place mm of the column-minimum block at point t is place mm of row 0 of batch t / 8. -/
theorem emb3_apply (t : Fin cfg0.N) (mm : Fin 4096) :
    (((cfg0.win 3).blk t).view.emb (ix3 (0 : Fin 1) (0 : Fin 1) mm) : S8x1x4096.Idx) = ix3 (bOf t) (0 : Fin 1) mm := by
  obtain ⟨-, -, -, -, -, -, -, -, -, e0, e1, e2⟩ := idx_facts t
  funext a
  apply Fin.ext
  match a with
  | ⟨0, _⟩ => show win0_3.index t (0 : Fin 3) * 1 + 1 * 0 = t.val / 8; omega
  | ⟨1, _⟩ => show win0_3.index t (1 : Fin 3) * 1 + 1 * 0 = 0; omega
  | ⟨2, _⟩ => show win0_3.index t (2 : Fin 3) * 4096 + 1 * mm.val = mm.val; omega

/-- The row-minimum block at point t of a whole-array function, read at place r. -/
theorem read_blk2 (G : FVec F S8x1x4096 .f32) (t : Fin cfg0.N) (r : Fin 512) :
    (((cfg0.win 2).blk t).view.read (Elt F) G : Vec F S1x1x512 .f32) (ix3 (0 : Fin 1) (0 : Fin 1) r)
      = G (ix3 (bOf t) (0 : Fin 1) (⟨(nOf t).val * 512 + r.val, by have := (nOf t).isLt; have := r.isLt; omega⟩ : Fin 4096)) := by
  rw [View.read_apply]
  exact congrArg G (emb2_apply t r)

/-- The column-minimum block at point t of a whole-array function, read at place mm. -/
theorem read_blk3 (G : FVec F S8x1x4096 .f32) (t : Fin cfg0.N) (mm : Fin 4096) :
    (((cfg0.win 3).blk t).view.read (Elt F) G : Vec F S1x1x4096 .f32) (ix3 (0 : Fin 1) (0 : Fin 1) mm)
      = G (ix3 (bOf t) (0 : Fin 1) mm) := by
  rw [View.read_apply]
  exact congrArg G (emb3_apply t mm)

/-! ## The output blocks tile their arrays -/

/-- An index of the row-minimum array is in point t's block iff each coordinate is in the block's range on its axis. -/
theorem mem_blk2 (t : Fin cfg0.N) (i : S8x1x4096.Idx) :
    i ∈ ((cfg0.win 2).blk t).view.set
      ↔ ∀ a : Fin 3, win0_2.index t a * S1x1x512.size a ≤ (i a).val ∧ (i a).val < win0_2.index t a * S1x1x512.size a + S1x1x512.size a := by
  show i ∈ ((View.whole main_v1_0).slice (win0_2.rect t)).set ↔ _
  rw [View.set_slice_whole, Rect.mem_set_unit]
  exact Iff.rfl

/-- An index of the column-minimum array is in point t's block iff each coordinate is in the block's range on its axis. -/
theorem mem_blk3 (t : Fin cfg0.N) (i : S8x1x4096.Idx) :
    i ∈ ((cfg0.win 3).blk t).view.set
      ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Every index (b, 0, j) of the row-minimum array is in the block of point 8 b + j / 512, which is written back. -/
theorem cover2 (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : cfg0.N = 64 := N_0
  let t : Fin cfg0.N := ⟨8 * (i 0).val + (i 2).val / 512, by rw [hN]; omega⟩
  have ht : t.val = 8 * (i 0).val + (i 2).val / 512 := rfl
  obtain ⟨-, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 512 ≤ (i 2).val ∧ (i 2).val < win0_2.index t (2 : Fin 3) * 512 + 512; omega

/-- Every index (b, 0, mm) of the column-minimum array is in the block of point 8 b + 7, which is written back. -/
theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : cfg0.N = 64 := N_0
  let t : Fin cfg0.N := ⟨8 * (i 0).val + 7, by rw [hN]; omega⟩
  have ht : t.val = 8 * (i 0).val + 7 := rfl
  obtain ⟨-, -, -, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

end Cert.KernelIdeal.Hand

end
-- ==== Proof.SpecChamfer.lean ====
/-
  The bridge between the two ways to the nearest-point distance, on the extended reals.

  For points with finite coordinates the squared distance taken coordinate by coordinate and the expanded square
  (|p|² + |g|²) − 2 (p·g) are the same number, so x ↦ sqrt (max x 0) of the one is x ↦ sqrt (max x 0) of the other; and
  since that map passes through finite infima, applying it after a minimum over 4096 points, or after a running minimum
  over 8 tiles of 512 points, gives the minimum over all 4096 points of the distances themselves.
-/
import proofs.«412153_j16054587752992_3_alg».proof.Proof.Spec

open scoped BigOperators

namespace Cert.Spec

/-- the kernel's squared distance of two points, as it associates it -/
noncomputable def D (p g : Fin 3 → EReal) : EReal :=
  ((p 0 - g 0) * (p 0 - g 0) + (p 1 - g 1) * (p 1 - g 1)) + (p 2 - g 2) * (p 2 - g 2)

/-- the reference's distance of two points: the expanded square, then sqrt (max · 0) -/
noncomputable def E (p g : Fin 3 → EReal) : EReal :=
  fdist ((((0 : EReal) + ∑ k : Fin 3, p k * p k) + ((0 : EReal) + ∑ k : Fin 3, g k * g k)) - (2 : EReal) * ((0 : EReal) + ∑ k : Fin 3, p k * g k))

/-- for finite coordinates the two squared distances agree, hence so do the distances -/
theorem fdist_D_eq_E (p g : Fin 3 → EReal) (hp : ∀ k, ∃ r : ℝ, p k = (r : EReal)) (hg : ∀ k, ∃ r : ℝ, g k = (r : EReal)) :
    fdist (D p g) = E p g := by
  choose p' hp' using hp
  choose g' hg' using hg
  obtain rfl : p = fun k => (p' k : EReal) := funext hp'
  obtain rfl : g = fun k => (g' k : EReal) := funext hg'
  exact congrArg fdist (sqdist_expand p' g')

/-- the distance of the row minimum of squared distances is the minimum of the distances -/
theorem rowmin_bridge (p : Fin 3 → EReal) (g : Fin 4096 → Fin 3 → EReal) (hp : ∀ k, ∃ r : ℝ, p k = (r : EReal))
    (hg : ∀ mm k, ∃ r : ℝ, g mm k = (r : EReal)) :
    fdist ((Finset.univ : Finset (Fin 4096)).inf fun mm => D p (g mm)) = (Finset.univ : Finset (Fin 4096)).inf fun mm => E p (g mm) := by
  rw [fdist_inf]
  exact Finset.inf_congr rfl fun mm _ => fdist_D_eq_E p (g mm) hp (hg mm)

/-- the distance of the running minimum over 8 tiles of 512 is the minimum of the distances over all 4096 -/
theorem colmin_bridge (p : ℕ → Fin 3 → EReal) (g : Fin 3 → EReal) (hp : ∀ n k, ∃ r : ℝ, p n k = (r : EReal))
    (hg : ∀ k, ∃ r : ℝ, g k = (r : EReal)) :
    fdist (accMin (fun k => (Finset.univ : Finset (Fin 512)).inf fun r => D (p (k * 512 + r.val)) g) 7)
      = (Finset.univ : Finset (Fin 4096)).inf fun n => E (p n.val) g := by
  rw [accMin_seven, ← inf_tiles (fun n => D (p n) g), fdist_inf]
  exact Finset.inf_congr rfl fun n _ => fdist_D_eq_E (p n.val) g (hp n.val) hg

end Cert.Spec
-- ==== Proof.KI.Value.lean ====
import proofs.«412153_j16054587752992_3_alg».proof.Proof.KI.Pieces
import proofs.«412153_j16054587752992_3_alg».proof.Proof.KI.PayIdeal
import proofs.«412153_j16054587752992_3_alg».proof.Proof.KI.Blocks
import proofs.«412153_j16054587752992_3_alg».proof.Proof.SpecChamfer
import Idealize.ShloMosaic.Lib.ValueIdx
import Idealize.ShloMosaic.Lib.Pipeline.Value

/-!
The two output arrays of the distance kernel after its run, over the extended reals, as functions of the
argument arrays.

Grid point t handles batch t / 8 and row tile t % 8: rows 512 (t % 8) … 512 (t % 8) + 511 of the first
argument against all 4096 rows of the second. The tile of squared distances at the point is the squared
distance, coordinate by coordinate, of those rows. The row-minimum output at (b, 0, n) ends at
sqrt (max · 0) of the minimum over the 4096 points of the second argument of the squared distance from
row n of the first; the column-minimum output at (b, 0, mm) ends at sqrt (max · 0) of the running minimum,
over the 8 row tiles, of the minimum over a tile's 512 rows of the squared distance to row mm of the second.
The running minimum is an invariant of the points of one batch, proved by induction on the point.
-/

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx

variable (m : (ℓ : Loc nD τ sig) → Buf (Elt Ideal) ℓ)

/-! ## The points -/

/-- Row n of batch b of the first argument; rows past the array read 0. -/
noncomputable def pt0 (c : Dev nD) (b : Fin 8) (n : ℕ) : Fin 3 → EReal := fun k =>
  if h : n < 4096 then (m ((c : Thread nD τ).loc main_arg0) : S8x4096x3.Idx → EReal) (ix3 b ⟨n, h⟩ k) else 0

/-- Row mm of batch b of the second argument. -/
noncomputable def pt1 (c : Dev nD) (b : Fin 8) (mm : Fin 4096) : Fin 3 → EReal := fun k =>
  (m ((c : Thread nD τ).loc main_arg1) : S8x4096x3.Idx → EReal) (ix3 b mm k)

/-- The tile of squared distances at point t, at row r and column mm, is the squared distance of row
    512 (t % 8) + r of the first argument and row mm of the second, in batch t / 8. -/
theorem tile_eq (c : Dev nD) (t : Fin cfg0.N) (r : Fin 512) (mm : Fin 4096) :
    k0_pay3 (F := Ideal) (iblk m c 0 t) (iblk m c 1 t) (ix2 r mm)
      = Cert.Spec.D (pt0 m c (bOf t) ((nOf t).val * 512 + r.val)) (pt1 m c (bOf t) mm) := by
  have hn : (nOf t).val * 512 + r.val < 4096 := by have := (nOf t).isLt; have := r.isLt; omega
  have e0 : ∀ d : Fin 3, (iblk m c 0 t : Vec Ideal S1x512x3 .f32) (ix3 (0 : Fin 1) r d)
      = pt0 m c (bOf t) ((nOf t).val * 512 + r.val) d := fun d =>
    (iblk0_apply m c t r d).trans (by unfold pt0; rw [dif_pos hn])
  have e1 : ∀ d : Fin 3, (iblk m c 1 t : Vec Ideal S1x3x4096 .f32) (ix3 (0 : Fin 1) d mm) = pt1 m c (bOf t) mm d :=
    fun d => iblk1_apply m c t d mm
  refine (pay3_apply (iblk m c 0 t) (iblk m c 1 t) r mm).trans ?_
  rw [e0 0, e0 1, e0 2, e1 0, e1 1, e1 2]
  rfl

/-! ## The two output arrays, as functions of the arguments -/

/-- The row-minimum value at batch b and row n. -/
noncomputable def g2 (c : Dev nD) (b : Fin 8) (n : Fin 4096) : EReal :=
  Cert.Spec.fdist ((Finset.univ : Finset (Fin 4096)).inf fun mm => Cert.Spec.D (pt0 m c b n.val) (pt1 m c b mm))

/-- The column-minimum value at batch b and column mm: the running minimum over the 8 row tiles. -/
noncomputable def g3 (c : Dev nD) (b : Fin 8) (mm : Fin 4096) : EReal :=
  Cert.Spec.fdist (Cert.Spec.accMin (fun j => (Finset.univ : Finset (Fin 512)).inf fun r =>
    Cert.Spec.D (pt0 m c b (j * 512 + r.val)) (pt1 m c b mm)) 7)

/-- The row-minimum array. -/
noncomputable def G2 (c : Dev nD) : FVec Ideal S8x1x4096 .f32 := fun i => g2 m c (i 0) (i 2)

/-- The column-minimum array. -/
noncomputable def G3 (c : Dev nD) : FVec Ideal S8x1x4096 .f32 := fun i => g3 m c (i 0) (i 2)

theorem G2_apply (c : Dev nD) (b : Fin 8) (n : Fin 4096) :
    G2 m c (ix3 b (0 : Fin 1) n)
      = Cert.Spec.fdist ((Finset.univ : Finset (Fin 4096)).inf fun mm => Cert.Spec.D (pt0 m c b n.val) (pt1 m c b mm)) := rfl

theorem G3_apply (c : Dev nD) (b : Fin 8) (mm : Fin 4096) :
    G3 m c (ix3 b (0 : Fin 1) mm)
      = Cert.Spec.fdist (Cert.Spec.accMin (fun j => (Finset.univ : Finset (Fin 512)).inf fun r =>
          Cert.Spec.D (pt0 m c b (j * 512 + r.val)) (pt1 m c b mm)) 7) := rfl

/-! ## What the row-minimum buffer holds after each point -/

/-- The row payload at point t, at place r. -/
theorem row_val (c : Dev nD) (t : Fin cfg0.N) (r : Fin 512) :
    k0_pay4 (F := Ideal) (iblk m c 0 t) (iblk m c 1 t) (ix3 (0 : Fin 1) (0 : Fin 1) r)
      = Cert.Spec.fdist ((Finset.univ : Finset (Fin 4096)).inf fun mm =>
          Cert.Spec.D (pt0 m c (bOf t) ((nOf t).val * 512 + r.val)) (pt1 m c (bOf t) mm)) :=
  (pay4_apply (iblk m c 0 t) (iblk m c 1 t) r).trans
    (congrArg Cert.Spec.fdist (Finset.inf_congr rfl fun mm _ => tile_eq m c t r mm))

/-- The column minimum of the tile at point t, at column mm. -/
theorem col_val (c : Dev nD) (t : Fin cfg0.N) (mm : Fin 4096) :
    ((Finset.univ : Finset (Fin 512)).inf fun r => k0_pay3 (F := Ideal) (iblk m c 0 t) (iblk m c 1 t) (ix2 r mm))
      = (Finset.univ : Finset (Fin 512)).inf fun r =>
          Cert.Spec.D (pt0 m c (bOf t) ((nOf t).val * 512 + r.val)) (pt1 m c (bOf t) mm) :=
  Finset.inf_congr rfl fun r _ => tile_eq m c t r mm

/-- After the body at point t the row-minimum buffer holds, at place r, the distance from row 512 (t % 8) + r of
    the first argument to the nearest row of the second, in batch t / 8. -/
theorem after2_apply (c : Dev nD) (t : Fin cfg0.N) (r : Fin 512) :
    (outsAt m c t.val t.isLt).1 (ix3 (0 : Fin 1) (0 : Fin 1) r)
      = Cert.Spec.fdist ((Finset.univ : Finset (Fin 4096)).inf fun mm =>
          Cert.Spec.D (pt0 m c (bOf t) ((nOf t).val * 512 + r.val)) (pt1 m c (bOf t) mm)) := by
  by_cases h0 : t.val % 8 = 0
  · have h1 : ¬t.val % 8 = 7 := by omega
    rw [outsAt_A m c t h0 h1]
    dsimp only
    refine (congrFun (out2_A_eq (F := Ideal) c (grid0.coords t) (ms0 t) (hs0 t) (ms1 t) (hs1 t) (ms2 t) (hs2 t) (ms3 t) (hs3 t) ((hcond0_0 t).mpr h0) (fun h => h1 ((hcond0_1 t).mp h)) (iblk m c 0 t) (iblk m c 1 t)) (ix3 (0 : Fin 1) (0 : Fin 1) r)).trans ?_
    exact row_val m c t r
  · by_cases h1 : t.val % 8 = 7
    · rw [outsAt_C m c t h0 h1]
      dsimp only
      refine (congrFun (out2_C_eq (F := Ideal) c (grid0.coords t) (ms0 t) (hs0 t) (ms1 t) (hs1 t) (ms2 t) (hs2 t) (ms3 t) (hs3 t) (fun h => h0 ((hcond0_0 t).mp h)) ((hcond0_1 t).mpr h1) (iblk m c 0 t) (iblk m c 1 t) (outsAt m c (t.val - 1) (Nat.lt_of_le_of_lt (Nat.sub_le _ _) t.isLt)).2) (ix3 (0 : Fin 1) (0 : Fin 1) r)).trans ?_
      exact row_val m c t r
    · rw [outsAt_B m c t h0 h1]
      dsimp only
      refine (congrFun (out2_B_eq (F := Ideal) c (grid0.coords t) (ms0 t) (hs0 t) (ms1 t) (hs1 t) (ms2 t) (hs2 t) (ms3 t) (hs3 t) (fun h => h0 ((hcond0_0 t).mp h)) (fun h => h1 ((hcond0_1 t).mp h)) (iblk m c 0 t) (iblk m c 1 t) (outsAt m c (t.val - 1) (Nat.lt_of_le_of_lt (Nat.sub_le _ _) t.isLt)).2) (ix3 (0 : Fin 1) (0 : Fin 1) r)).trans ?_
      exact row_val m c t r

/-! ## The running column minimum -/

/-- The minimum over the 512 rows of row tile j of the squared distance to row mm of the second argument. -/
noncomputable def tileMin (c : Dev nD) (b : Fin 8) (mm : Fin 4096) (j : ℕ) : EReal :=
  (Finset.univ : Finset (Fin 512)).inf fun r => Cert.Spec.D (pt0 m c b (j * 512 + r.val)) (pt1 m c b mm)

theorem accMin_succ (T : ℕ → EReal) (j : ℕ) : Cert.Spec.accMin T (j + 1) = min (Cert.Spec.accMin T j) (T (j + 1)) := rfl
theorem accMin_zero (T : ℕ → EReal) : Cert.Spec.accMin T 0 = min ⊤ (T 0) := rfl

/-- The lowered running minimum at point t over xo3, at column mm. -/
theorem low_val (c : Dev nD) (t : Fin cfg0.N) (xo3 : Vec Ideal S1x1x4096 .f32) (mm : Fin 4096) :
    k0_pay1 (F := Ideal) (k0_pay6 (F := Ideal) (iblk m c 0 t) (iblk m c 1 t) xo3) (ix3 (0 : Fin 1) (0 : Fin 1) mm)
      = min (xo3 (ix3 (0 : Fin 1) (0 : Fin 1) mm)) (tileMin m c (bOf t) mm (nOf t).val) :=
  (pay1_apply (k0_pay6 (F := Ideal) (iblk m c 0 t) (iblk m c 1 t) xo3) mm).trans
    ((pay6_apply (iblk m c 0 t) (iblk m c 1 t) xo3 mm).trans
      (congrArg (fun z => min (xo3 (ix3 (0 : Fin 1) (0 : Fin 1) mm)) z) (col_val m c t mm)))

/-- After the body at a point whose row tile is not 7, the column-minimum buffer holds the running minimum over the
    row tiles 0 … t % 8 of the batch. -/
theorem acc_inv (c : Dev nD) : ∀ (k : ℕ) (hk : k < cfg0.N), k % 8 ≠ 7 → ∀ mm : Fin 4096,
    (outsAt m c k hk).2 (ix3 (0 : Fin 1) (0 : Fin 1) mm)
      = Cert.Spec.accMin (tileMin m c (bOf ⟨k, hk⟩) mm) (k % 8) := by
  intro k
  induction k with
  | zero =>
    intro hk _ mm
    have h0 : (⟨0, hk⟩ : Fin cfg0.N).val % 8 = 0 := rfl
    have h1 : ¬(⟨0, hk⟩ : Fin cfg0.N).val % 8 = 7 := fun h => absurd (show (0 : ℕ) % 8 = 7 from h) (by decide)
    rw [outsAt_A m c ⟨0, hk⟩ h0 h1]
    dsimp only
    refine (congrFun (out3_A_eq (F := Ideal) c (grid0.coords ⟨0, hk⟩) (ms0 ⟨0, hk⟩) (hs0 ⟨0, hk⟩) (ms1 ⟨0, hk⟩) (hs1 ⟨0, hk⟩) (ms2 ⟨0, hk⟩) (hs2 ⟨0, hk⟩) (ms3 ⟨0, hk⟩) (hs3 ⟨0, hk⟩) ((hcond0_0 ⟨0, hk⟩).mpr h0) (fun h => h1 ((hcond0_1 ⟨0, hk⟩).mp h)) (iblk m c 0 ⟨0, hk⟩) (iblk m c 1 ⟨0, hk⟩)) (ix3 (0 : Fin 1) (0 : Fin 1) mm)).trans ?_
    refine (low_val m c ⟨0, hk⟩ (k0_pay5 (F := Ideal)) mm).trans ?_
    rw [pay5_apply]
    rfl
  | succ n ih =>
    intro hk h7 mm
    have hN : n + 1 < 64 := lt_of_lt_of_eq hk N_0
    by_cases h0 : (n + 1) % 8 = 0
    · have h0' : (⟨n + 1, hk⟩ : Fin cfg0.N).val % 8 = 0 := h0
      have h1' : ¬(⟨n + 1, hk⟩ : Fin cfg0.N).val % 8 = 7 := h7
      rw [outsAt_A m c ⟨n + 1, hk⟩ h0' h1']
      dsimp only
      refine (congrFun (out3_A_eq (F := Ideal) c (grid0.coords ⟨n + 1, hk⟩) (ms0 ⟨n + 1, hk⟩) (hs0 ⟨n + 1, hk⟩) (ms1 ⟨n + 1, hk⟩) (hs1 ⟨n + 1, hk⟩) (ms2 ⟨n + 1, hk⟩) (hs2 ⟨n + 1, hk⟩) (ms3 ⟨n + 1, hk⟩) (hs3 ⟨n + 1, hk⟩) ((hcond0_0 ⟨n + 1, hk⟩).mpr h0') (fun h => h1' ((hcond0_1 ⟨n + 1, hk⟩).mp h)) (iblk m c 0 ⟨n + 1, hk⟩) (iblk m c 1 ⟨n + 1, hk⟩)) (ix3 (0 : Fin 1) (0 : Fin 1) mm)).trans ?_
      refine (low_val m c ⟨n + 1, hk⟩ (k0_pay5 (F := Ideal)) mm).trans ?_
      rw [pay5_apply]
      have e : (nOf ⟨n + 1, hk⟩).val = 0 := h0
      rw [e, h0]
      rfl
    · have h0' : ¬(⟨n + 1, hk⟩ : Fin cfg0.N).val % 8 = 0 := h0
      have h1' : ¬(⟨n + 1, hk⟩ : Fin cfg0.N).val % 8 = 7 := h7
      have hn : n < cfg0.N := Nat.lt_of_succ_lt hk
      have hn7 : n % 8 ≠ 7 := by omega
      rw [outsAt_B m c ⟨n + 1, hk⟩ h0' h1']
      dsimp only
      refine (congrFun (out3_B_eq (F := Ideal) c (grid0.coords ⟨n + 1, hk⟩) (ms0 ⟨n + 1, hk⟩) (hs0 ⟨n + 1, hk⟩) (ms1 ⟨n + 1, hk⟩) (hs1 ⟨n + 1, hk⟩) (ms2 ⟨n + 1, hk⟩) (hs2 ⟨n + 1, hk⟩) (ms3 ⟨n + 1, hk⟩) (hs3 ⟨n + 1, hk⟩) (fun h => h0' ((hcond0_0 ⟨n + 1, hk⟩).mp h)) (fun h => h1' ((hcond0_1 ⟨n + 1, hk⟩).mp h)) (iblk m c 0 ⟨n + 1, hk⟩) (iblk m c 1 ⟨n + 1, hk⟩) (outsAt m c n hn).2) (ix3 (0 : Fin 1) (0 : Fin 1) mm)).trans ?_
      refine (low_val m c ⟨n + 1, hk⟩ (outsAt m c n hn).2 mm).trans ?_
      rw [ih hn hn7 mm]
      have eb : bOf ⟨n, hn⟩ = bOf ⟨n + 1, hk⟩ := Fin.ext (by show n / 8 = (n + 1) / 8; omega)
      have en : (nOf ⟨n + 1, hk⟩).val = n % 8 + 1 := by show (n + 1) % 8 = n % 8 + 1; omega
      have ek : (n + 1) % 8 = n % 8 + 1 := by omega
      rw [eb, en, ek, accMin_succ]

/-- After the body at a point whose row tile is 7, the column-minimum buffer holds the distance of the running minimum
    over all 8 row tiles of the batch. -/
theorem after3_last (c : Dev nD) (t : Fin cfg0.N) (h7 : t.val % 8 = 7) (mm : Fin 4096) :
    (outsAt m c t.val t.isLt).2 (ix3 (0 : Fin 1) (0 : Fin 1) mm)
      = Cert.Spec.fdist (Cert.Spec.accMin (tileMin m c (bOf t) mm) 7) := by
  have h0 : ¬t.val % 8 = 0 := by omega
  have hN : t.val < 64 := point_lt t
  have hp : t.val - 1 < cfg0.N := Nat.lt_of_le_of_lt (Nat.sub_le _ _) t.isLt
  have hp7 : (t.val - 1) % 8 ≠ 7 := by omega
  rw [outsAt_C m c t h0 h7]
  dsimp only
  refine (congrFun (out3_C_eq (F := Ideal) c (grid0.coords t) (ms0 t) (hs0 t) (ms1 t) (hs1 t) (ms2 t) (hs2 t) (ms3 t) (hs3 t) (fun h => h0 ((hcond0_0 t).mp h)) ((hcond0_1 t).mpr h7) (iblk m c 0 t) (iblk m c 1 t) (outsAt m c (t.val - 1) hp).2) (ix3 (0 : Fin 1) (0 : Fin 1) mm)).trans ?_
  refine (pay2_apply (k0_pay1 (F := Ideal) (k0_pay6 (F := Ideal) (iblk m c 0 t) (iblk m c 1 t) (outsAt m c (t.val - 1) hp).2)) mm).trans ?_
  refine congrArg Cert.Spec.fdist ?_
  refine (low_val m c t (outsAt m c (t.val - 1) hp).2 mm).trans ?_
  rw [acc_inv m c (t.val - 1) hp hp7 mm]
  have eb : bOf ⟨t.val - 1, hp⟩ = bOf t := Fin.ext (by show (t.val - 1) / 8 = t.val / 8; omega)
  have en : (nOf t).val = 6 + 1 := by show t.val % 8 = 6 + 1; omega
  have ek : (t.val - 1) % 8 = 6 := by omega
  rw [eb, en, ek]
  rfl

/-! ## The arrays after the run -/

/-- An index of a 1 × 1 × n block is (0, 0, its last coordinate). -/
theorem eq_ix3_00 {n : ℕ} (y : (⟨3, ![1, 1, n]⟩ : Shape).Idx) : y = ix3 (0 : Fin 1) (0 : Fin 1) (y 2) := by
  funext a
  apply Fin.ext
  match a with
  | ⟨0, _⟩ => exact Nat.lt_one_iff.mp (show (y 0).val < 1 from (y 0).isLt)
  | ⟨1, _⟩ => exact Nat.lt_one_iff.mp (show (y 1).val < 1 from (y 1).isLt)
  | ⟨2, _⟩ => rfl

/-- What every point writes back of the row-minimum buffer is its block of the row-minimum array. -/
theorem flushed2_eq (c : Dev nD) (t : Fin cfg0.N) (hf : (cfg0.win 2).flush t = true) :
    (dats m 0 c).flushed 2 t = ((cfg0.win 2).blk t).view.read (Elt Ideal) (G2 m c) := by
  show (cfg0.win 2).cut (grid0.coords t) ((dats m 0 c).after 2 t) = _
  rw [after2]
  funext y
  obtain ⟨r, rfl⟩ : ∃ r : Fin 512, y = ix3 (0 : Fin 1) (0 : Fin 1) r := ⟨y 2, eq_ix3_00 (n := 512) y⟩
  exact (after2_apply m c t r).trans
    ((read_blk2 (F := Ideal) (G2 m c) t r).trans (G2_apply m c (bOf t) _)).symm

/-- The row-minimum array after the run. -/
theorem final2 (c : Dev nD) : (dats m 0 c).arrAt 2 cfg0.N = G2 m c :=
  (dats m 0 c).arrAt_eq_of_cover 2 (G2 m c) (flushed2_eq m c) cover2

/-- What the points of row tile 7 write back of the column-minimum buffer is their block of the column-minimum
    array. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after3]
  funext y
  obtain ⟨mm, rfl⟩ : ∃ mm : Fin 4096, y = ix3 (0 : Fin 1) (0 : Fin 1) mm := ⟨y 2, eq_ix3_00 (n := 4096) y⟩
  exact (after3_last m c t h7 mm).trans
    ((read_blk3 (F := Ideal) (G3 m c) t mm).trans (G3_apply m c (bOf t) mm)).symm

/-- The column-minimum array after the run. -/
theorem final3 (c : Dev nD) : (dats m 0 c).arrAt 3 cfg0.N = G3 m c :=
  (dats m 0 c).arrAt_eq_of_cover 3 (G3 m c) (flushed3_eq m c) cover3

end Cert.KernelIdeal.Hand

end
-- ==== Proof.KI.Take.lean ====
/-
  The index columns and the take in fill mode, as pure terms.

  The edge table is a [12288 × 2] array of integer words; its two columns, each read as a vector of 12288 words, are the
  positions the program gathers rows at. A take in fill mode first moves a negative position up by the table's extent
  4096, then asks of each moved position whether it lies in 0 … 4095, gathers the rows at the moved positions, and keeps a
  gathered row only where the answer is yes, a fixed not-a-number word standing in elsewhere. When every position already
  lies in 0 … 4095 nothing is moved, every answer is yes, and the take is the plain gather at those positions.
-/
import proofs.«412153_j16054587752992_3_alg».proof.KernelIdeal
import Idealize.ShloMosaic.Lib.ValueIdx
import Idealize.ShloMosaic.Lib.Pipeline.Value
import Idealize.ShloMosaic.Lib.ReduceAll
import Idealize.ShloMosaic.Lib.StableHlo.Predicate

noncomputable section

namespace Cert.KernelIdeal.Hand

open Idealize.ShloMosaic Idealize.ShloMosaic.ValueIdx
open Cert.KernelIdeal

variable [Cert.KernelIdeal.Facts]
open Facts₀ Facts

variable {F : FTy → Type} [FloatOps F]

/-! ## The terms -/

/-- Column 0 of the edge table as a vector: the [12288 × 1] slice at offset (0, 0), its unit axis dropped. -/
def kcol0 (a2 : IVec S12288x2 32) : IVec S12288 32 :=
  shapeCast S12288 (extractStridedSlice S12288x1 ![0, 0] a2 slices_S12288x2_S12288x1_0_0) shapeCasts_S12288x1_S12288

/-- Column 1 of the edge table as a vector: the [12288 × 1] slice at offset (0, 1), its unit axis dropped. -/
def kcol1 (a2 : IVec S12288x2 32) : IVec S12288 32 :=
  shapeCast S12288 (extractStridedSlice S12288x1 ![0, 1] a2 slices_S12288x2_S12288x1_0_1) shapeCasts_S12288x1_S12288

/-- The positions moved into range from below (a negative one gets 4096 added), laid out as a [12288 × 1] column. -/
def kwrap (col : IVec S12288 32) : IVec S12288x1 32 :=
  broadcastInDim S12288x1 ![0] bcast_S12288_S12288x1_0
    (select (cmpi .slt col (broadcastInDim S12288 ![] bcast_S_S12288 (constantI S_ 32 0#32)))
      (addi col (broadcastInDim S12288 ![] bcast_S_S12288 (constantI S_ 32 4096#32)))
      col)

/-- The take in fill mode of the rows of `a0` at the positions `col`: the gathered rows where the moved position lies in
    0 … 4095, the not-a-number word elsewhere. -/
def ktake (a0 : FVec F S8x4096x3 .f32) (col : IVec S12288 32) : FVec F S8x12288x3 .f32 :=
  select
    (broadcastInDim S8x12288x3 ![1] bcast_S12288_S8x12288x3_1
      (Host.reduce IntOp.andi
        (andi
          (cmpi .sge (kwrap col) (broadcastInDim S12288x1 ![] bcast_S_S12288x1 (constantI S_ 32 0#32)))
          (cmpi .sle (kwrap col)
            (broadcastInDim S12288x1 ![0, 1] bcast_S1x1_S12288x1_0_1
              (broadcastInDim S1x1 ![1] bcast_S1_S1x1_1 (constantI S1 32 4095#32)))))
        (constantI S_ 1 1#1) reducesTo_S12288x1_S12288_d1 h_S_))
    (Host.gather gather_S8x4096x3_S12288x1_S8x12288x3_02_1_n_n_1_1_813 a0 (kwrap col))
    (broadcastInDim S8x12288x3 ![] bcast_S_S8x12288x3 (constant S_ .f32 0x7FC00000#32))

/-! ## Words: signed comparisons of a word known to lie in 0 … 4095 -/

/-- A word whose signed value is not negative is not below 0. -/
theorem slt_zero_of_nonneg (x : BitVec 32) (h : 0 ≤ x.toInt) : IntOp.cmpi .slt x 0#32 = 0#1 := by
  unfold IntOp.cmpi
  have hz : (0#32 : BitVec 32).toInt = 0 := by decide
  have : x.slt 0#32 = false := by
    simp only [BitVec.slt, hz, decide_eq_false_iff_not]; omega
  rw [this]; rfl

/-- A word whose signed value is not negative is at least 0. -/
theorem sge_zero_of_nonneg (x : BitVec 32) (h : 0 ≤ x.toInt) : IntOp.cmpi .sge x 0#32 = 1#1 := by
  unfold IntOp.cmpi
  have hz : (0#32 : BitVec 32).toInt = 0 := by decide
  have : (0#32 : BitVec 32).sle x = true := by
    simp only [BitVec.sle, hz, decide_eq_true_eq]; omega
  rw [this]; rfl

/-- A word whose signed value is below 4096 is at most 4095. -/
theorem sle_4095_of_lt (x : BitVec 32) (h : x.toInt < 4096) : IntOp.cmpi .sle x 4095#32 = 1#1 := by
  unfold IntOp.cmpi
  have hz : (4095#32 : BitVec 32).toInt = 4095 := by decide
  have : x.sle 4095#32 = true := by
    simp only [BitVec.sle, hz, decide_eq_true_eq]; omega
  rw [this]; rfl

/-! ## A reduction by `and` of all ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_ones f hf l

/-- A reduction by `and` from the initial word 1 of an array whose every word is 1 is 1 at every index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

/-! ## The columns read at an index -/

/-- Column 0 at position `e` is the table's word at row `e`, column 0. -/
theorem kcol0_apply (a2 : IVec S12288x2 32) (e : S12288.Idx) : kcol0 a2 e = a2 (ix2 (e 0) (0 : Fin 2)) := by
  unfold kcol0
  refine (shapeCast_apply _ _ e (ix2 (e 0) (0 : Fin 1)) ?_).trans ?_
  · rw [Shape.rowMajor_val_two, Shape.rowMajor_val_one]
    show (e 0).val * 1 + 0 = (e 0).val
    omega
  · refine extractStridedSlice_apply _ a2 _ _ (ix2 (e 0) (0 : Fin 2)) fun a => ?_
    match a with
    | ⟨0, _⟩ => show (e 0).val = 0 + (e 0).val; omega
    | ⟨1, _⟩ => rfl

/-- Column 1 at position `e` is the table's word at row `e`, column 1. -/
theorem kcol1_apply (a2 : IVec S12288x2 32) (e : S12288.Idx) : kcol1 a2 e = a2 (ix2 (e 0) (1 : Fin 2)) := by
  unfold kcol1
  refine (shapeCast_apply _ _ e (ix2 (e 0) (0 : Fin 1)) ?_).trans ?_
  · rw [Shape.rowMajor_val_two, Shape.rowMajor_val_one]
    show (e 0).val * 1 + 0 = (e 0).val
    omega
  · refine extractStridedSlice_apply _ a2 _ _ (ix2 (e 0) (1 : Fin 2)) fun a => ?_
    match a with
    | ⟨0, _⟩ => show (e 0).val = 0 + (e 0).val; omega
    | ⟨1, _⟩ => rfl

/-! ## The take at positions in range -/

/-- A position that is not negative is not moved: the column of moved positions reads, at row `i 0`, the position itself. -/
theorem kwrap_apply (col : IVec S12288 32) (i : S12288x1.Idx) (h0 : 0 ≤ (col (ix1 (i 0))).toInt) :
    kwrap col i = col (ix1 (i 0)) := by
  unfold kwrap
  refine (broadcastInDim_apply _ _ _ i (ix1 (i 0)) fun a => ?_).trans ?_
  · match a with
    | ⟨0, _⟩ => rfl
  · show Scalar.select (IntOp.cmpi .slt (col (ix1 (i 0))) 0#32) (IntOp.addi (col (ix1 (i 0))) 4096#32) (col (ix1 (i 0)))
      = col (ix1 (i 0))
    rw [slt_zero_of_nonneg _ h0, select_zero]

/-- When every position lies in 0 … 4095 the take in fill mode is the gather at the positions. -/
theorem ktake_inrange (a0 : FVec F S8x4096x3 .f32) (col : IVec S12288 32)
    (h : ∀ e, 0 ≤ (col e).toInt ∧ (col e).toInt < 4096) :
    ktake a0 col = Host.gather gather_S8x4096x3_S12288x1_S8x12288x3_02_1_n_n_1_1_813 a0 (kwrap col) := by
  funext j
  unfold ktake
  rw [select_apply]
  have hm : ∀ k : S12288.Idx,
      Host.reduce IntOp.andi
        (andi
          (cmpi .sge (kwrap col) (broadcastInDim S12288x1 ![] bcast_S_S12288x1 (constantI S_ 32 0#32)))
          (cmpi .sle (kwrap col)
            (broadcastInDim S12288x1 ![0, 1] bcast_S1x1_S12288x1_0_1
              (broadcastInDim S1x1 ![1] bcast_S1_S1x1_1 (constantI S1 32 4095#32)))))
        (constantI S_ 1 1#1) reducesTo_S12288x1_S12288_d1 h_S_ k = 1#1 := by
    intro k
    refine reduce_andi_ones _ _ _ _ k rfl fun i => ?_
    show IntOp.andi (IntOp.cmpi .sge (kwrap col i) 0#32) (IntOp.cmpi .sle (kwrap col i) 4095#32) = 1#1
    rw [kwrap_apply col i (h _).1, sge_zero_of_nonneg _ (h _).1, sle_4095_of_lt _ (h _).2]
    decide
  unfold broadcastInDim at *
  rw [hm, select_one]

/-! ## The columns of a table whose words lie in 0 … 4095 -/

/-- When every word of the table lies in 0 … 4095, so does every position of column 0. -/
theorem kcol0_range (a2 : IVec S12288x2 32) (h : ∀ i, 0 ≤ (a2 i).toInt ∧ (a2 i).toInt < 4096) :
    ∀ e, 0 ≤ (kcol0 a2 e).toInt ∧ (kcol0 a2 e).toInt < 4096 := fun e => by
  rw [kcol0_apply]; exact h _

/-- When every word of the table lies in 0 … 4095, so does every position of column 1. -/
theorem kcol1_range (a2 : IVec S12288x2 32) (h : ∀ i, 0 ≤ (a2 i).toInt ∧ (a2 i).toInt < 4096) :
    ∀ e, 0 ≤ (kcol1 a2 e).toInt ∧ (kcol1 a2 e).toInt < 4096 := fun e => by
  rw [kcol1_apply]; exact h _

end Cert.KernelIdeal.Hand

end
-- ==== Proof.KI.TailValue.lean ====
import proofs.«412153_j16054587752992_3_alg».proof.Proof.KI.Tail
import proofs.«412153_j16054587752992_3_alg».proof.Proof.KI.Take

/-!
# The result of the host operations after the region, as a pure term

The ninety host operations after the region read the region's two output arrays, the first argument and the edge
table, and leave one scalar in the result buffer. Here that scalar is written as a composition of the operations'
functions — the chamfer term from the two outputs, the two takes of the first argument at the edge table's columns,
the variance of the edge lengths, the weighted sum — and the contents of the result buffer after the operations are
shown to be that term, from any contents before them, and in particular from the region's exit.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The result of the later stretches as a pure term -/

/-- The chamfer term: the two outputs of the region, each summed over all its entries and divided by 32768, added. -/
def kcd (o0 o1 : FVec F S8x1x4096 .f32) : FVec F S_ .f32 :=
  addf
    (Host.divf (Host.reduceAdd o0 (constant S_ .f32 0x00000000#32) reducesTo_S8x1x4096_S_d0_1_2 h_S_) (constant S_ .f32 0x47000000#32))
    (Host.divf (Host.reduceAdd o1 (constant S_ .f32 0x00000000#32) reducesTo_S8x1x4096_S_d0_1_2 h_S_) (constant S_ .f32 0x47000000#32))

/-- The length of each edge vector: the square root of the sum of the squares of its three coordinates. -/
def knorm (d : FVec F S8x12288x3 .f32) : FVec F S8x12288 .f32 :=
  Host.sqrt (Host.reduceAdd (mulf d d) (constant S_ .f32 0x00000000#32) reducesTo_S8x12288x3_S8x12288_d2 h_S_)

/-- The mean of the lengths, as a [1 × 1] array: their sum over all entries divided by 98304. -/
def kmean (x : FVec F S8x12288 .f32) : FVec F S1x1 .f32 :=
  Host.divf
    (broadcastInDim S1x1 ![] bcast_S_S1x1 (Host.reduceAdd x (constant S_ .f32 0x00000000#32) reducesTo_S8x12288_S_d0_1 h_S_))
    (broadcastInDim S1x1 ![] bcast_S_S1x1 (constant S_ .f32 0x47C00000#32))

/-- The lengths less their mean. -/
def kdev (x : FVec F S8x12288 .f32) : FVec F S8x12288 .f32 :=
  subf x (broadcastInDim S8x12288 ![0, 1] bcast_S1x1_S8x12288_0_1 (kmean x))

/-- The divisor of the variance with one degree of freedom removed: 98304 less the integer 1 read as a float. -/
def kden : FVec F S_ .f32 :=
  subf (constant S_ .f32 0x47C00000#32) (sitofp .f32 (constantI S_ 32 1#32))

/-- The variance of the lengths with one degree of freedom removed: the sum of the squared deviations over the divisor
    where the divisor is positive, the not-a-number word otherwise. -/
def kvar (x : FVec F S8x12288 .f32) : FVec F S_ .f32 :=
  select (cmpf .ogt (kden (F := F)) (constant S_ .f32 0x00000000#32))
    (Host.divf (Host.reduceAdd (mulf (kdev x) (kdev x)) (constant S_ .f32 0x00000000#32) reducesTo_S8x12288_S_d0_1 h_S_) kden)
    (constant S_ .f32 0x7FC00000#32)

/-- The edge term: the variance of the lengths of the differences of the two taken arrays. -/
def kedge (v1 v2 : FVec F S8x12288x3 .f32) : FVec F S_ .f32 :=
  kvar (knorm (subf v1 v2))

/-- The weighted sum of the two terms: weight 1 on the first, weight 0.1 (as a binary32 word) on the second. -/
def kcombine (x e : FVec F S_ .f32) : FVec F S_ .f32 :=
  addf (mulf (constant S_ .f32 0x3F800000#32) x) (mulf (constant S_ .f32 0x3DCCCCCD#32) e)

/-- The program's result from the region's two outputs, the first argument and the edge table. -/
def kresult (o0 o1 : FVec F S8x1x4096 .f32) (a0 : FVec F S8x4096x3 .f32) (a2 : IVec S12288x2 32) : FVec F S_ .f32 :=
  kcombine (kcd o0 o1) (kedge (ktake a0 (kcol0 a2)) (ktake a0 (kcol1 a2)))

/-- From ANY contents `W`, the later stretches leave in the result buffer the result term of `W`'s contents at the
    region's two output arrays, the first argument and the edge table. -/
theorem tail_after (W : Valuation τ sig (Elt F)) :
    StableHlo.after (List.flatten (tailOps (F := F))) W (Proc.devRef .tc main_v18)
      = kresult (W (Proc.devRef .tc main_v1_0)) (W (Proc.devRef .tc main_v1_1)) (W (Proc.devRef .tc main_arg0)) (W (Proc.devRef .tc main_arg2)) := by
  simp only [tailOps, hostOps1, hostOps1_1, hostOps1_2, hostOps1_3, hostOps1_4, hostOps1_5, hostOps1_6, hostOps1_7, List.flatten_cons, List.flatten_nil, List.append_nil, List.cons_append, List.nil_append]
  after_results_simp
  simp only [StableHlo.TRef.ofBuf, StableHlo.TRef.toBuf, cast_eq]
  rfl

/-- The result term respects equality of its four operands. -/
theorem kresult_congr {o0 o0' o1 o1' : FVec F S8x1x4096 .f32} {a0 a0' : FVec F S8x4096x3 .f32} {a2 a2' : IVec S12288x2 32}
    (h0 : o0 = o0') (h1 : o1 = o1') (ha0 : a0 = a0') (ha2 : a2 = a2') : kresult o0 o1 a0 a2 = kresult o0' o1' a0' a2' := by
  subst h0 h1 ha0 ha2; rfl

/-- THE RESULT of the later stretches: the result buffer holds the result term of the region's two output arrays as the
    proof data leave them, the first argument and the edge table as launched. -/
theorem tail_result (dats : (p : Fin 1) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) tailOps c main_v18
      = kresult ((dats 0 c).arrAt 2 cfg0.N) ((dats 0 c).arrAt 3 cfg0.N) (m ((c : Thread nD τ).loc main_arg0))
          (m ((c : Thread nD τ).loc main_arg2)) := by
  unfold Pipeline.afterTail₀
  rw [tail_after]
  have e0 := Pipeline.withArrays_arr spec0 launch0.win.arr_inj c (V0 m c) (fun w => (dats 0 c).arrAt w (cfgs 0).N) 2
  have e1 := Pipeline.withArrays_arr spec0 launch0.win.arr_inj c (V0 m c) (fun w => (dats 0 c).arrAt w (cfgs 0).N) 3
  have ea0 := (Pipeline.withArrays_arr spec0 launch0.win.arr_inj c (V0 m c) (fun w => (dats 0 c).arrAt w (cfgs 0).N) 0).trans
    (((dats 0 c).arrAt_in 0 rfl _).trans ((hA c 0).trans (V_main_arg0 m c)))
  have ea2 := (Pipeline.withArrays_of_ne spec0 c (V0 m c) (fun w => (dats 0 c).arrAt w (cfgs 0).N) main_arg2 (by decide)).trans
    (V_main_arg2 m c)
  exact kresult_congr e0 e1 ea0 ea2

end Cert.KernelIdeal.Hand

end
-- ==== Proof.KI.RunValue.lean ====
/-
  The run of the idealized kernel program with its result's value.

  Every weakly fair execution of the program terminates. In every final state the result buffer holds the result term —
  the weighted sum of the chamfer term and the edge term — of the closed forms of the distance kernel's two output arrays,
  the first argument and the edge table; and the three argument buffers hold what they held at the launch. The result
  buffer is no array of the pipeline, so it holds what the host operations after the region leave in it, which is the
  result term of the two output arrays as the write-backs leave them; those are the closed forms.
-/
import proofs.«412153_j16054587752992_3_alg».proof.Proof.KI.Frame
import proofs.«412153_j16054587752992_3_alg».proof.Proof.KI.TailValue
import proofs.«412153_j16054587752992_3_alg».proof.Proof.KI.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- THE RUN WITH ITS VALUE: the result buffer ends at the result term of the two outputs' closed forms, the first argument
    and the edge table; the arguments end as launched. -/
theorem run_value :
    θ_run (defs (F := Ideal)) (onTc (τ := τ) (main (F := Ideal))) ⟨m, fun _ => 0, ρ⟩ (fun r => ∀ c : Dev nD,
      r.2.mem ((c.tc : Thread nD τ).loc main_v18)
        = kresult (F := Ideal) (G2 m c) (G3 m c) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v18 (Pipeline.mem_restRefs_of main_v18 rfl (by decide))).trans
        ((tail_result m (dats m) (A_eq m) c).trans (kresult_congr (final2 m c) (final3 m c) rfl rfl)),
     ((h c).1 0).trans (((dats m 0 c).arrAt_in 0 rfl _).trans ((A_eq m c 0).trans (V_main_arg0 m c))),
     ((h c).2 main_arg1 (Pipeline.mem_restRefs_of main_arg1 rfl (by decide))).trans
       ((afterTail_kept m (dats m) c main_arg1 (by decide) (by decide)).trans (V_main_arg1 m c)),
     ((h c).2 main_arg2 (Pipeline.mem_restRefs_of main_arg2 rfl (by decide))).trans
       ((afterTail_kept m (dats m) c main_arg2 (by decide) (by decide)).trans (V_main_arg2 m c))⟩) (run_main m ρ)

end Cert.KernelIdeal.Hand

end
-- ==== Proof.RefRun.lean ====
import proofs.«412153_j16054587752992_3_alg».proof.ReferenceIdeal
import proofs.«412153_j16054587752992_3_alg».proof.Proof.Gen.ReferenceIdeal
import Idealize.ShloMosaic.Lib.StableHlo.Run

/-!
The run of the idealized reference program, read back as one pure function of its three arguments.

The reference computes, for two point clouds `a0 a1 : 8 × 4096 × 3` and an edge table `a2 : 12288 × 2`,
the sum of a symmetric nearest-neighbour distance term and a tenth of the variance of the edge lengths:

* `dist a0 a1` is the matrix of pairwise distances `√(max(|p|² + |q|² − 2⟨p, q⟩, 0))`;
* `cd a0 a1` is the mean over rows of the row minima plus the mean over columns of the column minima;
* `col0 a2`, `col1 a2` are the two columns of the edge table, `wrapIdx` adds 4096 to a negative index,
  `take a0 col` gathers the points of `a0` at a column of indices;
* `edgeLoss v1 v2` is the unbiased variance (one delta degree of freedom) of the lengths `|v1 − v2|`
  over all 8 × 12288 edges, a NaN when the divisor is not positive;
* `combine x e = 1 · x + 0.1 · e`, and `result` is their composition.

`run` states that every weakly fair execution of the program terminates with the result buffer holding
`result` of the launch contents of the arguments, and the arguments unchanged.
-/

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The matrix of pairwise distances between the points of `a0` and of `a1`, batch by batch:
    the squared norms broadcast along rows and columns, minus twice the inner products, clamped at zero,
    then the square root. -/
def dist (a0 a1 : FVec F S8x4096x3 .f32) : FVec F S8x4096x4096 .f32 :=
  Host.sqrt
    (maximumf
      (subf
        (addf
          (broadcastInDim S8x4096x4096 ![0, 1, 2] bcast_S8x4096x1_S8x4096x4096_0_1_2
            (broadcastInDim S8x4096x1 ![0, 1] bcast_S8x4096_S8x4096x1_0_1
              (Host.reduceAdd (mulf a0 a0) (constant S_ .f32 0x00000000#32) reducesTo_S8x4096x3_S8x4096_d2 h_S_)))
          (broadcastInDim S8x4096x4096 ![0, 1, 2] bcast_S8x1x4096_S8x4096x4096_0_1_2
            (broadcastInDim S8x1x4096 ![0, 2] bcast_S8x4096_S8x1x4096_0_2
              (Host.reduceAdd (mulf a1 a1) (constant S_ .f32 0x00000000#32) reducesTo_S8x4096x3_S8x4096_d2 h_S_))))
        (mulf
          (broadcastInDim S8x4096x4096 ![] bcast_S_S8x4096x4096 (constant S_ .f32 0x40000000#32))
          (Host.dotGeneral dot_S8x4096x3_S8x4096x3_S8x4096x4096_2_2_1_1_0_0 none a0 a1)))
      (broadcastInDim S8x4096x4096 ![] bcast_S_S8x4096x4096 (constant S_ .f32 0x00000000#32)))

/-- The symmetric nearest-neighbour term: the sum of the row minima of the distance matrix divided by
    32768, plus the sum of its column minima divided by 32768. -/
def cd (a0 a1 : FVec F S8x4096x3 .f32) : FVec F S_ .f32 :=
  addf
    (Host.divf
      (Host.reduceAdd
        (Host.reduce FloatOps.minimumf (dist a0 a1) (constant S_ .f32 0x7F800000#32) reducesTo_S8x4096x4096_S8x4096_d2 h_S_)
        (constant S_ .f32 0x00000000#32) reducesTo_S8x4096_S_d0_1 h_S_)
      (constant S_ .f32 0x47000000#32))
    (Host.divf
      (Host.reduceAdd
        (Host.reduce FloatOps.minimumf (dist a0 a1) (constant S_ .f32 0x7F800000#32) reducesTo_S8x4096x4096_S8x4096_d1 h_S_)
        (constant S_ .f32 0x00000000#32) reducesTo_S8x4096_S_d0_1 h_S_)
      (constant S_ .f32 0x47000000#32))

/-- The first column of the edge table, as a vector of 12288 indices. -/
def col0 (a2 : IVec S12288x2 32) : IVec S12288 32 :=
  shapeCast S12288 (extractStridedSlice S12288x1 ![0, 0] a2 slices_S12288x2_S12288x1_0_0) shapeCasts_S12288x1_S12288

/-- The second column of the edge table. -/
def col1 (a2 : IVec S12288x2 32) : IVec S12288 32 :=
  shapeCast S12288 (extractStridedSlice S12288x1 ![0, 1] a2 slices_S12288x2_S12288x1_0_1) shapeCasts_S12288x1_S12288

/-- A column of indices with each negative index moved up by 4096, as a 12288 × 1 table. -/
def wrapIdx (col : IVec S12288 32) : IVec S12288x1 32 :=
  broadcastInDim S12288x1 ![0] bcast_S12288_S12288x1_0
    (select
      (cmpi .slt col (broadcastInDim S12288 ![] bcast_S_S12288 (constantI S_ 32 0#32)))
      (addi col (broadcastInDim S12288 ![] bcast_S_S12288 (constantI S_ 32 4096#32)))
      col)

/-- The points of `a0` at a column of indices, batch by batch. -/
def take (a0 : FVec F S8x4096x3 .f32) (col : IVec S12288 32) : FVec F S8x12288x3 .f32 :=
  Host.gather gather_S8x4096x3_S12288x1_S8x12288x3_02_1_n_n_1_1_813 a0 (wrapIdx col)

/-- The lengths of the edges `v1 − v2`. -/
def edgeLen (v1 v2 : FVec F S8x12288x3 .f32) : FVec F S8x12288 .f32 :=
  Host.sqrt
    (Host.reduceAdd (mulf (subf v1 v2) (subf v1 v2)) (constant S_ .f32 0x00000000#32)
      reducesTo_S8x12288x3_S8x12288_d2 h_S_)

/-- The divisor of the variance: 98304 minus the delta degrees of freedom, one. -/
def edgeDiv : FVec F S_ .f32 :=
  subf (constant S_ .f32 0x47C00000#32) (sitofp .f32 (constantI S_ 32 1#32))

/-- The variance of a table of 8 × 12288 lengths about their mean, over `edgeDiv`; a NaN when the divisor is
    not positive. -/
def varOf (ℓ : FVec F S8x12288 .f32) : FVec F S_ .f32 :=
  select
    (cmpf .ogt (edgeDiv (F := F)) (constant S_ .f32 0x00000000#32))
    (Host.divf
      (Host.reduceAdd
        (mulf
          (subf ℓ
            (broadcastInDim S8x12288 ![0, 1] bcast_S1x1_S8x12288_0_1
              (Host.divf
                (broadcastInDim S1x1 ![] bcast_S_S1x1
                  (Host.reduceAdd ℓ (constant S_ .f32 0x00000000#32) reducesTo_S8x12288_S_d0_1 h_S_))
                (broadcastInDim S1x1 ![] bcast_S_S1x1 (constant S_ .f32 0x47C00000#32)))))
          (subf ℓ
            (broadcastInDim S8x12288 ![0, 1] bcast_S1x1_S8x12288_0_1
              (Host.divf
                (broadcastInDim S1x1 ![] bcast_S_S1x1
                  (Host.reduceAdd ℓ (constant S_ .f32 0x00000000#32) reducesTo_S8x12288_S_d0_1 h_S_))
                (broadcastInDim S1x1 ![] bcast_S_S1x1 (constant S_ .f32 0x47C00000#32))))))
        (constant S_ .f32 0x00000000#32) reducesTo_S8x12288_S_d0_1 h_S_)
      (edgeDiv (F := F)))
    (id (constant S_ .f32 0x7FC00000#32))

/-- The variance of the edge lengths between the gathered end points `v1` and `v2`. -/
def edgeLoss (v1 v2 : FVec F S8x12288x3 .f32) : FVec F S_ .f32 :=
  varOf (edgeLen v1 v2)

/-- The weighted sum of the two terms: once the first plus a tenth of the second. -/
def combine (x e : FVec F S_ .f32) : FVec F S_ .f32 :=
  addf (mulf (constant S_ .f32 0x3F800000#32) x) (mulf (constant S_ .f32 0x3DCCCCCD#32) e)

/-- The reference's result as a function of its three arguments. -/
def result (a0 a1 : FVec F S8x4096x3 .f32) (a2 : IVec S12288x2 32) : FVec F S_ .f32 :=
  combine (cd a0 a1) (edgeLoss (take a0 (col0 a2)) (take a0 (col1 a2)))

/-- The first sixty statements as a list of host operations, in order: the program's own up to the difference of
    the gathered end points, then the norm's four over its call's buffers, the constant one, the variance's
    eighteen and the selection's two over theirs, and the constant of the weighted sum. -/
abbrev ops0 : List (HloOp τ sig (Elt F)) :=
  [ StableHlo.binary main_arg0 main_arg0 main_v0 (mulf : (⟨S8x4096x3, .f32⟩ : BufTy).Contents (Elt F) → (⟨S8x4096x3, .f32⟩ : BufTy).Contents (Elt F) → (⟨S8x4096x3, .f32⟩ : BufTy).Contents (Elt F)),
    StableHlo.nullary main_cst (constant S_ .f32 0x00000000#32),
    StableHlo.binary main_v0 main_cst main_v1 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_arg1 main_arg1 main_v2 (mulf : (⟨S8x4096x3, .f32⟩ : BufTy).Contents (Elt F) → (⟨S8x4096x3, .f32⟩ : BufTy).Contents (Elt F) → (⟨S8x4096x3, .f32⟩ : BufTy).Contents (Elt F)),
    StableHlo.nullary main_cst_0 (constant S_ .f32 0x00000000#32),
    StableHlo.binary main_v2 main_cst_0 main_v3 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_arg0 main_arg1 main_v4 ((fun l r => Host.dotGeneral dot_S8x4096x3_S8x4096x3_S8x4096x4096_2_2_1_1_0_0 none l r) : (⟨S8x4096x3, .f32⟩ : BufTy).Contents (Elt F) → (⟨S8x4096x3, .f32⟩ : BufTy).Contents (Elt F) → (⟨S8x4096x4096, .f32⟩ : BufTy).Contents (Elt F)),
    StableHlo.unary main_v1 main_v5 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v3 main_v6 (broadcastInDim S8x1x4096 ![0, 2] bcast_S8x4096_S8x1x4096_0_2 : (⟨S8x4096, .f32⟩ : BufTy).Contents (Elt F) → (⟨S8x1x4096, .f32⟩ : BufTy).Contents (Elt F)),
    StableHlo.unary main_v5 main_v7 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.unary main_v6 main_v8 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    StableHlo.binary main_v7 main_v8 main_v9 (addf : (⟨S8x4096x4096, .f32⟩ : BufTy).Contents (Elt F) → (⟨S8x4096x4096, .f32⟩ : BufTy).Contents (Elt F) → (⟨S8x4096x4096, .f32⟩ : BufTy).Contents (Elt F)),
    StableHlo.nullary main_cst_1 (constant S_ .f32 0x40000000#32),
    StableHlo.unary main_cst_1 main_v10 (broadcastInDim S8x4096x4096 ![] bcast_S_S8x4096x4096 : (⟨S_, .f32⟩ : BufTy).Contents (Elt F) → (⟨S8x4096x4096, .f32⟩ : BufTy).Contents (Elt F)),
    StableHlo.binary main_v10 main_v4 main_v11 (mulf : (⟨S8x4096x4096, .f32⟩ : BufTy).Contents (Elt F) → (⟨S8x4096x4096, .f32⟩ : BufTy).Contents (Elt F) → (⟨S8x4096x4096, .f32⟩ : BufTy).Contents (Elt F)),
    StableHlo.binary main_v9 main_v11 main_v12 (subf : (⟨S8x4096x4096, .f32⟩ : BufTy).Contents (Elt F) → (⟨S8x4096x4096, .f32⟩ : BufTy).Contents (Elt F) → (⟨S8x4096x4096, .f32⟩ : BufTy).Contents (Elt F)),
    StableHlo.nullary main_cst_2 (constant S_ .f32 0x00000000#32),
    StableHlo.unary main_cst_2 main_v13 (broadcastInDim S8x4096x4096 ![] bcast_S_S8x4096x4096 : (⟨S_, .f32⟩ : BufTy).Contents (Elt F) → (⟨S8x4096x4096, .f32⟩ : BufTy).Contents (Elt F)),
    StableHlo.binary main_v12 main_v13 main_v14 (maximumf : (⟨S8x4096x4096, .f32⟩ : BufTy).Contents (Elt F) → (⟨S8x4096x4096, .f32⟩ : BufTy).Contents (Elt F) → (⟨S8x4096x4096, .f32⟩ : BufTy).Contents (Elt F)),
    StableHlo.unary main_v14 main_v15 (Host.sqrt : (⟨S8x4096x4096, .f32⟩ : BufTy).Contents (Elt F) → (⟨S8x4096x4096, .f32⟩ : BufTy).Contents (Elt F)),
    StableHlo.nullary main_cst_3 (constant S_ .f32 0x7F800000#32),
    StableHlo.binary main_v15 main_cst_3 main_v16 ((fun x v => Host.reduce FloatOps.minimumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    StableHlo.nullary main_cst_4 (constant S_ .f32 0x7F800000#32),
    StableHlo.binary main_v15 main_cst_4 main_v17 ((fun x v => Host.reduce FloatOps.minimumf x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    StableHlo.nullary main_cst_5 (constant S_ .f32 0x00000000#32),
    StableHlo.binary main_v16 main_cst_5 main_v18 ((fun x v => Host.reduceAdd x v reducesTo_S8x4096_S_d0_1 h_S_) : (⟨S8x4096, .f32⟩ : BufTy).Contents (Elt F) → (⟨S_, .f32⟩ : BufTy).Contents (Elt F) → (⟨S_, .f32⟩ : BufTy).Contents (Elt F)),
    StableHlo.nullary main_cst_6 (constant S_ .f32 0x47000000#32),
    StableHlo.binary main_v18 main_cst_6 main_v19 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_v17 main_cst_7 main_v20 ((fun x v => Host.reduceAdd x v reducesTo_S8x4096_S_d0_1 h_S_) : (⟨S8x4096, .f32⟩ : BufTy).Contents (Elt F) → (⟨S_, .f32⟩ : BufTy).Contents (Elt F) → (⟨S_, .f32⟩ : BufTy).Contents (Elt F)),
    StableHlo.nullary main_cst_8 (constant S_ .f32 0x47000000#32),
    StableHlo.binary main_v20 main_cst_8 main_v21 (Host.divf : (⟨S_, .f32⟩ : BufTy).Contents (Elt F) → (⟨S_, .f32⟩ : BufTy).Contents (Elt F) → (⟨S_, .f32⟩ : BufTy).Contents (Elt F)),
    StableHlo.binary main_v19 main_v21 main_v22 (addf : (⟨S_, .f32⟩ : BufTy).Contents (Elt F) → (⟨S_, .f32⟩ : BufTy).Contents (Elt F) → (⟨S_, .f32⟩ : BufTy).Contents (Elt F)),
    StableHlo.unary main_arg2 main_v23 ((extractStridedSlice S12288x1 ![0, 0] · slices_S12288x2_S12288x1_0_0) : (⟨S12288x2, .i32⟩ : BufTy).Contents (Elt F) → (⟨S12288x1, .i32⟩ : BufTy).Contents (Elt F)),
    StableHlo.reshape main_v23 main_v24 rfl shapeCasts_S12288x1_S12288,
    StableHlo.nullary main_c (constantI S_ 32 0#32),
    StableHlo.unary main_c main_v25 (broadcastInDim S12288 ![] bcast_S_S12288 : (⟨S_, .i32⟩ : BufTy).Contents (Elt F) → (⟨S12288, .i32⟩ : BufTy).Contents (Elt F)),
    StableHlo.binary main_v24 main_v25 main_v26 (cmpi .slt : (⟨S12288, .i32⟩ : BufTy).Contents (Elt F) → (⟨S12288, .i32⟩ : BufTy).Contents (Elt F) → (⟨S12288, .i1⟩ : BufTy).Contents (Elt F)),
    StableHlo.nullary main_c_9 (constantI S_ 32 4096#32),
    StableHlo.unary main_c_9 main_v27 (broadcastInDim S12288 ![] bcast_S_S12288 : (⟨S_, .i32⟩ : BufTy).Contents (Elt F) → (⟨S12288, .i32⟩ : BufTy).Contents (Elt F)),
    StableHlo.binary main_v24 main_v27 main_v28 (addi : (⟨S12288, .i32⟩ : BufTy).Contents (Elt F) → (⟨S12288, .i32⟩ : BufTy).Contents (Elt F) → (⟨S12288, .i32⟩ : BufTy).Contents (Elt F)),
    StableHlo.ternary main_v26 main_v28 main_v24 main_v29 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v29 main_v30 (broadcastInDim S12288x1 ![0] bcast_S12288_S12288x1_0 : (⟨S12288, .i32⟩ : BufTy).Contents (Elt F) → (⟨S12288x1, .i32⟩ : BufTy).Contents (Elt F)),
    StableHlo.binary main_arg0 main_v30 main_v31 ((fun x i => Host.gather gather_S8x4096x3_S12288x1_S8x12288x3_02_1_n_n_1_1_813 x i) : (⟨S8x4096x3, .f32⟩ : BufTy).Contents (Elt F) → (⟨S12288x1, .i32⟩ : BufTy).Contents (Elt F) → (⟨S8x12288x3, .f32⟩ : BufTy).Contents (Elt F)),
    StableHlo.unary main_arg2 main_v32 ((extractStridedSlice S12288x1 ![0, 1] · slices_S12288x2_S12288x1_0_1) : (⟨S12288x2, .i32⟩ : BufTy).Contents (Elt F) → (⟨S12288x1, .i32⟩ : BufTy).Contents (Elt F)),
    StableHlo.reshape main_v32 main_v33 rfl shapeCasts_S12288x1_S12288,
    StableHlo.nullary main_c_10 (constantI S_ 32 0#32),
    StableHlo.unary main_c_10 main_v34 (broadcastInDim S12288 ![] bcast_S_S12288 : (⟨S_, .i32⟩ : BufTy).Contents (Elt F) → (⟨S12288, .i32⟩ : BufTy).Contents (Elt F)),
    StableHlo.binary main_v33 main_v34 main_v35 (cmpi .slt : (⟨S12288, .i32⟩ : BufTy).Contents (Elt F) → (⟨S12288, .i32⟩ : BufTy).Contents (Elt F) → (⟨S12288, .i1⟩ : BufTy).Contents (Elt F)),
    StableHlo.nullary main_c_11 (constantI S_ 32 4096#32),
    StableHlo.unary main_c_11 main_v36 (broadcastInDim S12288 ![] bcast_S_S12288 : (⟨S_, .i32⟩ : BufTy).Contents (Elt F) → (⟨S12288, .i32⟩ : BufTy).Contents (Elt F)),
    StableHlo.binary main_v33 main_v36 main_v37 (addi : (⟨S12288, .i32⟩ : BufTy).Contents (Elt F) → (⟨S12288, .i32⟩ : BufTy).Contents (Elt F) → (⟨S12288, .i32⟩ : BufTy).Contents (Elt F)),
    StableHlo.ternary main_v35 main_v37 main_v33 main_v38 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v38 main_v39 (broadcastInDim S12288x1 ![0] bcast_S12288_S12288x1_0 : (⟨S12288, .i32⟩ : BufTy).Contents (Elt F) → (⟨S12288x1, .i32⟩ : BufTy).Contents (Elt F)),
    StableHlo.binary main_arg0 main_v39 main_v40 ((fun x i => Host.gather gather_S8x4096x3_S12288x1_S8x12288x3_02_1_n_n_1_1_813 x i) : (⟨S8x4096x3, .f32⟩ : BufTy).Contents (Elt F) → (⟨S12288x1, .i32⟩ : BufTy).Contents (Elt F) → (⟨S8x12288x3, .f32⟩ : BufTy).Contents (Elt F)),
    StableHlo.binary main_v31 main_v40 main_v41 (subf : (⟨S8x12288x3, .f32⟩ : BufTy).Contents (Elt F) → (⟨S8x12288x3, .f32⟩ : BufTy).Contents (Elt F) → (⟨S8x12288x3, .f32⟩ : BufTy).Contents (Elt F)),
    StableHlo.TRef.binary (.of main_v41 : StableHlo.TRef sig ⟨S8x12288x3, .f32⟩) (.of main_v41 : StableHlo.TRef sig ⟨S8x12288x3, .f32⟩) main_call0.v0 mulf,
    StableHlo.TRef.nullary main_call0.cst (constant S_ .f32 0x00000000#32),
    StableHlo.TRef.binary main_call0.v0 main_call0.cst main_call0.v1 (fun x v => Host.reduceAdd x v reducesTo_S8x12288x3_S8x12288_d2 h_S_),
    StableHlo.TRef.unary main_call0.v1 main_call0.v2 Host.sqrt,
    StableHlo.nullary main_c_12 (constantI S_ 32 1#32),
    StableHlo.TRef.nullary main_call1.cst (constant S_ .f32 0x00000000#32),
    StableHlo.TRef.binary (.of main_v42 : StableHlo.TRef sig ⟨S8x12288, .f32⟩) main_call1.cst main_call1.v0 (fun x v => Host.reduceAdd x v reducesTo_S8x12288_S_d0_1 h_S_),
    StableHlo.TRef.unary main_call1.v0 main_call1.v1 (broadcastInDim S1x1 ![] bcast_S_S1x1),
    StableHlo.TRef.nullary main_call1.cst_0 (constant S_ .f32 0x47C00000#32),
    StableHlo.TRef.unary main_call1.cst_0 main_call1.v2 (broadcastInDim S1x1 ![] bcast_S_S1x1),
    StableHlo.TRef.binary main_call1.v1 main_call1.v2 main_call1.v3 Host.divf,
    StableHlo.TRef.unary main_call1.v3 main_call1.v4 (broadcastInDim S8x12288 ![0, 1] bcast_S1x1_S8x12288_0_1),
    StableHlo.TRef.binary (.of main_v42 : StableHlo.TRef sig ⟨S8x12288, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47C00000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8x12288_S_d0_1 h_S_),
    StableHlo.TRef.binary main_call1.v9 main_call1.v8 main_call1.v10 Host.divf,
    StableHlo.TRef.nullary main_call1.cst_3 (constant S_ .f32 0x00000000#32),
    StableHlo.TRef.binary main_call1.v8 main_call1.cst_3 main_call1.v11 (cmpf .ogt),
    StableHlo.TRef.nullary main_call1.cst_4 (constant S_ .f32 0x7FC00000#32),
    StableHlo.TRef.unary main_call1.cst_4 main_call1.call0.v0 id,
    StableHlo.TRef.ternary main_call1.v11 main_call1.v10 main_call1.call0.v0 main_call1.call0.v1 select,
    StableHlo.nullary main_cst_13 (constant S_ .f32 0x3F800000#32) ]

/-- The last four operations: the two products and their sum. -/
abbrev ops1 : List (HloOp τ sig (Elt F)) :=
  [ StableHlo.binary main_cst_13 main_v22 main_v44 (mulf : (⟨S_, .f32⟩ : BufTy).Contents (Elt F) → (⟨S_, .f32⟩ : BufTy).Contents (Elt F) → (⟨S_, .f32⟩ : BufTy).Contents (Elt F)),
    StableHlo.nullary main_cst_14 (constant S_ .f32 0x3DCCCCCD#32),
    StableHlo.binary main_cst_14 main_v43 main_v45 (mulf : (⟨S_, .f32⟩ : BufTy).Contents (Elt F) → (⟨S_, .f32⟩ : BufTy).Contents (Elt F) → (⟨S_, .f32⟩ : BufTy).Contents (Elt F)),
    StableHlo.binary main_v44 main_v45 main_v46 (addf : (⟨S_, .f32⟩ : BufTy).Contents (Elt F) → (⟨S_, .f32⟩ : BufTy).Contents (Elt F) → (⟨S_, .f32⟩ : BufTy).Contents (Elt F)) ]

/-- The whole program as one list of its 86 host operations: the two windows in order. -/
abbrev ops : List (HloOp τ sig (Elt F)) :=
  [ StableHlo.binary main_arg0 main_arg0 main_v0 (mulf : (⟨S8x4096x3, .f32⟩ : BufTy).Contents (Elt F) → (⟨S8x4096x3, .f32⟩ : BufTy).Contents (Elt F) → (⟨S8x4096x3, .f32⟩ : BufTy).Contents (Elt F)),
    StableHlo.nullary main_cst (constant S_ .f32 0x00000000#32),
    StableHlo.binary main_v0 main_cst main_v1 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_arg1 main_arg1 main_v2 (mulf : (⟨S8x4096x3, .f32⟩ : BufTy).Contents (Elt F) → (⟨S8x4096x3, .f32⟩ : BufTy).Contents (Elt F) → (⟨S8x4096x3, .f32⟩ : BufTy).Contents (Elt F)),
    StableHlo.nullary main_cst_0 (constant S_ .f32 0x00000000#32),
    StableHlo.binary main_v2 main_cst_0 main_v3 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_arg0 main_arg1 main_v4 ((fun l r => Host.dotGeneral dot_S8x4096x3_S8x4096x3_S8x4096x4096_2_2_1_1_0_0 none l r) : (⟨S8x4096x3, .f32⟩ : BufTy).Contents (Elt F) → (⟨S8x4096x3, .f32⟩ : BufTy).Contents (Elt F) → (⟨S8x4096x4096, .f32⟩ : BufTy).Contents (Elt F)),
    StableHlo.unary main_v1 main_v5 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v3 main_v6 (broadcastInDim S8x1x4096 ![0, 2] bcast_S8x4096_S8x1x4096_0_2 : (⟨S8x4096, .f32⟩ : BufTy).Contents (Elt F) → (⟨S8x1x4096, .f32⟩ : BufTy).Contents (Elt F)),
    StableHlo.unary main_v5 main_v7 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.unary main_v6 main_v8 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    StableHlo.binary main_v7 main_v8 main_v9 (addf : (⟨S8x4096x4096, .f32⟩ : BufTy).Contents (Elt F) → (⟨S8x4096x4096, .f32⟩ : BufTy).Contents (Elt F) → (⟨S8x4096x4096, .f32⟩ : BufTy).Contents (Elt F)),
    StableHlo.nullary main_cst_1 (constant S_ .f32 0x40000000#32),
    StableHlo.unary main_cst_1 main_v10 (broadcastInDim S8x4096x4096 ![] bcast_S_S8x4096x4096 : (⟨S_, .f32⟩ : BufTy).Contents (Elt F) → (⟨S8x4096x4096, .f32⟩ : BufTy).Contents (Elt F)),
    StableHlo.binary main_v10 main_v4 main_v11 (mulf : (⟨S8x4096x4096, .f32⟩ : BufTy).Contents (Elt F) → (⟨S8x4096x4096, .f32⟩ : BufTy).Contents (Elt F) → (⟨S8x4096x4096, .f32⟩ : BufTy).Contents (Elt F)),
    StableHlo.binary main_v9 main_v11 main_v12 (subf : (⟨S8x4096x4096, .f32⟩ : BufTy).Contents (Elt F) → (⟨S8x4096x4096, .f32⟩ : BufTy).Contents (Elt F) → (⟨S8x4096x4096, .f32⟩ : BufTy).Contents (Elt F)),
    StableHlo.nullary main_cst_2 (constant S_ .f32 0x00000000#32),
    StableHlo.unary main_cst_2 main_v13 (broadcastInDim S8x4096x4096 ![] bcast_S_S8x4096x4096 : (⟨S_, .f32⟩ : BufTy).Contents (Elt F) → (⟨S8x4096x4096, .f32⟩ : BufTy).Contents (Elt F)),
    StableHlo.binary main_v12 main_v13 main_v14 (maximumf : (⟨S8x4096x4096, .f32⟩ : BufTy).Contents (Elt F) → (⟨S8x4096x4096, .f32⟩ : BufTy).Contents (Elt F) → (⟨S8x4096x4096, .f32⟩ : BufTy).Contents (Elt F)),
    StableHlo.unary main_v14 main_v15 (Host.sqrt : (⟨S8x4096x4096, .f32⟩ : BufTy).Contents (Elt F) → (⟨S8x4096x4096, .f32⟩ : BufTy).Contents (Elt F)),
    StableHlo.nullary main_cst_3 (constant S_ .f32 0x7F800000#32),
    StableHlo.binary main_v15 main_cst_3 main_v16 ((fun x v => Host.reduce FloatOps.minimumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    StableHlo.nullary main_cst_4 (constant S_ .f32 0x7F800000#32),
    StableHlo.binary main_v15 main_cst_4 main_v17 ((fun x v => Host.reduce FloatOps.minimumf x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    StableHlo.nullary main_cst_5 (constant S_ .f32 0x00000000#32),
    StableHlo.binary main_v16 main_cst_5 main_v18 ((fun x v => Host.reduceAdd x v reducesTo_S8x4096_S_d0_1 h_S_) : (⟨S8x4096, .f32⟩ : BufTy).Contents (Elt F) → (⟨S_, .f32⟩ : BufTy).Contents (Elt F) → (⟨S_, .f32⟩ : BufTy).Contents (Elt F)),
    StableHlo.nullary main_cst_6 (constant S_ .f32 0x47000000#32),
    StableHlo.binary main_v18 main_cst_6 main_v19 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_v17 main_cst_7 main_v20 ((fun x v => Host.reduceAdd x v reducesTo_S8x4096_S_d0_1 h_S_) : (⟨S8x4096, .f32⟩ : BufTy).Contents (Elt F) → (⟨S_, .f32⟩ : BufTy).Contents (Elt F) → (⟨S_, .f32⟩ : BufTy).Contents (Elt F)),
    StableHlo.nullary main_cst_8 (constant S_ .f32 0x47000000#32),
    StableHlo.binary main_v20 main_cst_8 main_v21 (Host.divf : (⟨S_, .f32⟩ : BufTy).Contents (Elt F) → (⟨S_, .f32⟩ : BufTy).Contents (Elt F) → (⟨S_, .f32⟩ : BufTy).Contents (Elt F)),
    StableHlo.binary main_v19 main_v21 main_v22 (addf : (⟨S_, .f32⟩ : BufTy).Contents (Elt F) → (⟨S_, .f32⟩ : BufTy).Contents (Elt F) → (⟨S_, .f32⟩ : BufTy).Contents (Elt F)),
    StableHlo.unary main_arg2 main_v23 ((extractStridedSlice S12288x1 ![0, 0] · slices_S12288x2_S12288x1_0_0) : (⟨S12288x2, .i32⟩ : BufTy).Contents (Elt F) → (⟨S12288x1, .i32⟩ : BufTy).Contents (Elt F)),
    StableHlo.reshape main_v23 main_v24 rfl shapeCasts_S12288x1_S12288,
    StableHlo.nullary main_c (constantI S_ 32 0#32),
    StableHlo.unary main_c main_v25 (broadcastInDim S12288 ![] bcast_S_S12288 : (⟨S_, .i32⟩ : BufTy).Contents (Elt F) → (⟨S12288, .i32⟩ : BufTy).Contents (Elt F)),
    StableHlo.binary main_v24 main_v25 main_v26 (cmpi .slt : (⟨S12288, .i32⟩ : BufTy).Contents (Elt F) → (⟨S12288, .i32⟩ : BufTy).Contents (Elt F) → (⟨S12288, .i1⟩ : BufTy).Contents (Elt F)),
    StableHlo.nullary main_c_9 (constantI S_ 32 4096#32),
    StableHlo.unary main_c_9 main_v27 (broadcastInDim S12288 ![] bcast_S_S12288 : (⟨S_, .i32⟩ : BufTy).Contents (Elt F) → (⟨S12288, .i32⟩ : BufTy).Contents (Elt F)),
    StableHlo.binary main_v24 main_v27 main_v28 (addi : (⟨S12288, .i32⟩ : BufTy).Contents (Elt F) → (⟨S12288, .i32⟩ : BufTy).Contents (Elt F) → (⟨S12288, .i32⟩ : BufTy).Contents (Elt F)),
    StableHlo.ternary main_v26 main_v28 main_v24 main_v29 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v29 main_v30 (broadcastInDim S12288x1 ![0] bcast_S12288_S12288x1_0 : (⟨S12288, .i32⟩ : BufTy).Contents (Elt F) → (⟨S12288x1, .i32⟩ : BufTy).Contents (Elt F)),
    StableHlo.binary main_arg0 main_v30 main_v31 ((fun x i => Host.gather gather_S8x4096x3_S12288x1_S8x12288x3_02_1_n_n_1_1_813 x i) : (⟨S8x4096x3, .f32⟩ : BufTy).Contents (Elt F) → (⟨S12288x1, .i32⟩ : BufTy).Contents (Elt F) → (⟨S8x12288x3, .f32⟩ : BufTy).Contents (Elt F)),
    StableHlo.unary main_arg2 main_v32 ((extractStridedSlice S12288x1 ![0, 1] · slices_S12288x2_S12288x1_0_1) : (⟨S12288x2, .i32⟩ : BufTy).Contents (Elt F) → (⟨S12288x1, .i32⟩ : BufTy).Contents (Elt F)),
    StableHlo.reshape main_v32 main_v33 rfl shapeCasts_S12288x1_S12288,
    StableHlo.nullary main_c_10 (constantI S_ 32 0#32),
    StableHlo.unary main_c_10 main_v34 (broadcastInDim S12288 ![] bcast_S_S12288 : (⟨S_, .i32⟩ : BufTy).Contents (Elt F) → (⟨S12288, .i32⟩ : BufTy).Contents (Elt F)),
    StableHlo.binary main_v33 main_v34 main_v35 (cmpi .slt : (⟨S12288, .i32⟩ : BufTy).Contents (Elt F) → (⟨S12288, .i32⟩ : BufTy).Contents (Elt F) → (⟨S12288, .i1⟩ : BufTy).Contents (Elt F)),
    StableHlo.nullary main_c_11 (constantI S_ 32 4096#32),
    StableHlo.unary main_c_11 main_v36 (broadcastInDim S12288 ![] bcast_S_S12288 : (⟨S_, .i32⟩ : BufTy).Contents (Elt F) → (⟨S12288, .i32⟩ : BufTy).Contents (Elt F)),
    StableHlo.binary main_v33 main_v36 main_v37 (addi : (⟨S12288, .i32⟩ : BufTy).Contents (Elt F) → (⟨S12288, .i32⟩ : BufTy).Contents (Elt F) → (⟨S12288, .i32⟩ : BufTy).Contents (Elt F)),
    StableHlo.ternary main_v35 main_v37 main_v33 main_v38 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v38 main_v39 (broadcastInDim S12288x1 ![0] bcast_S12288_S12288x1_0 : (⟨S12288, .i32⟩ : BufTy).Contents (Elt F) → (⟨S12288x1, .i32⟩ : BufTy).Contents (Elt F)),
    StableHlo.binary main_arg0 main_v39 main_v40 ((fun x i => Host.gather gather_S8x4096x3_S12288x1_S8x12288x3_02_1_n_n_1_1_813 x i) : (⟨S8x4096x3, .f32⟩ : BufTy).Contents (Elt F) → (⟨S12288x1, .i32⟩ : BufTy).Contents (Elt F) → (⟨S8x12288x3, .f32⟩ : BufTy).Contents (Elt F)),
    StableHlo.binary main_v31 main_v40 main_v41 (subf : (⟨S8x12288x3, .f32⟩ : BufTy).Contents (Elt F) → (⟨S8x12288x3, .f32⟩ : BufTy).Contents (Elt F) → (⟨S8x12288x3, .f32⟩ : BufTy).Contents (Elt F)),
    StableHlo.TRef.binary (.of main_v41 : StableHlo.TRef sig ⟨S8x12288x3, .f32⟩) (.of main_v41 : StableHlo.TRef sig ⟨S8x12288x3, .f32⟩) main_call0.v0 mulf,
    StableHlo.TRef.nullary main_call0.cst (constant S_ .f32 0x00000000#32),
    StableHlo.TRef.binary main_call0.v0 main_call0.cst main_call0.v1 (fun x v => Host.reduceAdd x v reducesTo_S8x12288x3_S8x12288_d2 h_S_),
    StableHlo.TRef.unary main_call0.v1 main_call0.v2 Host.sqrt,
    StableHlo.nullary main_c_12 (constantI S_ 32 1#32),
    StableHlo.TRef.nullary main_call1.cst (constant S_ .f32 0x00000000#32),
    StableHlo.TRef.binary (.of main_v42 : StableHlo.TRef sig ⟨S8x12288, .f32⟩) main_call1.cst main_call1.v0 (fun x v => Host.reduceAdd x v reducesTo_S8x12288_S_d0_1 h_S_),
    StableHlo.TRef.unary main_call1.v0 main_call1.v1 (broadcastInDim S1x1 ![] bcast_S_S1x1),
    StableHlo.TRef.nullary main_call1.cst_0 (constant S_ .f32 0x47C00000#32),
    StableHlo.TRef.unary main_call1.cst_0 main_call1.v2 (broadcastInDim S1x1 ![] bcast_S_S1x1),
    StableHlo.TRef.binary main_call1.v1 main_call1.v2 main_call1.v3 Host.divf,
    StableHlo.TRef.unary main_call1.v3 main_call1.v4 (broadcastInDim S8x12288 ![0, 1] bcast_S1x1_S8x12288_0_1),
    StableHlo.TRef.binary (.of main_v42 : StableHlo.TRef sig ⟨S8x12288, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47C00000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8x12288_S_d0_1 h_S_),
    StableHlo.TRef.binary main_call1.v9 main_call1.v8 main_call1.v10 Host.divf,
    StableHlo.TRef.nullary main_call1.cst_3 (constant S_ .f32 0x00000000#32),
    StableHlo.TRef.binary main_call1.v8 main_call1.cst_3 main_call1.v11 (cmpf .ogt),
    StableHlo.TRef.nullary main_call1.cst_4 (constant S_ .f32 0x7FC00000#32),
    StableHlo.TRef.unary main_call1.cst_4 main_call1.call0.v0 id,
    StableHlo.TRef.ternary main_call1.v11 main_call1.v10 main_call1.call0.v0 main_call1.call0.v1 select,
    StableHlo.nullary main_cst_13 (constant S_ .f32 0x3F800000#32),
    StableHlo.binary main_cst_13 main_v22 main_v44 (mulf : (⟨S_, .f32⟩ : BufTy).Contents (Elt F) → (⟨S_, .f32⟩ : BufTy).Contents (Elt F) → (⟨S_, .f32⟩ : BufTy).Contents (Elt F)),
    StableHlo.nullary main_cst_14 (constant S_ .f32 0x3DCCCCCD#32),
    StableHlo.binary main_cst_14 main_v43 main_v45 (mulf : (⟨S_, .f32⟩ : BufTy).Contents (Elt F) → (⟨S_, .f32⟩ : BufTy).Contents (Elt F) → (⟨S_, .f32⟩ : BufTy).Contents (Elt F)),
    StableHlo.binary main_v44 main_v45 main_v46 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The first window is that straight line: the three functions unfolded at their calls; sequencing in the free
    monad reassociates by computation. -/
theorem part0_eq (c : Dev nD) : main_part0 (F := F) c = seq ops0 := rfl

/-- The second window likewise. -/
theorem part1_eq (c : Dev nD) : main_part1 (F := F) c = seq ops1 := rfl

theorem main_eq (c : Dev nD) : main (F := F) c = seq ops := by
  have h : main (F := F) c = main_part0 c >>= fun _ => main_part1 c := rfl
  rw [h, part0_eq, part1_eq, ← seq_append]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., unary_bufs_sub .., nullary_bufs_sub .., binary_bufs_sub .., nullary_bufs_sub .., binary_bufs_sub ..,
    nullary_bufs_sub .., binary_bufs_sub .., nullary_bufs_sub .., binary_bufs_sub .., nullary_bufs_sub .., binary_bufs_sub ..,
    nullary_bufs_sub .., binary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., nullary_bufs_sub .., binary_bufs_sub .., unary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., binary_bufs_sub .., nullary_bufs_sub .., binary_bufs_sub ..,
    nullary_bufs_sub .., unary_bufs_sub .., ternary_bufs_sub .., nullary_bufs_sub .., binary_bufs_sub .., nullary_bufs_sub ..,
    binary_bufs_sub .., binary_bufs_sub ..⟩

attribute [local irreducible] Host.reduce Host.reduceAdd Host.gather in
set_option maxRecDepth 8192 in
set_option maxHeartbeats 4000000 in
/-- The fold of the operations at the result buffer is `result` of the arguments' contents: each operation's
    result read at its own buffer, every other buffer kept. -/
theorem out_eq (V : Valuation τ sig (Elt F)) :
    after ops V (main_v46 : DevRef τ sig)
      = result (V (main_arg0 : DevRef τ sig)) (V (main_arg1 : DevRef τ sig)) (V (main_arg2 : DevRef τ sig)) := by
  after_results_simp
  rfl

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

/-- On every device, for any float values, from any memory with zero counters: every weakly fair execution of
    the program terminates with the result buffer at `result` of the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v46)
          = result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v46).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.HandRun

end
-- ==== Proof.RefValue.lean ====
import proofs.«412153_j16054587752992_3_alg».proof.Proof.RefRun
import proofs.«412153_j16054587752992_3_alg».proof.Proof.Spec
import proofs.«412153_j16054587752992_3_alg».proof.Proof.LibSums
import proofs.«412153_j16054587752992_3_alg».proof.KernelIdeal
import Idealize.ShloMosaic.PureOps.Ideal.Laws
import Idealize.ShloMosaic.PureOps.Reduce
import Idealize.ShloMosaic.Lib.ValueIdx
import Idealize.ShloMosaic.Lib.Pipeline.Value

/-!
The reference's nearest-neighbour term read at an index, on the extended reals.

* The squared norm of a point is zero plus the sum of the squares of its three coordinates, and the inner product of
  two points is the sum of the products of their coordinates.
* The entry (b, n, mm) of the distance matrix is x ↦ sqrt (max x 0) of the expanded squared distance
  (|p|² + |q|²) − 2 ⟨p, q⟩ between point n of the first cloud and point mm of the second, batch b.
* A minimum along a row or a column, started at the top element, is the infimum of that row's or column's entries.
* A sum of a table into a scalar is zero plus the iterated sum over the coordinates; the nearest-neighbour term is the
  total of the row infima over 32768 plus the total of the column infima over 32768.
-/

open scoped BigOperators

noncomputable section

namespace Cert.RefValue

open Idealize.ShloMosaic Idealize.ShloMosaic.ValueIdx Cert.ReferenceIdeal Cert.ReferenceIdeal.HandRun
open Cert.ReferenceIdeal.Facts₀ Cert.ReferenceIdeal.Facts

variable [Cert.ReferenceIdeal.Facts]

/-! ## Words -/

/-- The word of the neutral element of the minimum is the top element. -/
theorem ofBits_top : Ideal.ofBits .f32 0x7F800000#32 = (⊤ : EReal) := by
  simp [Ideal.ofBits, Ideal.ieee]

/-- The word of the factor of the inner products is two. -/
theorem ofBits_two : Ideal.ofBits .f32 0x40000000#32 = (2 : EReal) := by
  have h2 : (2 : EReal) = ((2 : ℝ) : EReal) := by norm_cast
  simp [Ideal.ofBits, Ideal.ieee]
  rw [h2, ← EReal.coe_mul]
  congr 1
  norm_num

/-! ## The sum of squares of a point -/

/-- The index of a point's coordinate over the index of the point. -/
theorem lift_last3 (h : S8x4096x3.Reduces [2] S8x4096) (b : Fin 8) (n : Fin 4096) (k : Fin 3) :
    h.lift (ix2 b n) k = ix3 b n k := by
  funext c; apply Fin.ext
  match c with
  | ⟨0, _⟩ => rfl
  | ⟨1, _⟩ => rfl
  | ⟨2, _⟩ => rfl

/-- The squared norm of point `n` of batch `b`: zero plus the sum of the squares of its three coordinates. -/
theorem sumsq_apply (a : FVec Ideal S8x4096x3 .f32) (b : Fin 8) (n : Fin 4096) :
    Host.reduceAdd (F := Ideal) (mulf a a) (constant (F := Ideal) S_ .f32 0x00000000#32)
        reducesTo_S8x4096x3_S8x4096_d2 h_S_ (ix2 b n)
      = (0 : EReal) + ∑ k : Fin 3, a (ix3 b n k) * a (ix3 b n k) := by
  have h : S8x4096x3.Reduces [2] S8x4096 := by decide
  show Ideal.hostReduceAdd reducesTo_S8x4096x3_S8x4096_d2 (mulf a a) (Ideal.ofBits .f32 0x00000000#32) (ix2 b n) = _
  rw [Ideal.hostReduceAdd_single _ h, Ideal.ofBits_zero_f32]
  refine congrArg ((0 : EReal) + ·) (Finset.sum_congr rfl fun k _ => ?_)
  exact congrArg (fun i => a i * a i) (lift_last3 h b n k)

/-! ## The inner products -/

theorem dot_apply (a0 a1 : FVec Ideal S8x4096x3 .f32) (b : Fin 8) (n mm : Fin 4096) :
    Host.dotGeneral (F := Ideal) dot_S8x4096x3_S8x4096x3_S8x4096x4096_2_2_1_1_0_0 none a0 a1 (ix3 b n mm)
      = ∑ k : Fin 3, a0 (ix3 b n k) * a1 (ix3 b mm k) := by
  show FloatOps.dotGeneral _ none _ a0 a1 (ix3 b n mm) = _
  rw [Ideal.dotGeneral_apply,
    ← Equiv.sum_comp (contrEquiv1 dot_S8x4096x3_S8x4096x3_S8x4096x4096_2_2_1_1_0_0 3 rfl rfl).symm]
  refine Finset.sum_congr rfl fun c _ => ?_
  have c3 := contrEquiv1_symm_val dot_S8x4096x3_S8x4096x3_S8x4096x4096_2_2_1_1_0_0 3 rfl rfl c
  have l3 : dot_S8x4096x3_S8x4096x3_S8x4096x4096_2_2_1_1_0_0.lhsIdx (ix3 b n mm)
      ((contrEquiv1 _ 3 rfl rfl).symm c) = ix3 b n c := by
    funext ax; apply Fin.ext
    match ax with
    | ⟨0, _⟩ => simp [DotDims.lhsIdx, dot_S8x4096x3_S8x4096x3_S8x4096x4096_2_2_1_1_0_0]; rfl
    | ⟨1, _⟩ => simp [DotDims.lhsIdx, dot_S8x4096x3_S8x4096x3_S8x4096x4096_2_2_1_1_0_0]; rfl
    | ⟨2, _⟩ => simp [DotDims.lhsIdx, dot_S8x4096x3_S8x4096x3_S8x4096x4096_2_2_1_1_0_0]; exact c3
  have r3 : dot_S8x4096x3_S8x4096x3_S8x4096x4096_2_2_1_1_0_0.rhsIdx (ix3 b n mm)
      ((contrEquiv1 _ 3 rfl rfl).symm c) = ix3 b mm c := by
    funext ax; apply Fin.ext
    match ax with
    | ⟨0, _⟩ => simp [DotDims.rhsIdx, dot_S8x4096x3_S8x4096x3_S8x4096x4096_2_2_1_1_0_0]; rfl
    | ⟨1, _⟩ => simp [DotDims.rhsIdx, dot_S8x4096x3_S8x4096x3_S8x4096x4096_2_2_1_1_0_0]; rfl
    | ⟨2, _⟩ => simp [DotDims.rhsIdx, dot_S8x4096x3_S8x4096x3_S8x4096x4096_2_2_1_1_0_0]; exact c3
  rw [l3, r3]

/-! ## The broadcasts -/

/-- A table over (batch, row) spread along the columns reads, at (b, n, mm), the table at (b, n). -/
theorem bcast_row_apply (v : FVec Ideal S8x4096 .f32) (b : Fin 8) (n mm : Fin 4096) :
    broadcastInDim S8x4096x4096 ![0, 1, 2] bcast_S8x4096x1_S8x4096x4096_0_1_2
        (broadcastInDim S8x4096x1 ![0, 1] bcast_S8x4096_S8x4096x1_0_1 v) (ix3 b n mm) = v (ix2 b n) := by
  rw [broadcastInDim_apply _ _ _ (ix3 b n mm) (ix3 b n (0 : Fin 1)) (fun a => by
    match a with
    | ⟨0, _⟩ => rfl
    | ⟨1, _⟩ => rfl
    | ⟨2, _⟩ => rfl)]
  exact broadcastInDim_apply _ _ _ (ix3 b n (0 : Fin 1)) (ix2 b n) (fun a => by
    match a with
    | ⟨0, _⟩ => rfl
    | ⟨1, _⟩ => rfl)

/-- A table over (batch, column) spread along the rows reads, at (b, n, mm), the table at (b, mm). -/
theorem bcast_col_apply (v : FVec Ideal S8x4096 .f32) (b : Fin 8) (n mm : Fin 4096) :
    broadcastInDim S8x4096x4096 ![0, 1, 2] bcast_S8x1x4096_S8x4096x4096_0_1_2
        (broadcastInDim S8x1x4096 ![0, 2] bcast_S8x4096_S8x1x4096_0_2 v) (ix3 b n mm) = v (ix2 b mm) := by
  rw [broadcastInDim_apply _ _ _ (ix3 b n mm) (ix3 b (0 : Fin 1) mm) (fun a => by
    match a with
    | ⟨0, _⟩ => rfl
    | ⟨1, _⟩ => rfl
    | ⟨2, _⟩ => rfl)]
  exact broadcastInDim_apply _ _ _ (ix3 b (0 : Fin 1) mm) (ix2 b mm) (fun a => by
    match a with
    | ⟨0, _⟩ => rfl
    | ⟨1, _⟩ => rfl)

/-- A spread scalar word reads its value everywhere. -/
theorem bcast_scalar_apply (w : BitVec 32) (j : S8x4096x4096.Idx) :
    broadcastInDim S8x4096x4096 ![] bcast_S_S8x4096x4096 (constant (F := Ideal) S_ .f32 w) j = Ideal.ofBits .f32 w := rfl

/-! ## The distance matrix -/

/-- The distance between point `n` of the first cloud and point `mm` of the second, batch `b`: the square root of the
    clamped expansion of the squared distance, norms plus norms minus twice the inner product. -/
theorem dist_apply (a0 a1 : FVec Ideal S8x4096x3 .f32) (b : Fin 8) (n mm : Fin 4096) :
    dist (F := Ideal) a0 a1 (ix3 b n mm)
      = Cert.Spec.fdist ((((0 : EReal) + ∑ k : Fin 3, a0 (ix3 b n k) * a0 (ix3 b n k))
          + ((0 : EReal) + ∑ k : Fin 3, a1 (ix3 b mm k) * a1 (ix3 b mm k)))
          - (2 : EReal) * ((0 : EReal) + ∑ k : Fin 3, a0 (ix3 b n k) * a1 (ix3 b mm k))) := by
  unfold Cert.ReferenceIdeal.HandRun.dist Cert.Spec.fdist
  show Ideal.sqrt (max ((_ + _) - (_ * _)) _) = _
  rw [bcast_row_apply, bcast_col_apply, bcast_scalar_apply, bcast_scalar_apply, sumsq_apply, sumsq_apply, dot_apply,
    Ideal.ofBits_zero_f32, ofBits_two]
  simp only [zero_add]

/-! ## Minima along a row and along a column -/

/-- The index of column `mm` over the index of row `n` of batch `b`. -/
theorem lift_col (h : S8x4096x4096.Reduces [2] S8x4096) (b : Fin 8) (n mm : Fin 4096) :
    h.lift (ix2 b n) mm = ix3 b n mm := by
  funext c; apply Fin.ext
  match c with
  | ⟨0, _⟩ => rfl
  | ⟨1, _⟩ => rfl
  | ⟨2, _⟩ => rfl

/-- The index of row `n` over the index of column `mm` of batch `b`. -/
theorem lift_row (h : S8x4096x4096.Reduces [1] S8x4096) (b : Fin 8) (mm n : Fin 4096) :
    h.lift (ix2 b mm) n = ix3 b n mm := by
  funext c; apply Fin.ext
  match c with
  | ⟨0, _⟩ => rfl
  | ⟨1, _⟩ => rfl
  | ⟨2, _⟩ => rfl

/-- The minimum along row `n` of batch `b`, started at the top element, is the infimum of the row's entries. -/
theorem rowmin_apply (x : FVec Ideal S8x4096x4096 .f32) (b : Fin 8) (n : Fin 4096) :
    Host.reduce FloatOps.minimumf x (constant (F := Ideal) S_ .f32 0x7F800000#32) reducesTo_S8x4096x4096_S8x4096_d2 h_S_ (ix2 b n)
      = (Finset.univ : Finset (Fin 4096)).inf fun mm => x (ix3 b n mm) := by
  have h : S8x4096x4096.Reduces [2] S8x4096 := by decide
  have hinit : constant (F := Ideal) S_ .f32 0x7F800000#32 (Shape.Idx.first h_S_) = (⊤ : EReal) := ofBits_top
  rw [Host.reduce_eq_fold_single (FloatOps.minimumf (F := Ideal) (φ := .f32)) x _ reducesTo_S8x4096x4096_S8x4096_d2 h h_S_ (ix2 b n),
    hinit]
  show (Finset.univ : Finset (Fin 4096)).inf (fun mm => x (h.lift (ix2 b n) mm)) = _
  exact congrArg _ (funext fun mm => congrArg x (lift_col h b n mm))

/-- The minimum along column `mm` of batch `b`, started at the top element, is the infimum of the column's entries. -/
theorem colmin_apply (x : FVec Ideal S8x4096x4096 .f32) (b : Fin 8) (mm : Fin 4096) :
    Host.reduce FloatOps.minimumf x (constant (F := Ideal) S_ .f32 0x7F800000#32) reducesTo_S8x4096x4096_S8x4096_d1 h_S_ (ix2 b mm)
      = (Finset.univ : Finset (Fin 4096)).inf fun n => x (ix3 b n mm) := by
  have h : S8x4096x4096.Reduces [1] S8x4096 := by decide
  have hinit : constant (F := Ideal) S_ .f32 0x7F800000#32 (Shape.Idx.first h_S_) = (⊤ : EReal) := ofBits_top
  rw [Host.reduce_eq_fold_single (FloatOps.minimumf (F := Ideal) (φ := .f32)) x _ reducesTo_S8x4096x4096_S8x4096_d1 h h_S_ (ix2 b mm),
    hinit]
  show (Finset.univ : Finset (Fin 4096)).inf (fun n => x (h.lift (ix2 b mm) n)) = _
  exact congrArg _ (funext fun n => congrArg x (lift_row h b mm n))

/-! ## The total of a table, and the nearest-neighbour term -/

/-- The sum of a table over (batch, row) into a scalar: zero plus the double sum over the coordinates. -/
theorem total2_apply (y : FVec Ideal S8x4096 .f32) :
    Host.reduceAdd (F := Ideal) y (constant (F := Ideal) S_ .f32 0x00000000#32) reducesTo_S8x4096_S_d0_1 h_S_ ix0
      = (0 : EReal) + ∑ b : Fin 8, ∑ n : Fin 4096, y (ix2 b n) := by
  show Ideal.hostReduceAdd reducesTo_S8x4096_S_d0_1 y (Ideal.ofBits .f32 0x00000000#32) ix0 = _
  rw [Ideal.hostReduceAdd_total _ (fun b => b.elim0), Ideal.ofBits_zero_f32, Cert.LibSums.sum_idx2']

/-- The nearest-neighbour term: the total of the row infima of the distance matrix over 32768 plus the total of its
    column infima over 32768. -/
theorem cd_apply (a0 a1 : FVec Ideal S8x4096x3 .f32) :
    cd (F := Ideal) a0 a1 ix0
      = Ideal.div ((0 : EReal) + ∑ b : Fin 8, ∑ n : Fin 4096,
            (Finset.univ : Finset (Fin 4096)).inf fun mm => dist (F := Ideal) a0 a1 (ix3 b n mm))
          (Ideal.ofBits .f32 0x47000000#32)
        + Ideal.div ((0 : EReal) + ∑ b : Fin 8, ∑ mm : Fin 4096,
            (Finset.univ : Finset (Fin 4096)).inf fun n => dist (F := Ideal) a0 a1 (ix3 b n mm))
          (Ideal.ofBits .f32 0x47000000#32) := by
  unfold Cert.ReferenceIdeal.HandRun.cd
  show Ideal.div _ (Ideal.ofBits .f32 0x47000000#32) + Ideal.div _ (Ideal.ofBits .f32 0x47000000#32) = _
  rw [total2_apply, total2_apply]
  simp only [rowmin_apply, colmin_apply]

end Cert.RefValue

/-! ## The kernel's side: the total of a table with a unit middle axis -/

namespace Cert.KernelIdeal.Hand

open Idealize.ShloMosaic Idealize.ShloMosaic.ValueIdx

variable [Cert.KernelIdeal.Facts]

/-- The sum of a table over (batch, one, column) into a scalar: zero plus the double sum over batch and column. -/
theorem total3_apply (o : FVec Ideal Cert.KernelIdeal.S8x1x4096 .f32) :
    Host.reduceAdd (F := Ideal) o (constant (F := Ideal) Cert.KernelIdeal.S_ .f32 0x00000000#32)
        Cert.KernelIdeal.Facts₀.reducesTo_S8x1x4096_S_d0_1_2 Cert.KernelIdeal.Facts₀.h_S_ ix0
      = (0 : EReal) + ∑ b : Fin 8, ∑ n : Fin 4096, o (ix3 b 0 n) := by
  show Ideal.hostReduceAdd Cert.KernelIdeal.Facts₀.reducesTo_S8x1x4096_S_d0_1_2 o (Ideal.ofBits .f32 0x00000000#32) ix0 = _
  rw [Ideal.hostReduceAdd_total _ (fun b => b.elim0), Ideal.ofBits_zero_f32, Cert.LibSums.sum_idx3]
  refine congrArg ((0 : EReal) + ·) (Finset.sum_congr rfl fun b _ => ?_)
  exact Fin.sum_univ_one _

end Cert.KernelIdeal.Hand

end
-- ==== Proof.BridgeCd.lean ====
import proofs.«412153_j16054587752992_3_alg».proof.Proof.RefValue
import proofs.«412153_j16054587752992_3_alg».proof.Proof.KI.TailValue
import Idealize.ShloMosaic.Lib.ValueIdx

/-!
The two programs' nearest-neighbour scalars agree.

The kernel's scalar is the total of its first output array over 32768 plus the total of its second over 32768, each
total being zero plus the double sum over batch and position. The reference's scalar is the same expression with the
row infima and the column infima of the distance matrix as summands. So once the first output holds the row infima and
the second the column infima, entry by entry, the two scalars are the same extended real.
-/

open scoped BigOperators

noncomputable section

namespace Cert.Bridge

open Idealize.ShloMosaic Idealize.ShloMosaic.ValueIdx

variable [Cert.KernelIdeal.Facts] [Cert.ReferenceIdeal.Facts]

/-- The kernel's scalar: the total of each output array, zero plus the double sum over batch and position, over 32768,
    the two quotients added. -/
theorem kcd_apply (o0 o1 : FVec Ideal Cert.KernelIdeal.S8x1x4096 .f32) :
    Cert.KernelIdeal.Hand.kcd (F := Ideal) o0 o1 ix0
      = Ideal.div ((0 : EReal) + ∑ b : Fin 8, ∑ n : Fin 4096, o0 (ix3 b 0 n)) (Ideal.ofBits .f32 0x47000000#32)
        + Ideal.div ((0 : EReal) + ∑ b : Fin 8, ∑ mm : Fin 4096, o1 (ix3 b 0 mm)) (Ideal.ofBits .f32 0x47000000#32) := by
  unfold Cert.KernelIdeal.Hand.kcd
  show Ideal.div _ (Ideal.ofBits .f32 0x47000000#32) + Ideal.div _ (Ideal.ofBits .f32 0x47000000#32) = _
  rw [Cert.KernelIdeal.Hand.total3_apply, Cert.KernelIdeal.Hand.total3_apply]

/-- With the row infima of the distance matrix in the first output and its column infima in the second, the kernel's
    scalar is the reference's. -/
theorem kcd_eq_cd (o0 o1 : FVec Ideal Cert.KernelIdeal.S8x1x4096 .f32) (a0 a1 : FVec Ideal Cert.ReferenceIdeal.S8x4096x3 .f32)
    (h0 : ∀ (b : Fin 8) (n : Fin 4096), o0 (ix3 b 0 n)
      = (Finset.univ : Finset (Fin 4096)).inf fun mm => Cert.ReferenceIdeal.HandRun.dist (F := Ideal) a0 a1 (ix3 b n mm))
    (h1 : ∀ (b : Fin 8) (mm : Fin 4096), o1 (ix3 b 0 mm)
      = (Finset.univ : Finset (Fin 4096)).inf fun n => Cert.ReferenceIdeal.HandRun.dist (F := Ideal) a0 a1 (ix3 b n mm)) :
    Cert.KernelIdeal.Hand.kcd (F := Ideal) o0 o1 = Cert.ReferenceIdeal.HandRun.cd (F := Ideal) a0 a1 := by
  funext j
  obtain rfl : j = ix0 := eq_ix0 j
  have e0 : ∑ b : Fin 8, ∑ n : Fin 4096, o0 (ix3 b 0 n)
      = ∑ b : Fin 8, ∑ n : Fin 4096,
          (Finset.univ : Finset (Fin 4096)).inf fun mm => Cert.ReferenceIdeal.HandRun.dist (F := Ideal) a0 a1 (ix3 b n mm) :=
    Finset.sum_congr rfl fun b _ => Finset.sum_congr rfl fun n _ => h0 b n
  have e1 : ∑ b : Fin 8, ∑ mm : Fin 4096, o1 (ix3 b 0 mm)
      = ∑ b : Fin 8, ∑ mm : Fin 4096,
          (Finset.univ : Finset (Fin 4096)).inf fun n => Cert.ReferenceIdeal.HandRun.dist (F := Ideal) a0 a1 (ix3 b n mm) :=
    Finset.sum_congr rfl fun b _ => Finset.sum_congr rfl fun mm _ => h1 b mm
  rw [kcd_apply, Cert.RefValue.cd_apply, e0, e1]

end Cert.Bridge

end
-- ==== Proof.BridgeEdge.lean ====
import proofs.«412153_j16054587752992_3_alg».proof.Proof.KI.TailValue
import proofs.«412153_j16054587752992_3_alg».proof.Proof.RefRun

/-!
# The edge side of the two programs is one function

The idealized kernel program and the idealized reference apply the same host operations to the first argument and
the edge table: the two columns of the table, the move of a negative position up by 4096, the gather of the rows at
the moved positions, the lengths of the differences, their variance with one degree of freedom removed, and the
weighted sum with the other term. The two programs name the same shapes, the same shape relations and the same
gather dimensions, each in its own vocabulary; here the two sets of terms are identified. The kernel program's take
also masks rows whose position is out of range; for an edge table whose every word lies in 0 … 4095 no row is masked,
and the two takes agree.
-/

noncomputable section

namespace Cert.Bridge

open Idealize.ShloMosaic
open Cert.KernelIdeal.Hand (kcombine kcol0 kcol1 kwrap ktake kedge kcd kresult kvar knorm kdev kmean kden
  ktake_inrange kcol0_range kcol1_range)
open Cert.ReferenceIdeal.HandRun (combine col0 col1 wrapIdx take edgeLoss edgeLen edgeDiv varOf cd result)

variable [Cert.KernelIdeal.Facts] [Cert.ReferenceIdeal.Facts] {F : FTy → Type} [FloatOps F]

-- the reductions and the gather are compared by their arguments, never by their values
attribute [local irreducible] Host.reduce Host.reduceAdd Host.gather

/-- The weighted sums are one function. -/
theorem kcombine_eq (x e : FVec F Cert.KernelIdeal.S_ .f32) : kcombine (F := F) x e = combine x e := rfl

/-- The first columns of the edge table are one function. -/
theorem kcol0_eq (a2 : IVec Cert.KernelIdeal.S12288x2 32) : kcol0 a2 = col0 a2 := rfl

/-- The second columns likewise. -/
theorem kcol1_eq (a2 : IVec Cert.KernelIdeal.S12288x2 32) : kcol1 a2 = col1 a2 := rfl

/-- The moves of a negative position up by 4096 are one function. -/
theorem kwrap_eq (col : IVec Cert.KernelIdeal.S12288 32) : kwrap col = wrapIdx col := rfl

/-- The variances of the edge lengths are one function of the two arrays of end points. -/
theorem kedge_eq (v1 v2 : FVec F Cert.KernelIdeal.S8x12288x3 .f32) : kedge (F := F) v1 v2 = edgeLoss v1 v2 := rfl

/-- At positions that all lie in 0 … 4095 the take in fill mode is the reference's gather. -/
theorem ktake_eq (a0 : FVec F Cert.KernelIdeal.S8x4096x3 .f32) (col : IVec Cert.KernelIdeal.S12288 32)
    (h : ∀ e, 0 ≤ (col e).toInt ∧ (col e).toInt < 4096) : ktake a0 col = take a0 col :=
  (ktake_inrange a0 col h).trans rfl

/-- For an edge table whose every word lies in 0 … 4095, the edge terms of the two programs agree. -/
theorem edge_eq (a0 : FVec F Cert.KernelIdeal.S8x4096x3 .f32) (a2 : IVec Cert.KernelIdeal.S12288x2 32)
    (h : ∀ i, 0 ≤ (a2 i).toInt ∧ (a2 i).toInt < 4096) :
    kedge (ktake a0 (kcol0 a2)) (ktake a0 (kcol1 a2)) = edgeLoss (take a0 (col0 a2)) (take a0 (col1 a2)) :=
  (congrArg₂ kedge (ktake_eq a0 (kcol0 a2) (kcol0_range a2 h)) (ktake_eq a0 (kcol1 a2) (kcol1_range a2 h))).trans
    (kedge_eq _ _)

/-- For such an edge table, once the chamfer terms agree the results of the two programs agree. -/
theorem result_eq_of_cd (o0 o1 : FVec F Cert.KernelIdeal.S8x1x4096 .f32) (a0 a1 : FVec F Cert.KernelIdeal.S8x4096x3 .f32)
    (a2 : IVec Cert.KernelIdeal.S12288x2 32) (h : ∀ i, 0 ≤ (a2 i).toInt ∧ (a2 i).toInt < 4096)
    (hcd : kcd (F := F) o0 o1 = cd a0 a1) : kresult o0 o1 a0 a2 = result a0 a1 a2 :=
  (congrArg₂ kcombine hcd (edge_eq a0 a2 h)).trans (kcombine_eq _ _)

end Cert.Bridge

end
-- ==== Proof.PreFacts.lean ====
/-
  The precondition read back.

  The precondition says three things of the inputs: every entry of each of the two point arrays has absolute value below
  +∞, and every word of the edge table is at least 0 and below 4096, both compared as signed integers. Read at the ideal
  instance, where a float is an extended real, an entry whose absolute value is below +∞ is neither +∞ nor the junk value
  −∞, so it is a real number. Read at an index, the two integer comparisons are the two inequalities on the word's signed
  value.
-/
import proofs.«412153_j16054587752992_3_alg».proof.Pre_finite_inputs
import Idealize.ShloMosaic.Lib.ValueIdx
import Idealize.ShloMosaic.Lib.ReduceAll
import Idealize.ShloMosaic.Lib.Affine
import Idealize.ShloMosaic.PureOps.Ideal
import Mathlib.Data.EReal.Basic

noncomputable section

namespace Cert.PreFacts

open Idealize.ShloMosaic Idealize.ShloMosaic.ValueIdx
open Cert.Pre_finite_inputs

variable [Cert.Pre_finite_inputs.Facts]
open Cert.Pre_finite_inputs.Facts

/-- The scalar shape has one index. -/
instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The four conjuncts of the precondition, each read at an index. -/
theorem split {a0 a1 : FVec Ideal S8x4096x3 .f32} {a2 : IVec S12288x2 32}
    (h : Cert.Pre_finite_inputs.fn (F := Ideal) a0 a1 a2 = fun _ => 1#1) :
    (∀ i, Ideal.cmp .olt (max (a0 i) (-(a0 i))) (Ideal.ofBits .f32 0x7F800000#32) = 1#1)
    ∧ (∀ i, Ideal.cmp .olt (max (a1 i) (-(a1 i))) (Ideal.ofBits .f32 0x7F800000#32) = 1#1)
    ∧ (∀ i, IntOp.cmpi .sge (a2 i) 0#32 = 1#1)
    ∧ (∀ i, IntOp.cmpi .slt (a2 i) 4096#32 = 1#1) := by
  have e := congrFun h ix0
  dsimp only [Cert.Pre_finite_inputs.fn, Cert.Pre_finite_inputs.fn_part1] at e
  obtain ⟨e12, e15⟩ := IntOp.andi_eq_one.1 e
  obtain ⟨e8, e11⟩ := IntOp.andi_eq_one.1 e12
  obtain ⟨e3, e7⟩ := IntOp.andi_eq_one.1 e8
  exact ⟨fun i => Host.reduce_andi_all _ _ _ _ ix0 e3 i, fun i => Host.reduce_andi_all _ _ _ _ ix0 e7 i,
    fun i => Host.reduce_andi_all _ _ _ _ ix0 e11 i, fun i => Host.reduce_andi_all _ _ _ _ ix0 e15 i⟩

/-- A condition bit that is 1 came from a true condition. -/
theorem ofBool_eq_one {b : Bool} (h : BitVec.ofBool b = 1#1) : b = true := by
  cases b
  · exact absurd h (by decide)
  · rfl

/-- A comparison "below +∞" of an absolute value that came out 1 says the entry is a real number. -/
theorem real_of_cmp (x : EReal) (h : Ideal.cmp .olt (max x (-x)) (Ideal.ofBits .f32 0x7F800000#32) = 1#1) :
    ∃ r : ℝ, x = (r : EReal) := by
  rw [ofBits_inf] at h
  have h' : BitVec.ofBool (decide (max x (-x) < (⊤ : EReal))) = 1#1 := h
  exact real_of_abs_lt_top x (of_decide_eq_true (ofBool_eq_one h'))

variable {a0 a1 : FVec Ideal S8x4096x3 .f32} {a2 : IVec S12288x2 32}

/-- Every entry of the first point array is a real number. -/
theorem finite0 (h : Cert.Pre_finite_inputs.fn (F := Ideal) a0 a1 a2 = fun _ => 1#1) : ∀ i, ∃ r : ℝ, a0 i = (r : EReal) :=
  fun i => real_of_cmp _ ((split h).1 i)

/-- Every entry of the second point array is a real number. -/
theorem finite1 (h : Cert.Pre_finite_inputs.fn (F := Ideal) a0 a1 a2 = fun _ => 1#1) : ∀ i, ∃ r : ℝ, a1 i = (r : EReal) :=
  fun i => real_of_cmp _ ((split h).2.1 i)

/-- Every word of the edge table has a signed value in 0 … 4095. -/
theorem edges_range (h : Cert.Pre_finite_inputs.fn (F := Ideal) a0 a1 a2 = fun _ => 1#1) :
    ∀ i, 0 ≤ (a2 i).toInt ∧ (a2 i).toInt < 4096 := by
  intro i
  have h0 := (split h).2.2.1 i
  have h1 := (split h).2.2.2 i
  have h0' : BitVec.ofBool ((0#32 : BitVec 32).sle (a2 i)) = 1#1 := h0
  have h1' : BitVec.ofBool ((a2 i).slt 4096#32) = 1#1 := h1
  have hz : (0#32 : BitVec 32).toInt = 0 := by decide
  have hk : (4096#32 : BitVec 32).toInt = 4096 := by decide
  have g0 := ofBool_eq_one h0'
  have g1 := ofBool_eq_one h1'
  simp only [BitVec.sle, hz, decide_eq_true_eq] at g0
  simp only [BitVec.slt, hk, decide_eq_true_eq] at g1
  exact ⟨g0, g1⟩

end Cert.PreFacts

end
-- ==== Proof.BridgeFinal.lean ====
import proofs.«412153_j16054587752992_3_alg».proof.Proof.BridgeCd
import proofs.«412153_j16054587752992_3_alg».proof.Proof.BridgeEdge
import proofs.«412153_j16054587752992_3_alg».proof.Proof.PreFacts
import proofs.«412153_j16054587752992_3_alg».proof.Proof.SpecChamfer
import proofs.«412153_j16054587752992_3_alg».proof.Proof.RefValue

/-!
The two programs' results agree under the precondition.

Under the precondition every coordinate of every point is a real number and every word of the edge table lies in
0 … 4095. Suppose the kernel's first output holds, at (b, n), x ↦ sqrt (max x 0) of the minimum over all points mm of
the second cloud of the squared distance, taken coordinate by coordinate, from point n of the first cloud; and its
second output holds, at (b, mm), the same map of the running minimum over 8 tiles of 512 points n of the first cloud.
For real coordinates the coordinatewise squared distance is the expanded one, and the map passes through finite
infima, so the first output holds the row infima of the reference's distance matrix and the second its column
infima. Then the nearest-neighbour scalars agree, the edge terms agree because the edge table is in range, and so do
the results.
-/

open scoped BigOperators

noncomputable section

namespace Cert.Bridge

open Idealize.ShloMosaic Idealize.ShloMosaic.ValueIdx

variable [Cert.KernelIdeal.Facts] [Cert.ReferenceIdeal.Facts] [Cert.Pre_finite_inputs.Facts]

/-- Point `n` of batch `b` of the first cloud, as its three coordinates; the origin for a position past the last point. -/
noncomputable def q0 (a0 : FVec Ideal Cert.KernelIdeal.S8x4096x3 .f32) (b : Fin 8) (n : ℕ) : Fin 3 → EReal :=
  fun k => if h : n < 4096 then a0 (ix3 b ⟨n, h⟩ k) else 0

/-- Point `mm` of batch `b` of the second cloud, as its three coordinates. -/
noncomputable def q1 (a1 : FVec Ideal Cert.KernelIdeal.S8x4096x3 .f32) (b : Fin 8) (mm : Fin 4096) : Fin 3 → EReal :=
  fun k => a1 (ix3 b mm k)

/-- If every entry of the first cloud is real, so is every coordinate of each of its points, the origin included. -/
theorem q0_finite (a0 : FVec Ideal Cert.KernelIdeal.S8x4096x3 .f32) (hfin : ∀ i, ∃ r : ℝ, a0 i = (r : EReal))
    (b : Fin 8) (n : ℕ) : ∀ k, ∃ r : ℝ, q0 a0 b n k = (r : EReal) := by
  intro k
  unfold q0
  by_cases h : n < 4096
  · rw [dif_pos h]; exact hfin _
  · rw [dif_neg h]; exact ⟨0, EReal.coe_zero.symm⟩

/-- If every entry of the second cloud is real, so is every coordinate of each of its points. -/
theorem q1_finite (a1 : FVec Ideal Cert.KernelIdeal.S8x4096x3 .f32) (hfin : ∀ i, ∃ r : ℝ, a1 i = (r : EReal))
    (b : Fin 8) (mm : Fin 4096) : ∀ k, ∃ r : ℝ, q1 a1 b mm k = (r : EReal) :=
  fun _ => hfin _

/-- At a position below 4096 the point is read from the array. -/
theorem q0_val (a0 : FVec Ideal Cert.KernelIdeal.S8x4096x3 .f32) (b : Fin 8) (n : Fin 4096) :
    q0 a0 b n.val = fun k => a0 (ix3 b n k) := by
  funext k
  unfold q0
  rw [dif_pos n.isLt]

/-- The reference's distance between two points is the entry of its distance matrix. -/
theorem E_eq_dist (a0 a1 : FVec Ideal Cert.KernelIdeal.S8x4096x3 .f32) (b : Fin 8) (n mm : Fin 4096) :
    Cert.Spec.E (q0 a0 b n.val) (q1 a1 b mm) = Cert.ReferenceIdeal.HandRun.dist (F := Ideal) a0 a1 (ix3 b n mm) := by
  rw [Cert.RefValue.dist_apply, q0_val]
  rfl

/-- Under the precondition, with the two outputs holding the distance of the row minimum and of the running tile minimum
    of the coordinatewise squared distances, the kernel program's result is the reference's. -/
theorem result_eq (a0 a1 : FVec Ideal Cert.KernelIdeal.S8x4096x3 .f32) (a2 : IVec Cert.KernelIdeal.S12288x2 32)
    (hpre : Cert.Pre_finite_inputs.fn (F := Ideal) a0 a1 a2 = fun _ => 1#1)
    (o0 o1 : FVec Ideal Cert.KernelIdeal.S8x1x4096 .f32)
    (h0 : ∀ (b : Fin 8) (n : Fin 4096), o0 (ix3 b 0 n)
      = Cert.Spec.fdist ((Finset.univ : Finset (Fin 4096)).inf fun mm => Cert.Spec.D (q0 a0 b n.val) (q1 a1 b mm)))
    (h1 : ∀ (b : Fin 8) (mm : Fin 4096), o1 (ix3 b 0 mm)
      = Cert.Spec.fdist (Cert.Spec.accMin (fun j => (Finset.univ : Finset (Fin 512)).inf fun r =>
          Cert.Spec.D (q0 a0 b (j * 512 + r.val)) (q1 a1 b mm)) 7)) :
    Cert.KernelIdeal.Hand.kresult (F := Ideal) o0 o1 a0 a2 = Cert.ReferenceIdeal.HandRun.result (F := Ideal) a0 a1 a2 := by
  have f0 := Cert.PreFacts.finite0 hpre
  have f1 := Cert.PreFacts.finite1 hpre
  refine result_eq_of_cd o0 o1 a0 a1 a2 (Cert.PreFacts.edges_range hpre) (kcd_eq_cd o0 o1 a0 a1 ?_ ?_)
  · intro b n
    rw [h0 b n, Cert.Spec.rowmin_bridge (q0 a0 b n.val) (q1 a1 b) (q0_finite a0 f0 b n.val) (fun mm => q1_finite a1 f1 b mm)]
    exact Finset.inf_congr rfl fun mm _ => E_eq_dist a0 a1 b n mm
  · intro b mm
    rw [h1 b mm, Cert.Spec.colmin_bridge (q0 a0 b) (q1 a1 b mm) (fun n => q0_finite a0 f0 b n) (q1_finite a1 f1 b mm)]
    exact Finset.inf_congr rfl fun n _ => E_eq_dist a0 a1 b n mm

end Cert.Bridge

end
-- ==== Proof.lean ====
/-
  The certificate's claims, assembled.

  Two programs compute, for two clouds of 4096 points of ℝ³ in each of 8 batches, the mean distance from a point of one
  cloud to the nearest point of the other, in both directions, plus an edge-length term of the first cloud. The kernel
  forms the squared distance of two points coordinate by coordinate, ((p0-g0)² + (p1-g1)²) + (p2-g2)²; for a tile of
  512 rows it takes the minimum of each row over the 4096 columns, and the minimum of each column over the tile's rows,
  which it accumulates over the eight row tiles of a batch starting from +inf, the neutral element of the minimum; it
  applies x ↦ sqrt (max x 0) after the minimum. The reference expands the square as (|p|² + |g|²) − 2 (p·g), applies
  x ↦ sqrt (max x 0) to every entry first, and then takes the minima over rows and over columns.

  On finite inputs the two agree: the expansion of the square is an identity of real numbers, and x ↦ sqrt (max x 0) is
  monotone and fixes +inf, so it commutes with minima and with finite infima; a running minimum from +inf over eight
  tiles of 512 is the infimum over all 4096. The edge-length term is one and the same host computation on both sides
  once every edge index lies in 0 … 4095: the kernel side's in-range mask is then all ones and its NaN fill is never
  selected. That the coordinates are finite and the edge indices in range is what the precondition states.

  The three frame claims (every run terminates without fault and leaves the argument arrays as they were) come, for the
  kernel at either instance, from the pipelined run of its one region followed by its host tail, and for the reference
  from its host run; the value claim at the ideal instance joins the kernel's run, with its two outputs read as the
  distance of the row minimum and of the running tile minimum of the coordinatewise squared distances, to the
  reference's run through the agreement above. The idealization rewrote no operation, so there is nothing to preserve.
-/
import proofs.«412153_j16054587752992_3_alg».proof.Defs
import proofs.«412153_j16054587752992_3_alg».proof.Proof.Gen.Kernel
import proofs.«412153_j16054587752992_3_alg».proof.Proof.Gen.Kernel.Skeleton
import proofs.«412153_j16054587752992_3_alg».proof.Proof.Gen.Kernel.Launch
import proofs.«412153_j16054587752992_3_alg».proof.Proof.Gen.Kernel.Points
import proofs.«412153_j16054587752992_3_alg».proof.Proof.Gen.KernelIdeal
import proofs.«412153_j16054587752992_3_alg».proof.Proof.Gen.KernelIdeal.Skeleton
import proofs.«412153_j16054587752992_3_alg».proof.Proof.Gen.KernelIdeal.Launch
import proofs.«412153_j16054587752992_3_alg».proof.Proof.Gen.KernelIdeal.Points
import proofs.«412153_j16054587752992_3_alg».proof.Proof.Gen.ReferenceIdeal
import proofs.«412153_j16054587752992_3_alg».proof.Proof.Gen.Pre_finite_inputs
import proofs.«412153_j16054587752992_3_alg».proof.Proof.K.Frame
import proofs.«412153_j16054587752992_3_alg».proof.Proof.KI.Frame
import proofs.«412153_j16054587752992_3_alg».proof.Proof.KI.Value
import proofs.«412153_j16054587752992_3_alg».proof.Proof.KI.RunValue
import proofs.«412153_j16054587752992_3_alg».proof.Proof.RefRun
import proofs.«412153_j16054587752992_3_alg».proof.Proof.BridgeFinal
import Idealize.ShloMosaic.Adequacy
import Idealize.ShloMosaic.Init

noncomputable section

namespace Cert.Proof

open Idealize.ShloMosaic Idealize.SL.Sem Cert.Kernel

/-- The kernel as printed runs and keeps its arguments. -/
theorem frame_k : Cert.frame_Kernel := fun m ρ _ => Cert.Kernel.Hand.frame m ρ

/-- The kernel at the ideal instance runs and keeps its arguments. -/
theorem frame_ki : Cert.frame_KernelIdeal := fun m ρ _ => Cert.KernelIdeal.Hand.frame m ρ

/-- The reference at the ideal instance runs and keeps its arguments: its run's post without the result. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- At the ideal instance, from arguments that agree and satisfy the precondition, the kernel's result is the reference's:
    the kernel's two outputs hold the distance of the row minimum and of the running tile minimum of the coordinatewise
    squared distances, and under the precondition these are the row and column infima of the reference's distances. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  exact (Cert.Bridge.result_eq _ _ _ (hpre c) _ _ (Cert.KernelIdeal.Hand.G2_apply m c)
    (Cert.KernelIdeal.Hand.G3_apply m c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
